-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S64x64 : Shape := ⟨2, ![64, 64]⟩
abbrev S256x64 : Shape := ⟨2, ![256, 64]⟩
abbrev S256 : Shape := ⟨1, ![256]⟩
abbrev S64x256 : Shape := ⟨2, ![64, 256]⟩
abbrev S64 : Shape := ⟨1, ![64]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg14 : FVec F S64 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg11 : FVec F S256x64 .f32) (main_arg12 : FVec F S256 .f32) (main_arg13 : FVec F S64x256 .f32) (main_arg14 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S256x64 .f32 := Host.absf main_arg11
  let main_cst_20 : FVec F S_ .f32 := constant S_ .f32 0x7F800000#32
  let main_v55 : FVec F S256x64 .f32 := broadcastInDim S256x64 ![] bcast_S_S256x64 main_cst_20
  let main_v56 : IVec S256x64 1 := cmpf .olt main_v54 main_v55
  let main_c_21 : IVec S_ 1 := constantI S_ 1 1#1
  let main_v57 : IVec S_ 1 := (fun x v => Host.reduce IntOp.andi x v reducesTo_S256x64_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S64x256 .f32 := Host.absf main_arg13
  let main_cst_24 : FVec F S_ .f32 := constant S_ .f32 0x7F800000#32
  let main_v65 : FVec F S64x256 .f32 := broadcastInDim S64x256 ![] bcast_S_S64x256 main_cst_24
  let main_v66 : IVec S64x256 1 := cmpf .olt main_v64 main_v65
  let main_c_25 : IVec S_ 1 := constantI S_ 1 1#1
  let main_v67 : IVec S_ 1 := (fun x v => Host.reduce IntOp.andi x v reducesTo_S64x256_S_d0_1 h_S_) main_v66 main_c_25
  fn_part4 (F := F) main_arg14 main_v63 main_v67

def fn_part2 {F : FTy → Type} [FloatOps F] (main_arg7 : FVec F S256x64 .f32) (main_arg8 : FVec F S256 .f32) (main_arg9 : FVec F S64x256 .f32) (main_arg10 : FVec F S64 .f32) (main_arg11 : FVec F S256x64 .f32) (main_arg12 : FVec F S256 .f32) (main_arg13 : FVec F S64x256 .f32) (main_arg14 : FVec F S64 .f32) (main_v33 : IVec S_ 1) : IVec S_ 1 :=
  let main_v34 : FVec F S256x64 .f32 := Host.absf main_arg7
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S64x256 .f32 := Host.absf main_arg9
  let main_cst_16 : FVec F S_ .f32 := constant S_ .f32 0x7F800000#32
  let main_v45 : FVec F S64x256 .f32 := broadcastInDim S64x256 ![] bcast_S_S64x256 main_cst_16
  let main_v46 : IVec S64x256 1 := cmpf .olt main_v44 main_v45
  let main_c_17 : IVec S_ 1 := constantI S_ 1 1#1
  let main_v47 : IVec S_ 1 := (fun x v => Host.reduce IntOp.andi x v reducesTo_S64x256_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_v48 main_v49 main_v50

def fn_part1 {F : FTy → Type} [FloatOps F] (main_arg4 : FVec F S64x64 .f32) (main_arg5 : FVec F S64x64 .f32) (main_arg6 : FVec F S64x64 .f32) (main_arg7 : FVec F S256x64 .f32) (main_arg8 : FVec F S256 .f32) (main_arg9 : FVec F S64x256 .f32) (main_arg10 : FVec F S64 .f32) (main_arg11 : FVec F S256x64 .f32) (main_arg12 : FVec F S256 .f32) (main_arg13 : FVec F S64x256 .f32) (main_arg14 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4x4096x64 .f32) (main_arg1 : FVec F S64x64 .f32) (main_arg2 : FVec F S64x64 .f32) (main_arg3 : FVec F S64x64 .f32) (main_arg4 : FVec F S64x64 .f32) (main_arg5 : FVec F S64x64 .f32) (main_arg6 : FVec F S64x64 .f32) (main_arg7 : FVec F S256x64 .f32) (main_arg8 : FVec F S256 .f32) (main_arg9 : FVec F S64x256 .f32) (main_arg10 : FVec F S64 .f32) (main_arg11 : FVec F S256x64 .f32) (main_arg12 : FVec F S256 .f32) (main_arg13 : FVec F S64x256 .f32) (main_arg14 : FVec F S64 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4x4096x64 : Shape := ⟨3, ![4, 4096, 64]⟩
abbrev S64x64 : Shape := ⟨2, ![64, 64]⟩
abbrev S256x64 : Shape := ⟨2, ![256, 64]⟩
abbrev S256 : Shape := ⟨1, ![256]⟩
abbrev S64x256 : Shape := ⟨2, ![64, 256]⟩
abbrev S64 : Shape := ⟨1, ![64]⟩
abbrev S64x128 : Shape := ⟨2, ![64, 128]⟩
abbrev S1x256 : Shape := ⟨2, ![1, 256]⟩
abbrev S1x64 : Shape := ⟨2, ![1, 64]⟩
abbrev S1x4096x64 : Shape := ⟨3, ![1, 4096, 64]⟩
abbrev S4096x128 : Shape := ⟨2, ![4096, 128]⟩
abbrev S4096x64 : Shape := ⟨2, ![4096, 64]⟩
abbrev S1x512x64 : Shape := ⟨3, ![1, 512, 64]⟩
abbrev S512x64 : Shape := ⟨2, ![512, 64]⟩
abbrev S512x4096 : Shape := ⟨2, ![512, 4096]⟩
abbrev S512 : Shape := ⟨1, ![512]⟩
abbrev S512x1 : Shape := ⟨2, ![512, 1]⟩
abbrev S512x256 : Shape := ⟨2, ![512, 256]⟩

abbrev nBuf : Space → Nat
  | .hbm => 30
  | .vmem => 18
  | .smem => 0
  | _ => 0

abbrev bufTy : (tb : Table) → Fin (tcTables nBuf tb) → BufTy
  | .hbm, ⟨0, _⟩ => ⟨S4x4096x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S256x64, .f32⟩
  | .hbm, ⟨8, _⟩ => ⟨S256, .f32⟩
  | .hbm, ⟨9, _⟩ => ⟨S64x256, .f32⟩
  | .hbm, ⟨10, _⟩ => ⟨S64, .f32⟩
  | .hbm, ⟨11, _⟩ => ⟨S256x64, .f32⟩
  | .hbm, ⟨12, _⟩ => ⟨S256, .f32⟩
  | .hbm, ⟨13, _⟩ => ⟨S64x256, .f32⟩
  | .hbm, ⟨14, _⟩ => ⟨S64, .f32⟩
  | .hbm, ⟨15, _⟩ => ⟨S64x64, .bf16⟩
  | .hbm, ⟨16, _⟩ => ⟨S64x128, .f32⟩
  | .hbm, ⟨17, _⟩ => ⟨S64x128, .bf16⟩
  | .hbm, ⟨18, _⟩ => ⟨S256x64, .bf16⟩
  | .hbm, ⟨19, _⟩ => ⟨S64x256, .bf16⟩
  | .hbm, ⟨20, _⟩ => ⟨S64x64, .bf16⟩
  | .hbm, ⟨21, _⟩ => ⟨S64x128, .f32⟩
  | .hbm, ⟨22, _⟩ => ⟨S64x128, .bf16⟩
  | .hbm, ⟨23, _⟩ => ⟨S256x64, .bf16⟩
  | .hbm, ⟨24, _⟩ => ⟨S64x256, .bf16⟩
  | .hbm, ⟨25, _⟩ => ⟨S1x256, .f32⟩
  | .hbm, ⟨26, _⟩ => ⟨S1x64, .f32⟩
  | .hbm, ⟨27, _⟩ => ⟨S1x256, .f32⟩
  | .hbm, ⟨28, _⟩ => ⟨S1x64, .f32⟩
  | .hbm, ⟨29, _⟩ => ⟨S4x4096x64, .f32⟩
  | .local _ .vmem, ⟨0, _⟩ => ⟨S1x4096x64, .f32⟩
  | .local _ .vmem, ⟨1, _⟩ => ⟨S1x4096x64, .f32⟩
  | .local _ .vmem, ⟨2, _⟩ => ⟨S64x64, .bf16⟩
  | .local _ .vmem, ⟨3, _⟩ => ⟨S64x128, .bf16⟩
  | .local _ .vmem, ⟨4, _⟩ => ⟨S256x64, .bf16⟩
  | .local _ .vmem, ⟨5, _⟩ => ⟨S1x256, .f32⟩
  | .local _ .vmem, ⟨6, _⟩ => ⟨S64x256, .bf16⟩
  | .local _ .vmem, ⟨7, _⟩ => ⟨S1x64, .f32⟩
  | .local _ .vmem, ⟨8, _⟩ => ⟨S64x64, .bf16⟩
  | .local _ .vmem, ⟨9, _⟩ => ⟨S64x128, .bf16⟩
  | .local _ .vmem, ⟨10, _⟩ => ⟨S256x64, .bf16⟩
  | .local _ .vmem, ⟨11, _⟩ => ⟨S1x256, .f32⟩
  | .local _ .vmem, ⟨12, _⟩ => ⟨S64x256, .bf16⟩
  | .local _ .vmem, ⟨13, _⟩ => ⟨S1x64, .f32⟩
  | .local _ .vmem, ⟨14, _⟩ => ⟨S1x4096x64, .f32⟩
  | .local _ .vmem, ⟨15, _⟩ => ⟨S1x4096x64, .f32⟩
  | .local _ .vmem, ⟨16, _⟩ => ⟨S4096x128, .f32⟩
  | .local _ .vmem, ⟨17, _⟩ => ⟨S4096x64, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v21 : BitVec 32 := Scalar.addi c0_i32 c8_i32
  let c1_i32 : BitVec 32 := 1#32
  ⟨c0_i32, v21, c1_i32⟩
def k0_mult1 (k0_t1 : Fin k0_t1_loop.trips) : BitVec 32 :=
  let c0_i32_42 : BitVec 32 := 0#32
  let c0_i32 : BitVec 32 := 0#32
  let c1_i32 : BitVec 32 := 1#32
  let arg17 : BitVec 32 := Scf.iv c0_i32 c1_i32 k0_t1
  let c1_i32_41 : BitVec 32 := 1#32
  let v43 : BitVec 32 := Scalar.muli arg17 c1_i32_41
  let v44 : BitVec 32 := Scalar.addi c0_i32_42 v43
  let c512_i32 : BitVec 32 := 512#32
  let v45 : BitVec 32 := Scalar.muli v44 c512_i32
  v45
def k0_off1 (k0_t1 : Fin k0_t1_loop.trips) : Fin 3 → Nat :=
  let c0_43 : Index := 0#32
  let c0_i32_42 : BitVec 32 := 0#32
  let c0_i32 : BitVec 32 := 0#32
  let c1_i32 : BitVec 32 := 1#32
  let arg17 : BitVec 32 := Scf.iv c0_i32 c1_i32 k0_t1
  let c1_i32_41 : BitVec 32 := 1#32
  let v43 : BitVec 32 := Scalar.muli arg17 c1_i32_41
  let v44 : BitVec 32 := Scalar.addi c0_i32_42 v43
  let c512_i32 : BitVec 32 := 512#32
  let v45 : BitVec 32 := Scalar.muli v44 c512_i32
  let v46 : BitVec 32 := v45
  let v47 : Index := Scalar.indexCast v46
  let c0_44 : Index := 0#32
  ![0, v47.toNat, 0]
def k0_off2 (k0_t1 : Fin k0_t1_loop.trips) : Fin 2 → Nat :=
  let c0_i32_42 : BitVec 32 := 0#32
  let c0_i32 : BitVec 32 := 0#32
  let c1_i32 : BitVec 32 := 1#32
  let arg17 : BitVec 32 := Scf.iv c0_i32 c1_i32 k0_t1
  let c1_i32_41 : BitVec 32 := 1#32
  let v43 : BitVec 32 := Scalar.muli arg17 c1_i32_41
  let v44 : BitVec 32 := Scalar.addi c0_i32_42 v43
  let c512_i32 : BitVec 32 := 512#32
  let v45 : BitVec 32 := Scalar.muli v44 c512_i32
  let v46 : BitVec 32 := v45
  let v83 : Index := Scalar.indexCast v46
  let c0_57 : Index := 0#32
  ![v83.toNat, 0]
@[reducible] def k0_t2_loop : Scf.Loop 32 :=
  let c0_i32_37 : BitVec 32 := 0#32
  let c8_i32_38 : BitVec 32 := 8#32
  let v42 : BitVec 32 := Scalar.addi c0_i32_37 c8_i32_38
  let c1_i32_39 : BitVec 32 := 1#32
  ⟨c0_i32_37, v42, c1_i32_39⟩
def k0_mult2 (k0_t2 : Fin k0_t2_loop.trips) : BitVec 32 :=
  let c0_i32_42 : BitVec 32 := 0#32
  let c0_i32_37 : BitVec 32 := 0#32
  let c1_i32_39 : BitVec 32 := 1#32
  let arg17 : BitVec 32 := Scf.iv c0_i32_37 c1_i32_39 k0_t2
  let c1_i32_41 : BitVec 32 := 1#32
  let v43 : BitVec 32 := Scalar.muli arg17 c1_i32_41
  let v44 : BitVec 32 := Scalar.addi c0_i32_42 v43
  let c512_i32 : BitVec 32 := 512#32
  let v45 : BitVec 32 := Scalar.muli v44 c512_i32
  v45
def k0_off3 (k0_t2 : Fin k0_t2_loop.trips) : Fin 2 → Nat :=
  let c0_i32_42 : BitVec 32 := 0#32
  let c0_i32_37 : BitVec 32 := 0#32
  let c1_i32_39 : BitVec 32 := 1#32
  let arg17 : BitVec 32 := Scf.iv c0_i32_37 c1_i32_39 k0_t2
  let c1_i32_41 : BitVec 32 := 1#32
  let v43 : BitVec 32 := Scalar.muli arg17 c1_i32_41
  let v44 : BitVec 32 := Scalar.addi c0_i32_42 v43
  let c512_i32 : BitVec 32 := 512#32
  let v45 : BitVec 32 := Scalar.muli v44 c512_i32
  let v46 : BitVec 32 := v45
  let v47 : Index := Scalar.indexCast v46
  let c0_43 : Index := 0#32
  ![v47.toNat, 0]
def k0_off4 (k0_t2 : Fin k0_t2_loop.trips) : Fin 3 → Nat :=
  let c0_56 : Index := 0#32
  let c0_i32_42 : BitVec 32 := 0#32
  let c0_i32_37 : BitVec 32 := 0#32
  let c1_i32_39 : BitVec 32 := 1#32
  let arg17 : BitVec 32 := Scf.iv c0_i32_37 c1_i32_39 k0_t2
  let c1_i32_41 : BitVec 32 := 1#32
  let v43 : BitVec 32 := Scalar.muli arg17 c1_i32_41
  let v44 : BitVec 32 := Scalar.addi c0_i32_42 v43
  let c512_i32 : BitVec 32 := 512#32
  let v45 : BitVec 32 := Scalar.muli v44 c512_i32
  let v46 : BitVec 32 := v45
  let v82 : Index := Scalar.indexCast v46
  let c0_57 : Index := 0#32
  ![0, v82.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x4096x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bitsLt_bf16_f32 : FTy.bits .bf16 < FTy.bits .f32
  concatenates_S64x64_S64x64_S64x128_d1 : Shape.Concatenates [S64x64, S64x64] S64x128 1
  shapeCasts_S256_S1x256 : S256.ShapeCasts S1x256
  shapeCasts_S64_S1x64 : S64.ShapeCasts S1x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x128_S4096x64_0_0 : ∀ a, (![0, 0] : Fin 2 → Nat) a + S4096x64.size a ≤ S4096x128.size a
  h_S4096x64 : 0 < S4096x64.numel
  inb_S4096x128_S4096x64_0_64 : ∀ a, (![0, 64] : Fin 2 → Nat) a + S4096x64.size a ≤ S4096x128.size a
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x64_S1x64_0_0 : ∀ a, (![0, 0] : Fin 2 → Nat) a + S1x64.size a ≤ S1x64.size a
  h_S1x64 : 0 < S1x64.numel
  shapeCasts_S1x64_S1x64 : S1x64.ShapeCasts S1x64
  h_S1x512x64 : 0 < S1x512x64.numel
  shapeCasts_S1x512x64_S512x64 : S1x512x64.ShapeCasts S512x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  reduces_S512x4096_S512 : S512x4096.Reduces [1] S512
  shapeCasts_S512_S512x1 : S512.ShapeCasts S512x1
  broadcasts_S512x1_S512x4096 : S512x1.Broadcasts S512x4096
  broadcasts_S512x1_S512x64 : S512x1.Broadcasts S512x64
  broadcasts_S1x256_S512x256 : S1x256.Broadcasts S512x256
  broadcasts_S1x64_S512x64 : S1x64.Broadcasts S512x64
  h_S512x64 : 0 < S512x64.numel
  shapeCasts_S512x64_S512x64 : S512x64.ShapeCasts S512x64
  inb_S4096x64_S4096x64_0_0 : ∀ a, (![0, 0] : Fin 2 → Nat) a + S4096x64.size a ≤ S4096x64.size a
  shapeCasts_S512x64_S1x512x64 : S512x64.ShapeCasts S1x512x64
  dot_S4096x64_S64x128_S4096x128_1_0_0_1_n_n_wf : DotDims.WF S4096x64 S64x128 S4096x128 [1] [0] [0] [1] [] []
  dot_S512x64_S64x64_S512x64_1_0_0_1_n_n_wf : DotDims.WF S512x64 S64x64 S512x64 [1] [0] [0] [1] [] []
  dot_S512x64_S4096x64_S512x4096_1_1_0_0_n_n_wf : DotDims.WF S512x64 S4096x64 S512x4096 [1] [1] [0] [0] [] []
  dot_S512x4096_S4096x64_S512x64_1_0_0_1_n_n_wf : DotDims.WF S512x4096 S4096x64 S512x64 [1] [0] [0] [1] [] []
  dot_S512x64_S256x64_S512x256_1_1_0_0_n_n_wf : DotDims.WF S512x64 S256x64 S512x256 [1] [1] [0] [0] [] []
  dot_S512x256_S64x256_S512x64_1_1_0_0_n_n_wf : DotDims.WF S512x256 S64x256 S512x64 [1] [1] [0] [0] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S1x512x64.size a ≤ S1x4096x64.size a
  k0_off2_inb : ∀ k0_t1 : Fin k0_t1_loop.trips, ∀ a, (k0_off2 k0_t1) a + S512x64.size a ≤ S4096x64.size a
  k0_t2_ok : k0_t2_loop.OK
  k0_mult2_dvd : ∀ k0_t2 : Fin k0_t2_loop.trips, 512 ∣ (k0_mult2 k0_t2).toNat
  k0_off3_inb : ∀ k0_t2 : Fin k0_t2_loop.trips, ∀ a, (k0_off3 k0_t2) a + S512x64.size a ≤ S4096x64.size a
  k0_off4_inb : ∀ k0_t2 : Fin k0_t2_loop.trips, ∀ a, (k0_off4 k0_t2) a + S1x512x64.size a ≤ S1x4096x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x64.size a ≤ S4x4096x64.size a
  hwx0_0 : ∀ i : grid0.Coords, EltTy.bits .f32 = 32 ∨ (Rect.block (s := S4x4096x64) S1x4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .bf16 = 32 ∨ (Rect.block (s := S64x64) S64x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .bf16 = 32 ∨ (Rect.block (s := S64x128) S64x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .bf16 = 32 ∨ (Rect.block (s := S256x64) S256x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x256.size a
  hwx0_5 : ∀ i : grid0.Coords, EltTy.bits .bf16 = 32 ∨ (Rect.block (s := S64x256) S64x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .bf16 = 32 ∨ (Rect.block (s := S64x64) S64x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x128.size a ≤ S64x128.size a
  hwx0_8 : ∀ i : grid0.Coords, EltTy.bits .bf16 = 32 ∨ (Rect.block (s := S64x128) S64x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x64.size a ≤ S256x64.size a
  hwx0_9 : ∀ i : grid0.Coords, EltTy.bits .bf16 = 32 ∨ (Rect.block (s := S256x64) S256x64.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x256.size a ≤ S64x256.size a
  hwx0_11 : ∀ i : grid0.Coords, EltTy.bits .bf16 = 32 ∨ (Rect.block (s := S64x256) S64x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x4096x64.size a ≤ S4x4096x64.size a
  hwx0_13 : ∀ i : grid0.Coords, EltTy.bits .f32 = 32 ∨ (Rect.block (s := S4x4096x64) S1x4096x64.size (cc0_transform_13 i) (hinb0_13 i)).WholeWords (EltTy.packing .f32)

variable [Facts₀]

def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S4096x64_S512x4096_1_1_0_0_n_n : DotDims S512x64 S4096x64 S512x4096 where
  lhsContracting := [1]
  rhsContracting := [1]
  lhsNonContracting := [0]
  rhsNonContracting := [0]
  lhsBatch := []
  rhsBatch := []
  wf := dot_S512x64_S4096x64_S512x4096_1_1_0_0_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf
def dot_S512x64_S256x64_S512x256_1_1_0_0_n_n : DotDims S512x64 S256x64 S512x256 where
  lhsContracting := [1]
  rhsContracting := [1]
  lhsNonContracting := [0]
  rhsNonContracting := [0]
  lhsBatch := []
  rhsBatch := []
  wf := dot_S512x64_S256x64_S512x256_1_1_0_0_n_n_wf
def dot_S512x256_S64x256_S512x64_1_1_0_0_n_n : DotDims S512x256 S64x256 S512x64 where
  lhsContracting := [1]
  rhsContracting := [1]
  lhsNonContracting := [0]
  rhsNonContracting := [0]
  lhsBatch := []
  rhsBatch := []
  wf := dot_S512x256_S64x256_S512x64_1_1_0_0_n_n_wf

abbrev win0_0 : Pipeline.Window sig grid0 :=
  Pipeline.Window.ofSpec (Memref.whole main_arg0) S1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S64x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S64x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S256x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S64x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v14) S1x4096x64.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S4x4096x64 : Shape := ⟨3, ![4, 4096, 64]⟩
abbrev S64x64 : Shape := ⟨2, ![64, 64]⟩
abbrev S256x64 : Shape := ⟨2, ![256, 64]⟩
abbrev S256 : Shape := ⟨1, ![256]⟩
abbrev S64x256 : Shape := ⟨2, ![64, 256]⟩
abbrev S64 : Shape := ⟨1, ![64]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x4096x256 : Shape := ⟨3, ![4, 4096, 256]⟩
abbrev S1x1x256 : Shape := ⟨3, ![1, 1, 256]⟩
abbrev S1x1x64 : Shape := ⟨3, ![1, 1, 64]⟩

abbrev nBuf : Space → Nat
  | .hbm => 107
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S256x64, .f32⟩
  | .hbm, ⟨8, _⟩ => ⟨S256, .f32⟩
  | .hbm, ⟨9, _⟩ => ⟨S64x256, .f32⟩
  | .hbm, ⟨10, _⟩ => ⟨S64, .f32⟩
  | .hbm, ⟨11, _⟩ => ⟨S256x64, .f32⟩
  | .hbm, ⟨12, _⟩ => ⟨S256, .f32⟩
  | .hbm, ⟨13, _⟩ => ⟨S64x256, .f32⟩
  | .hbm, ⟨14, _⟩ => ⟨S64, .f32⟩
  | .hbm, ⟨15, _⟩ => ⟨S4x4096x64, .f32⟩
  | .hbm, ⟨16, _⟩ => ⟨S4x4096x64, .f32⟩
  | .hbm, ⟨17, _⟩ => ⟨S4x4096x64, .f32⟩
  | .hbm, ⟨18, _⟩ => ⟨S4x4096x4096, .f32⟩
  | .hbm, ⟨19, _⟩ => ⟨S_, .f32⟩
  | .hbm, ⟨20, _⟩ => ⟨S_, .f32⟩
  | .hbm, ⟨21, _⟩ => ⟨S4x4096x4096, .f32⟩
  | .hbm, ⟨22, _⟩ => ⟨S4x4096x4096, .f32⟩
  | .hbm, ⟨23, _⟩ => ⟨S_, .f32⟩
  | .hbm, ⟨24, _⟩ => ⟨S4x4096, .f32⟩
  | .hbm, ⟨25, _⟩ => ⟨S_, .f32⟩
  | .hbm, ⟨26, _⟩ => ⟨S4x4096, .f32⟩
  | .hbm, ⟨27, _⟩ => ⟨S4x4096, .f32⟩
  | .hbm, ⟨28, _⟩ => ⟨S4x4096x1, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S4x4096x4096, .f32⟩
  | .hbm, ⟨36, _⟩ => ⟨S4x4096x4096, .f32⟩
  | .hbm, ⟨37, _⟩ => ⟨S4x4096x64, .f32⟩
  | .hbm, ⟨38, _⟩ => ⟨S4x4096x256, .f32⟩
  | .hbm, ⟨39, _⟩ => ⟨S1x1x256, .f32⟩
  | .hbm, ⟨40, _⟩ => ⟨S4x4096x256, .f32⟩
  | .hbm, ⟨41, _⟩ => ⟨S4x4096x256, .f32⟩
  | .hbm, ⟨42, _⟩ => ⟨S_, .f32⟩
  | .hbm, ⟨43, _⟩ => ⟨S4x4096x256, .f32⟩
  | .hbm, ⟨44, _⟩ => ⟨S4x4096x256, .i1⟩
  | .hbm, ⟨45, _⟩ => ⟨S_, .f32⟩
  | .hbm, ⟨46, _⟩ => ⟨S4x4096x256, .f32⟩
  | .hbm, ⟨47, _⟩ => ⟨S4x4096x256, .i1⟩
  | .hbm, ⟨48, _⟩ => ⟨S_, .f32⟩
  | .hbm, ⟨49, _⟩ => ⟨S_, .f32⟩
  | .hbm, ⟨50, _⟩ => ⟨S4x4096x256, .f32⟩
  | .hbm, ⟨51, _⟩ => ⟨S4x4096x256, .f32⟩
  | .hbm, ⟨52, _⟩ => ⟨S4x4096x256, .f32⟩
  | .hbm, ⟨53, _⟩ => ⟨S_, .f32⟩
  | .hbm, ⟨54, _⟩ => ⟨S4x4096x256, .f32⟩
  | .hbm, ⟨55, _⟩ => ⟨S4x4096x256, .f32⟩
  | .hbm, ⟨56, _⟩ => ⟨S4x4096x256, .f32⟩
  | .hbm, ⟨57, _⟩ => ⟨S4x4096x64, .f32⟩
  | .hbm, ⟨58, _⟩ => ⟨S1x1x64, .f32⟩
  | .hbm, ⟨59, _⟩ => ⟨S4x4096x64, .f32⟩
  | .hbm, ⟨60, _⟩ => ⟨S4x4096x64, .f32⟩
  | .hbm, ⟨61, _⟩ => ⟨S4x4096x64, .f32⟩
  | .hbm, ⟨62, _⟩ => ⟨S4x4096x64, .f32⟩
  | .hbm, ⟨63, _⟩ => ⟨S4x4096x64, .f32⟩
  | .hbm, ⟨64, _⟩ => ⟨S4x4096x4096, .f32⟩
  | .hbm, ⟨65, _⟩ => ⟨S_, .f32⟩
  | .hbm, ⟨66, _⟩ => ⟨S_, .f32⟩
  | .hbm, ⟨67, _⟩ => ⟨S4x4096x4096, .f32⟩
  | .hbm, ⟨68, _⟩ => ⟨S4x4096x4096, .f32⟩
  | .hbm, ⟨69, _⟩ => ⟨S_, .f32⟩
  | .hbm, ⟨70, _⟩ => ⟨S4x4096, .f32⟩
  | .hbm, ⟨71, _⟩ => ⟨S_, .f32⟩
  | .hbm, ⟨72, _⟩ => ⟨S4x4096, .f32⟩
  | .hbm, ⟨73, _⟩ => ⟨S4x4096, .f32⟩
  | .hbm, ⟨74, _⟩ => ⟨S4x4096x1, .f32⟩
  | .hbm, ⟨75, _⟩ => ⟨S4x4096x4096, .f32⟩
  | .hbm, ⟨76, _⟩ => ⟨S4x4096x4096, .f32⟩
  | .hbm, ⟨77, _⟩ => ⟨S4x4096x4096, .f32⟩
  | .hbm, ⟨78, _⟩ => ⟨S_, .f32⟩
  | .hbm, ⟨79, _⟩ => ⟨S4x4096, .f32⟩
  | .hbm, ⟨80, _⟩ => ⟨S4x4096x1, .f32⟩
  | .hbm, ⟨81, _⟩ => ⟨S4x4096x4096, .f32⟩
  | .hbm, ⟨82, _⟩ => ⟨S4x4096x4096, .f32⟩
  | .hbm, ⟨83, _⟩ => ⟨S4x4096x64, .f32⟩
  | .hbm, ⟨84, _⟩ => ⟨S4x4096x256, .f32⟩
  | .hbm, ⟨85, _⟩ => ⟨S1x1x256, .f32⟩
  | .hbm, ⟨86, _⟩ => ⟨S4x4096x256, .f32⟩
  | .hbm, ⟨87, _⟩ => ⟨S4x4096x256, .f32⟩
  | .hbm, ⟨88, _⟩ => ⟨S_, .f32⟩
  | .hbm, ⟨89, _⟩ => ⟨S4x4096x256, .f32⟩
  | .hbm, ⟨90, _⟩ => ⟨S4x4096x256, .i1⟩
  | .hbm, ⟨91, _⟩ => ⟨S_, .f32⟩
  | .hbm, ⟨92, _⟩ => ⟨S4x4096x256, .f32⟩
  | .hbm, ⟨93, _⟩ => ⟨S4x4096x256, .i1⟩
  | .hbm, ⟨94, _⟩ => ⟨S_, .f32⟩
  | .hbm, ⟨95, _⟩ => ⟨S_, .f32⟩
  | .hbm, ⟨96, _⟩ => ⟨S4x4096x256, .f32⟩
  | .hbm, ⟨97, _⟩ => ⟨S4x4096x256, .f32⟩
  | .hbm, ⟨98, _⟩ => ⟨S4x4096x256, .f32⟩
  | .hbm, ⟨99, _⟩ => ⟨S_, .f32⟩
  | .hbm, ⟨100, _⟩ => ⟨S4x4096x256, .f32⟩
  | .hbm, ⟨101, _⟩ => ⟨S4x4096x256, .f32⟩
  | .hbm, ⟨102, _⟩ => ⟨S4x4096x256, .f32⟩
  | .hbm, ⟨103, _⟩ => ⟨S4x4096x64, .f32⟩
  | .hbm, ⟨104, _⟩ => ⟨S1x1x64, .f32⟩
  | .hbm, ⟨105, _⟩ => ⟨S4x4096x64, .f32⟩
  | .hbm, ⟨106, _⟩ => ⟨S4x4096x64, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call0_cst : Ref sig .tc := ⟨.hbm, 42, rfl⟩
abbrev main_call0_v0 : Ref sig .tc := ⟨.hbm, 43, rfl⟩
abbrev main_call0_v1 : Ref sig .tc := ⟨.hbm, 44, rfl⟩
abbrev main_call0_cst_0 : Ref sig .tc := ⟨.hbm, 45, rfl⟩
abbrev main_call0_v2 : Ref sig .tc := ⟨.hbm, 46, rfl⟩
abbrev main_call0_v3 : Ref sig .tc := ⟨.hbm, 47, rfl⟩
abbrev main_call0_cst_1 : Ref sig .tc := ⟨.hbm, 48, rfl⟩
abbrev main_call0_call0_v0 : Ref sig .tc := ⟨.hbm, 49, rfl⟩
abbrev main_call0_call0_v1 : Ref sig .tc := ⟨.hbm, 50, rfl⟩
abbrev main_call0_v4 : Ref sig .tc := ⟨.hbm, 51, rfl⟩
abbrev main_call0_v5 : Ref sig .tc := ⟨.hbm, 52, rfl⟩
abbrev main_call0_cst_2 : Ref sig .tc := ⟨.hbm, 53, rfl⟩
abbrev main_call0_v6 : Ref sig .tc := ⟨.hbm, 54, rfl⟩
abbrev main_call0_v7 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_cst_3 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_cst_4 : Ref sig .tc := ⟨.hbm, 69, rfl⟩
abbrev main_v35 : Ref sig .tc := ⟨.hbm, 70, rfl⟩
abbrev main_cst_5 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_cst_6 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_call1_cst : Ref sig .tc := ⟨.hbm, 88, rfl⟩
abbrev main_call1_v0 : Ref sig .tc := ⟨.hbm, 89, rfl⟩
abbrev main_call1_v1 : Ref sig .tc := ⟨.hbm, 90, rfl⟩
abbrev main_call1_cst_0 : Ref sig .tc := ⟨.hbm, 91, rfl⟩
abbrev main_call1_v2 : Ref sig .tc := ⟨.hbm, 92, rfl⟩
abbrev main_call1_v3 : Ref sig .tc := ⟨.hbm, 93, rfl⟩
abbrev main_call1_cst_1 : Ref sig .tc := ⟨.hbm, 94, rfl⟩
abbrev main_call1_call0_v0 : Ref sig .tc := ⟨.hbm, 95, rfl⟩
abbrev main_call1_call0_v1 : Ref sig .tc := ⟨.hbm, 96, rfl⟩
abbrev main_call1_v4 : Ref sig .tc := ⟨.hbm, 97, rfl⟩
abbrev main_call1_v5 : Ref sig .tc := ⟨.hbm, 98, rfl⟩
abbrev main_call1_cst_2 : Ref sig .tc := ⟨.hbm, 99, rfl⟩
abbrev main_call1_v6 : Ref sig .tc := ⟨.hbm, 100, rfl⟩
abbrev main_call1_v7 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  bcast_S256_S1x1x256_2 : S256.BroadcastsInDim S1x1x256 (![2] : Fin 1 → Fin S1x1x256.rank)
  bcast_S1x1x256_S4x4096x256_0_1_2 : S1x1x256.BroadcastsInDim S4x4096x256 (![0, 1, 2] : Fin 3 → Fin S4x4096x256.rank)
  bcast_S_S4x4096x256 : S_.BroadcastsInDim S4x4096x256 (![] : Fin 0 → Fin S4x4096x256.rank)
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  dot_S4x4096x64_S64x64_S4x4096x64_2_0_01_1_n_n_wf : DotDims.WF S4x4096x64 S64x64 S4x4096x64 [2] [0] [0, 1] [1] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]
  dot_S4x4096x64_S256x64_S4x4096x256_2_1_01_0_n_n_wf : DotDims.WF S4x4096x64 S256x64 S4x4096x256 [2] [1] [0, 1] [0] [] []
  dot_S4x4096x256_S64x256_S4x4096x64_2_1_01_0_n_n_wf : DotDims.WF S4x4096x256 S64x256 S4x4096x64 [2] [1] [0, 1] [0] [] []

variable [Facts₀]

def dot_S4x4096x64_S64x64_S4x4096x64_2_0_01_1_n_n : DotDims S4x4096x64 S64x64 S4x4096x64 where
  lhsContracting := [2]
  rhsContracting := [0]
  lhsNonContracting := [0, 1]
  rhsNonContracting := [1]
  lhsBatch := []
  rhsBatch := []
  wf := dot_S4x4096x64_S64x64_S4x4096x64_2_0_01_1_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf
def dot_S4x4096x64_S256x64_S4x4096x256_2_1_01_0_n_n : DotDims S4x4096x64 S256x64 S4x4096x256 where
  lhsContracting := [2]
  rhsContracting := [1]
  lhsNonContracting := [0, 1]
  rhsNonContracting := [0]
  lhsBatch := []
  rhsBatch := []
  wf := dot_S4x4096x64_S256x64_S4x4096x256_2_1_01_0_n_n_wf
def dot_S4x4096x256_S64x256_S4x4096x64_2_1_01_0_n_n : DotDims S4x4096x256 S64x256 S4x4096x64 where
  lhsContracting := [2]
  rhsContracting := [1]
  lhsNonContracting := [0, 1]
  rhsNonContracting := [0]
  lhsBatch := []
  rhsBatch := []
  wf := dot_S4x4096x256_S64x256_S4x4096x64_2_1_01_0_n_n_wf

class Facts : Prop extends Facts₀ where

variable [Facts]
-- ==== Proof.K.Trips.lean ====
/-
  The two counted loops of the body as closed contents.

  Each loop makes eight trips; trip `k` stores, through rows `512 k .. 512 k + 511` of the buffer it fills, one block
  computed from rows `512 k ..` of the buffer it reads and from a whole weight. Here: the one piece a trip writes
  (`tripL_k0_t1_eq`, `tripL_k0_t2_eq`; the second loop's piece does not depend on what the written buffer held), the
  closed functions `out1` / `out2` of the buffer's index that the eight pieces add up to (row `r` is the block of trip
  `r / 512` at its row `r % 512`), and the equations saying that after all trips the buffer's contents are those
  functions whatever it held before (`writes_pb_k0_t1`, `writes_pb_k0_t2`): by induction over the trips, the rows
  below `512 k` read the closed function before trip `k`; the newest piece is read at its own rows and left alone
  below them. Last, the closed functions at an index, with the trip's loads spelt by coordinates
  (`out1_apply`, `out2_apply`). Everything is generic in the float instance.
-/
import proofs.«405560_j29480655519796_3_alg».proof.Proof.Gen.Kernel.Loops
import Idealize.ShloMosaic.Lib.Pipeline.FrameBody
import Idealize.ShloMosaic.Lib.Pipeline.Value
import Idealize.ShloMosaic.Lib.WritesUnit
import Idealize.ShloMosaic.Lib.ValueIdx

set_option maxRecDepth 16384

noncomputable section

namespace Cert.Kernel.Body

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

/-! ## The trip counts -/

theorem trips1 : k0_t1_loop.trips = 8 := by decide
theorem trips2 : k0_t2_loop.trips = 8 := by decide

theorem div_lt_trips1 {n : ℕ} (h : n < 4096) : n / 512 < k0_t1_loop.trips := by rw [trips1]; omega
theorem div_lt_trips2 {n : ℕ} (h : n < 4096) : n / 512 < k0_t2_loop.trips := by rw [trips2]; omega

/-! ## The closed forms -/

/-- Rows `512 k ..` of the first loop's result: the payload of trip `k` over the contents read. -/
def blk1 (v9 v11 : Vec F S4096x64 .f32) (v13 : Vec F S256x64 .bf16) (v15 : Vec F S64x256 .bf16) (v17 : Vec F S1x256 .f32) (v19 : Vec F S1x64 .f32) (X1 : Vec F S1x4096x64 .f32) (X2 : Vec F S64x64 .bf16) (k : Fin k0_t1_loop.trips) : FVec F S512x64 .f32 :=
  k0_pay18 (k0_pay9 (k0_pay12 v9) (k0_pay13 v11) (k0_pay14 v13) (k0_pay15 v15) (k0_pay16 v17) (k0_pay17 v19)
    (View.ld (Val := Elt F) X1 (Rect.unit (s := S1x4096x64) (k0_off1 k) S1x512x64.size (Gen.k0_off1_inb k)))
    (View.ld (Val := Elt F) X2 (Rect.unit (s := S64x64) ![0, 0] S64x64.size Gen.inb_S64x64_S64x64_0_0)))

/-- What the first scratch holds after the first loop: at row `r` the payload of trip `r / 512` at its row `r % 512`. -/
def out1 (v9 v11 : Vec F S4096x64 .f32) (v13 : Vec F S256x64 .bf16) (v15 : Vec F S64x256 .bf16) (v17 : Vec F S1x256 .f32) (v19 : Vec F S1x64 .f32) (X1 : Vec F S1x4096x64 .f32) (X2 : Vec F S64x64 .bf16) : Vec F S4096x64 .f32 :=
  fun y => blk1 v9 v11 v13 v15 v17 v19 X1 X2 ⟨(y 0).val / 512, div_lt_trips1 (y 0).isLt⟩
    (ix2 (⟨(y 0).val % 512, Nat.mod_lt _ (by decide)⟩ : Fin 512) (⟨(y 1).val, (y 1).isLt⟩ : Fin 64))

/-- Rows `512 k ..` of the second loop's result. -/
def blk2 (v30 v32 : Vec F S4096x64 .f32) (v34 : Vec F S256x64 .bf16) (v36 : Vec F S64x256 .bf16) (v38 : Vec F S1x256 .f32) (v40 : Vec F S1x64 .f32) (X8 : Vec F S64x64 .bf16) (X16 : Vec F S4096x64 .f32) (k : Fin k0_t2_loop.trips) : FVec F S1x512x64 .f32 :=
  k0_pay8 (k0_pay10 (k0_pay2 v30) (k0_pay3 v32) (k0_pay4 v34) (k0_pay5 v36) (k0_pay6 v38) (k0_pay7 v40)
    (View.ld (Val := Elt F) X16 (Rect.unit (s := S4096x64) (k0_off3 k) S512x64.size (Gen.k0_off3_inb k)))
    (View.ld (Val := Elt F) X8 (Rect.unit (s := S64x64) ![0, 0] S64x64.size Gen.inb_S64x64_S64x64_0_0)))

/-- What the output's staging buffer holds after the second loop. -/
def out2 (v30 v32 : Vec F S4096x64 .f32) (v34 : Vec F S256x64 .bf16) (v36 : Vec F S64x256 .bf16) (v38 : Vec F S1x256 .f32) (v40 : Vec F S1x64 .f32) (X8 : Vec F S64x64 .bf16) (X16 : Vec F S4096x64 .f32) : Vec F S1x4096x64 .f32 :=
  fun y => blk2 v30 v32 v34 v36 v38 v40 X8 X16 ⟨(y 1).val / 512, div_lt_trips2 (y 1).isLt⟩
    (ix3 (⟨0, by decide⟩ : Fin 1) (⟨(y 1).val % 512, Nat.mod_lt _ (by decide)⟩ : Fin 512) (⟨(y 2).val, (y 2).isLt⟩ : Fin 64))

/-! ## One trip's piece -/

theorem tripL_k0_t1_eq (𝒱 : Variants) (c : Dev nD) (bd : Option 𝒱.V) (i : grid0.Coords) (arg1 : Memref sig .tc .vmem S1x4096x64 .f32) (harg1 : arg1.IsWhole) (arg2 : Memref sig .tc .vmem S64x64 .bf16) (harg2 : arg2.IsWhole) (arg3 : Memref sig .tc .vmem S64x128 .bf16) (harg3 : arg3.IsWhole) (arg4 : Memref sig .tc .vmem S256x64 .bf16) (harg4 : arg4.IsWhole) (arg5 : Memref sig .tc .vmem S1x256 .f32) (harg5 : arg5.IsWhole) (arg6 : Memref sig .tc .vmem S64x256 .bf16) (harg6 : arg6.IsWhole) (arg7 : Memref sig .tc .vmem S1x64 .f32) (harg7 : arg7.IsWhole) (arg8 : Memref sig .tc .vmem S64x64 .bf16) (harg8 : arg8.IsWhole) (arg9 : Memref sig .tc .vmem S64x128 .bf16) (harg9 : arg9.IsWhole) (arg10 : Memref sig .tc .vmem S256x64 .bf16) (harg10 : arg10.IsWhole) (arg11 : Memref sig .tc .vmem S1x256 .f32) (harg11 : arg11.IsWhole) (arg12 : Memref sig .tc .vmem S64x256 .bf16) (harg12 : arg12.IsWhole) (arg13 : Memref sig .tc .vmem S1x64 .f32) (harg13 : arg13.IsWhole) (arg14 : Memref sig .tc .vmem S1x4096x64 .f32) (harg14 : arg14.IsWhole) (arg15 : Memref sig .tc .vmem S4096x128 .f32) (harg15 : arg15.IsWhole) (arg16 : Memref sig .tc .vmem S4096x64 .f32) (harg16 : arg16.IsWhole) (v9 : Vec F S4096x64 .f32) (v11 : Vec F S4096x64 .f32) (v13 : Vec F S256x64 .bf16) (v15 : Vec F S64x256 .bf16) (v17 : Vec F S1x256 .f32) (v19 : Vec F S1x64 .f32) (X_arg1 : BufTy.Contents (Elt F) arg1.view.ty) (X_arg2 : BufTy.Contents (Elt F) arg2.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v9 v11 v13 v15 v17 v19 X_arg1 X_arg2 k
      = [⟨Rect.unit (s := S4096x64) (k0_off2 k) S512x64.size (Gen.k0_off2_inb k),
          blk1 v9 v11 v13 v15 v17 v19 (arg1.view.read (Elt F) X_arg1) (arg2.view.read (Elt F) X_arg2) k⟩] := by
  unfold tripL_k0_t1
  delta trip_k0_t1
  rfl

theorem tripL_k0_t2_eq (𝒱 : Variants) (c : Dev nD) (bd : Option 𝒱.V) (i : grid0.Coords) (arg1 : Memref sig .tc .vmem S1x4096x64 .f32) (harg1 : arg1.IsWhole) (arg2 : Memref sig .tc .vmem S64x64 .bf16) (harg2 : arg2.IsWhole) (arg3 : Memref sig .tc .vmem S64x128 .bf16) (harg3 : arg3.IsWhole) (arg4 : Memref sig .tc .vmem S256x64 .bf16) (harg4 : arg4.IsWhole) (arg5 : Memref sig .tc .vmem S1x256 .f32) (harg5 : arg5.IsWhole) (arg6 : Memref sig .tc .vmem S64x256 .bf16) (harg6 : arg6.IsWhole) (arg7 : Memref sig .tc .vmem S1x64 .f32) (harg7 : arg7.IsWhole) (arg8 : Memref sig .tc .vmem S64x64 .bf16) (harg8 : arg8.IsWhole) (arg9 : Memref sig .tc .vmem S64x128 .bf16) (harg9 : arg9.IsWhole) (arg10 : Memref sig .tc .vmem S256x64 .bf16) (harg10 : arg10.IsWhole) (arg11 : Memref sig .tc .vmem S1x256 .f32) (harg11 : arg11.IsWhole) (arg12 : Memref sig .tc .vmem S64x256 .bf16) (harg12 : arg12.IsWhole) (arg13 : Memref sig .tc .vmem S1x64 .f32) (harg13 : arg13.IsWhole) (arg14 : Memref sig .tc .vmem S1x4096x64 .f32) (harg14 : arg14.IsWhole) (arg15 : Memref sig .tc .vmem S4096x128 .f32) (harg15 : arg15.IsWhole) (arg16 : Memref sig .tc .vmem S4096x64 .f32) (harg16 : arg16.IsWhole) (v30 : Vec F S4096x64 .f32) (v32 : Vec F S4096x64 .f32) (v34 : Vec F S256x64 .bf16) (v36 : Vec F S64x256 .bf16) (v38 : Vec F S1x256 .f32) (v40 : Vec F S1x64 .f32) (X_arg8 : BufTy.Contents (Elt F) arg8.view.ty) (X_arg16 : BufTy.Contents (Elt F) arg16.view.ty) (k : Fin k0_t2_loop.trips) (f_arg14 : BufTy.Contents (Elt F) arg14.view.ty) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v30 v32 v34 v36 v38 v40 X_arg8 X_arg16 k f_arg14
      = [⟨Rect.unit (s := S1x4096x64) (k0_off4 k) S1x512x64.size (Gen.k0_off4_inb k),
          blk2 v30 v32 v34 v36 v38 v40 (arg8.view.read (Elt F) X_arg8) (arg16.view.read (Elt F) X_arg16) k⟩] := by
  unfold tripL_k0_t2
  delta trip_k0_t2
  rfl

/-! ## The loops' piece lists as closed contents (the interface) -/

/-- Before trip `k` the rows below `512 k` of the first scratch read `out1`. -/
theorem read_writes_pb1 (𝒱 : Variants) (c : Dev nD) (bd : Option 𝒱.V) (i : grid0.Coords) (arg1 : Memref sig .tc .vmem S1x4096x64 .f32) (harg1 : arg1.IsWhole) (arg2 : Memref sig .tc .vmem S64x64 .bf16) (harg2 : arg2.IsWhole) (arg3 : Memref sig .tc .vmem S64x128 .bf16) (harg3 : arg3.IsWhole) (arg4 : Memref sig .tc .vmem S256x64 .bf16) (harg4 : arg4.IsWhole) (arg5 : Memref sig .tc .vmem S1x256 .f32) (harg5 : arg5.IsWhole) (arg6 : Memref sig .tc .vmem S64x256 .bf16) (harg6 : arg6.IsWhole) (arg7 : Memref sig .tc .vmem S1x64 .f32) (harg7 : arg7.IsWhole) (arg8 : Memref sig .tc .vmem S64x64 .bf16) (harg8 : arg8.IsWhole) (arg9 : Memref sig .tc .vmem S64x128 .bf16) (harg9 : arg9.IsWhole) (arg10 : Memref sig .tc .vmem S256x64 .bf16) (harg10 : arg10.IsWhole) (arg11 : Memref sig .tc .vmem S1x256 .f32) (harg11 : arg11.IsWhole) (arg12 : Memref sig .tc .vmem S64x256 .bf16) (harg12 : arg12.IsWhole) (arg13 : Memref sig .tc .vmem S1x64 .f32) (harg13 : arg13.IsWhole) (arg14 : Memref sig .tc .vmem S1x4096x64 .f32) (harg14 : arg14.IsWhole) (arg15 : Memref sig .tc .vmem S4096x128 .f32) (harg15 : arg15.IsWhole) (arg16 : Memref sig .tc .vmem S4096x64 .f32) (harg16 : arg16.IsWhole) (v9 : Vec F S4096x64 .f32) (v11 : Vec F S4096x64 .f32) (v13 : Vec F S256x64 .bf16) (v15 : Vec F S64x256 .bf16) (v17 : Vec F S1x256 .f32) (v19 : Vec F S1x64 .f32) (X_arg1 : BufTy.Contents (Elt F) arg1.view.ty) (X_arg2 : BufTy.Contents (Elt F) arg2.view.ty) (G : BufTy.Contents (Elt F) arg16.view.ty) :
    ∀ (k : ℕ), k ≤ 8 → ∀ y : S4096x64.Idx, (y 0).val < 512 * k →
      arg16.view.read (Elt F) (arg16.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v9 v11 v13 v15 v17 v19 X_arg1 X_arg2 k)) y
        = out1 v9 v11 v13 v15 v17 v19 (arg1.view.read (Elt F) X_arg1) (arg2.view.read (Elt F) X_arg2) y
  | 0, _, y, h => absurd h (by omega)
  | k + 1, hk, y, h => by
    have hk' : k < k0_t1_loop.trips := by rw [trips1]; omega
    have e : pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v9 v11 v13 v15 v17 v19 X_arg1 X_arg2 (k + 1)
        = (⟨Rect.unit (s := S4096x64) (k0_off2 ⟨k, hk'⟩) S512x64.size (Gen.k0_off2_inb ⟨k, hk'⟩),
            blk1 v9 v11 v13 v15 v17 v19 (arg1.view.read (Elt F) X_arg1) (arg2.view.read (Elt F) X_arg2) ⟨k, hk'⟩⟩ : View.Piece (Elt F) S4096x64 .f32)
          :: pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v9 v11 v13 v15 v17 v19 X_arg1 X_arg2 k :=
      (pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v9 v11 v13 v15 v17 v19 X_arg1 X_arg2 ⟨k, hk'⟩).trans
        (by rw [tripL_k0_t1_eq]; rfl)
    rw [e]
    have h0 : (y 0).val < 4096 := (y 0).isLt
    have h1 : (y 1).val < 64 := (y 1).isLt
    by_cases hy : 512 * k ≤ (y 0).val
    · refine (View.read_writes_cons_unit_of_mem arg16.view G (Gen.k0_off2_inb ⟨k, hk'⟩) _ _ y
        (ix2 (⟨(y 0).val - 512 * k, by omega⟩ : Fin 512) (⟨(y 1).val, h1⟩ : Fin 64)) (Gen.k0_off2_eq ⟨k, hk'⟩)
        (Fin.forall_fin_two.mpr ⟨by show (y 0).val = 512 * k + ((y 0).val - 512 * k); omega,
          by show (y 1).val = 0 + (y 1).val; omega⟩)).trans ?_
      have ek : (⟨(y 0).val / 512, div_lt_trips1 (y 0).isLt⟩ : Fin k0_t1_loop.trips) = ⟨k, hk'⟩ :=
        Fin.ext (by show (y 0).val / 512 = k; omega)
      have ex : (⟨(y 0).val % 512, Nat.mod_lt _ (by decide)⟩ : Fin 512) = ⟨(y 0).val - 512 * k, by omega⟩ :=
        Fin.ext (by show (y 0).val % 512 = (y 0).val - 512 * k; omega)
      show _ = blk1 v9 v11 v13 v15 v17 v19 (arg1.view.read (Elt F) X_arg1) (arg2.view.read (Elt F) X_arg2) _ _
      rw [ek, ex]
    · refine (View.read_writes_cons_unit_of_not_mem arg16.view G (Gen.k0_off2_inb ⟨k, hk'⟩) _ _ y
        (Gen.k0_off2_eq ⟨k, hk'⟩) 0 (Or.inl (by show (y 0).val < 512 * k; omega))).trans ?_
      exact read_writes_pb1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v9 v11 v13 v15 v17 v19 X_arg1 X_arg2 G k (by omega) y (by omega)

/-- After the first loop the first scratch reads `out1`, whatever it held before. -/
theorem writes_pb_k0_t1 (𝒱 : Variants) (c : Dev nD) (bd : Option 𝒱.V) (i : grid0.Coords) (arg1 : Memref sig .tc .vmem S1x4096x64 .f32) (harg1 : arg1.IsWhole) (arg2 : Memref sig .tc .vmem S64x64 .bf16) (harg2 : arg2.IsWhole) (arg3 : Memref sig .tc .vmem S64x128 .bf16) (harg3 : arg3.IsWhole) (arg4 : Memref sig .tc .vmem S256x64 .bf16) (harg4 : arg4.IsWhole) (arg5 : Memref sig .tc .vmem S1x256 .f32) (harg5 : arg5.IsWhole) (arg6 : Memref sig .tc .vmem S64x256 .bf16) (harg6 : arg6.IsWhole) (arg7 : Memref sig .tc .vmem S1x64 .f32) (harg7 : arg7.IsWhole) (arg8 : Memref sig .tc .vmem S64x64 .bf16) (harg8 : arg8.IsWhole) (arg9 : Memref sig .tc .vmem S64x128 .bf16) (harg9 : arg9.IsWhole) (arg10 : Memref sig .tc .vmem S256x64 .bf16) (harg10 : arg10.IsWhole) (arg11 : Memref sig .tc .vmem S1x256 .f32) (harg11 : arg11.IsWhole) (arg12 : Memref sig .tc .vmem S64x256 .bf16) (harg12 : arg12.IsWhole) (arg13 : Memref sig .tc .vmem S1x64 .f32) (harg13 : arg13.IsWhole) (arg14 : Memref sig .tc .vmem S1x4096x64 .f32) (harg14 : arg14.IsWhole) (arg15 : Memref sig .tc .vmem S4096x128 .f32) (harg15 : arg15.IsWhole) (arg16 : Memref sig .tc .vmem S4096x64 .f32) (harg16 : arg16.IsWhole) (v9 : Vec F S4096x64 .f32) (v11 : Vec F S4096x64 .f32) (v13 : Vec F S256x64 .bf16) (v15 : Vec F S64x256 .bf16) (v17 : Vec F S1x256 .f32) (v19 : Vec F S1x64 .f32) (X_arg1 : BufTy.Contents (Elt F) arg1.view.ty) (X_arg2 : BufTy.Contents (Elt F) arg2.view.ty) (G : BufTy.Contents (Elt F) arg16.view.ty) :
    arg16.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v9 v11 v13 v15 v17 v19 X_arg1 X_arg2 (Scf.trips k0_t1_loop.lb k0_t1_loop.ub k0_t1_loop.st))
      = harg16.unread (out1 v9 v11 v13 v15 v17 v19 (arg1.view.read (Elt F) X_arg1) (arg2.view.read (Elt F) X_arg2)) := by
  refine harg16.eq_unread (funext fun y => ?_)
  exact read_writes_pb1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v9 v11 v13 v15 v17 v19 X_arg1 X_arg2 G 8 (le_refl _) y (by have h0 : (y 0).val < 4096 := (y 0).isLt; omega)

/-- The same at the contents a body proof holds: the inputs' raw contents `unread` of what they read. -/
theorem writes_pb_k0_t1' (𝒱 : Variants) (c : Dev nD) (bd : Option 𝒱.V) (i : grid0.Coords) (arg1 : Memref sig .tc .vmem S1x4096x64 .f32) (harg1 : arg1.IsWhole) (arg2 : Memref sig .tc .vmem S64x64 .bf16) (harg2 : arg2.IsWhole) (arg3 : Memref sig .tc .vmem S64x128 .bf16) (harg3 : arg3.IsWhole) (arg4 : Memref sig .tc .vmem S256x64 .bf16) (harg4 : arg4.IsWhole) (arg5 : Memref sig .tc .vmem S1x256 .f32) (harg5 : arg5.IsWhole) (arg6 : Memref sig .tc .vmem S64x256 .bf16) (harg6 : arg6.IsWhole) (arg7 : Memref sig .tc .vmem S1x64 .f32) (harg7 : arg7.IsWhole) (arg8 : Memref sig .tc .vmem S64x64 .bf16) (harg8 : arg8.IsWhole) (arg9 : Memref sig .tc .vmem S64x128 .bf16) (harg9 : arg9.IsWhole) (arg10 : Memref sig .tc .vmem S256x64 .bf16) (harg10 : arg10.IsWhole) (arg11 : Memref sig .tc .vmem S1x256 .f32) (harg11 : arg11.IsWhole) (arg12 : Memref sig .tc .vmem S64x256 .bf16) (harg12 : arg12.IsWhole) (arg13 : Memref sig .tc .vmem S1x64 .f32) (harg13 : arg13.IsWhole) (arg14 : Memref sig .tc .vmem S1x4096x64 .f32) (harg14 : arg14.IsWhole) (arg15 : Memref sig .tc .vmem S4096x128 .f32) (harg15 : arg15.IsWhole) (arg16 : Memref sig .tc .vmem S4096x64 .f32) (harg16 : arg16.IsWhole) (v9 : Vec F S4096x64 .f32) (v11 : Vec F S4096x64 .f32) (v13 : Vec F S256x64 .bf16) (v15 : Vec F S64x256 .bf16) (v17 : Vec F S1x256 .f32) (v19 : Vec F S1x64 .f32) (x0 : Vec F S1x4096x64 .f32) (x1 : Vec F S64x64 .bf16) (G : BufTy.Contents (Elt F) arg16.view.ty) :
    arg16.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v9 v11 v13 v15 v17 v19 (harg1.unread x0) (harg2.unread x1) (Scf.trips k0_t1_loop.lb k0_t1_loop.ub k0_t1_loop.st))
      = harg16.unread (out1 v9 v11 v13 v15 v17 v19 x0 x1) := by
  rw [writes_pb_k0_t1, harg1.read_unread, harg2.read_unread]

/-- Before trip `k` the rows below `512 k` of the output's staging buffer read `out2`. -/
theorem read_writes_pb2 (𝒱 : Variants) (c : Dev nD) (bd : Option 𝒱.V) (i : grid0.Coords) (arg1 : Memref sig .tc .vmem S1x4096x64 .f32) (harg1 : arg1.IsWhole) (arg2 : Memref sig .tc .vmem S64x64 .bf16) (harg2 : arg2.IsWhole) (arg3 : Memref sig .tc .vmem S64x128 .bf16) (harg3 : arg3.IsWhole) (arg4 : Memref sig .tc .vmem S256x64 .bf16) (harg4 : arg4.IsWhole) (arg5 : Memref sig .tc .vmem S1x256 .f32) (harg5 : arg5.IsWhole) (arg6 : Memref sig .tc .vmem S64x256 .bf16) (harg6 : arg6.IsWhole) (arg7 : Memref sig .tc .vmem S1x64 .f32) (harg7 : arg7.IsWhole) (arg8 : Memref sig .tc .vmem S64x64 .bf16) (harg8 : arg8.IsWhole) (arg9 : Memref sig .tc .vmem S64x128 .bf16) (harg9 : arg9.IsWhole) (arg10 : Memref sig .tc .vmem S256x64 .bf16) (harg10 : arg10.IsWhole) (arg11 : Memref sig .tc .vmem S1x256 .f32) (harg11 : arg11.IsWhole) (arg12 : Memref sig .tc .vmem S64x256 .bf16) (harg12 : arg12.IsWhole) (arg13 : Memref sig .tc .vmem S1x64 .f32) (harg13 : arg13.IsWhole) (arg14 : Memref sig .tc .vmem S1x4096x64 .f32) (harg14 : arg14.IsWhole) (arg15 : Memref sig .tc .vmem S4096x128 .f32) (harg15 : arg15.IsWhole) (arg16 : Memref sig .tc .vmem S4096x64 .f32) (harg16 : arg16.IsWhole) (v30 : Vec F S4096x64 .f32) (v32 : Vec F S4096x64 .f32) (v34 : Vec F S256x64 .bf16) (v36 : Vec F S64x256 .bf16) (v38 : Vec F S1x256 .f32) (v40 : Vec F S1x64 .f32) (X_arg8 : BufTy.Contents (Elt F) arg8.view.ty) (X_arg16 : BufTy.Contents (Elt F) arg16.view.ty) (G : BufTy.Contents (Elt F) arg14.view.ty) :
    ∀ (k : ℕ), k ≤ 8 → ∀ y : S1x4096x64.Idx, (y 1).val < 512 * k →
      arg14.view.read (Elt F) (arg14.view.writes (Elt F) G (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v30 v32 v34 v36 v38 v40 X_arg8 X_arg16 G k)) y
        = out2 v30 v32 v34 v36 v38 v40 (arg8.view.read (Elt F) X_arg8) (arg16.view.read (Elt F) X_arg16) y
  | 0, _, y, h => absurd h (by omega)
  | k + 1, hk, y, h => by
    have hk' : k < k0_t2_loop.trips := by rw [trips2]; omega
    have e : pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v30 v32 v34 v36 v38 v40 X_arg8 X_arg16 G (k + 1)
        = (⟨Rect.unit (s := S1x4096x64) (k0_off4 ⟨k, hk'⟩) S1x512x64.size (Gen.k0_off4_inb ⟨k, hk'⟩),
            blk2 v30 v32 v34 v36 v38 v40 (arg8.view.read (Elt F) X_arg8) (arg16.view.read (Elt F) X_arg16) ⟨k, hk'⟩⟩ : View.Piece (Elt F) S1x4096x64 .f32)
          :: pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v30 v32 v34 v36 v38 v40 X_arg8 X_arg16 G k :=
      (pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v30 v32 v34 v36 v38 v40 X_arg8 X_arg16 G ⟨k, hk'⟩).trans
        (by rw [tripL_k0_t2_eq]; rfl)
    rw [e]
    have h0 : (y 0).val < 1 := (y 0).isLt
    have h1 : (y 1).val < 4096 := (y 1).isLt
    have h2 : (y 2).val < 64 := (y 2).isLt
    by_cases hy : 512 * k ≤ (y 1).val
    · refine (View.read_writes_cons_unit_of_mem arg14.view G (Gen.k0_off4_inb ⟨k, hk'⟩) _ _ y
        (ix3 (⟨0, by decide⟩ : Fin 1) (⟨(y 1).val - 512 * k, by omega⟩ : Fin 512) (⟨(y 2).val, h2⟩ : Fin 64)) (Gen.k0_off4_eq ⟨k, hk'⟩)
        (fun a => match a with
          | ⟨0, _⟩ => by show (y 0).val = 0 + 0; omega
          | ⟨1, _⟩ => by show (y 1).val = 512 * k + ((y 1).val - 512 * k); omega
          | ⟨2, _⟩ => by show (y 2).val = 0 + (y 2).val; omega)).trans ?_
      have ek : (⟨(y 1).val / 512, div_lt_trips2 (y 1).isLt⟩ : Fin k0_t2_loop.trips) = ⟨k, hk'⟩ :=
        Fin.ext (by show (y 1).val / 512 = k; omega)
      have ex : (⟨(y 1).val % 512, Nat.mod_lt _ (by decide)⟩ : Fin 512) = ⟨(y 1).val - 512 * k, by omega⟩ :=
        Fin.ext (by show (y 1).val % 512 = (y 1).val - 512 * k; omega)
      show _ = blk2 v30 v32 v34 v36 v38 v40 (arg8.view.read (Elt F) X_arg8) (arg16.view.read (Elt F) X_arg16) _ _
      rw [ek, ex]
    · refine (View.read_writes_cons_unit_of_not_mem arg14.view G (Gen.k0_off4_inb ⟨k, hk'⟩) _ _ y
        (Gen.k0_off4_eq ⟨k, hk'⟩) 1 (Or.inl (by show (y 1).val < 512 * k; omega))).trans ?_
      exact read_writes_pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v30 v32 v34 v36 v38 v40 X_arg8 X_arg16 G k (by omega) y (by omega)

/-- After the second loop the output's staging buffer reads `out2`, whatever it held before. -/
theorem writes_pb_k0_t2 (𝒱 : Variants) (c : Dev nD) (bd : Option 𝒱.V) (i : grid0.Coords) (arg1 : Memref sig .tc .vmem S1x4096x64 .f32) (harg1 : arg1.IsWhole) (arg2 : Memref sig .tc .vmem S64x64 .bf16) (harg2 : arg2.IsWhole) (arg3 : Memref sig .tc .vmem S64x128 .bf16) (harg3 : arg3.IsWhole) (arg4 : Memref sig .tc .vmem S256x64 .bf16) (harg4 : arg4.IsWhole) (arg5 : Memref sig .tc .vmem S1x256 .f32) (harg5 : arg5.IsWhole) (arg6 : Memref sig .tc .vmem S64x256 .bf16) (harg6 : arg6.IsWhole) (arg7 : Memref sig .tc .vmem S1x64 .f32) (harg7 : arg7.IsWhole) (arg8 : Memref sig .tc .vmem S64x64 .bf16) (harg8 : arg8.IsWhole) (arg9 : Memref sig .tc .vmem S64x128 .bf16) (harg9 : arg9.IsWhole) (arg10 : Memref sig .tc .vmem S256x64 .bf16) (harg10 : arg10.IsWhole) (arg11 : Memref sig .tc .vmem S1x256 .f32) (harg11 : arg11.IsWhole) (arg12 : Memref sig .tc .vmem S64x256 .bf16) (harg12 : arg12.IsWhole) (arg13 : Memref sig .tc .vmem S1x64 .f32) (harg13 : arg13.IsWhole) (arg14 : Memref sig .tc .vmem S1x4096x64 .f32) (harg14 : arg14.IsWhole) (arg15 : Memref sig .tc .vmem S4096x128 .f32) (harg15 : arg15.IsWhole) (arg16 : Memref sig .tc .vmem S4096x64 .f32) (harg16 : arg16.IsWhole) (v30 : Vec F S4096x64 .f32) (v32 : Vec F S4096x64 .f32) (v34 : Vec F S256x64 .bf16) (v36 : Vec F S64x256 .bf16) (v38 : Vec F S1x256 .f32) (v40 : Vec F S1x64 .f32) (X_arg8 : BufTy.Contents (Elt F) arg8.view.ty) (X_arg16 : BufTy.Contents (Elt F) arg16.view.ty) (G : BufTy.Contents (Elt F) arg14.view.ty) :
    arg14.view.writes (Elt F) G (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v30 v32 v34 v36 v38 v40 X_arg8 X_arg16 G (Scf.trips k0_t2_loop.lb k0_t2_loop.ub k0_t2_loop.st))
      = harg14.unread (out2 v30 v32 v34 v36 v38 v40 (arg8.view.read (Elt F) X_arg8) (arg16.view.read (Elt F) X_arg16)) := by
  refine harg14.eq_unread (funext fun y => ?_)
  exact read_writes_pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v30 v32 v34 v36 v38 v40 X_arg8 X_arg16 G 8 (le_refl _) y (by have h1 : (y 1).val < 4096 := (y 1).isLt; omega)

theorem writes_pb_k0_t2' (𝒱 : Variants) (c : Dev nD) (bd : Option 𝒱.V) (i : grid0.Coords) (arg1 : Memref sig .tc .vmem S1x4096x64 .f32) (harg1 : arg1.IsWhole) (arg2 : Memref sig .tc .vmem S64x64 .bf16) (harg2 : arg2.IsWhole) (arg3 : Memref sig .tc .vmem S64x128 .bf16) (harg3 : arg3.IsWhole) (arg4 : Memref sig .tc .vmem S256x64 .bf16) (harg4 : arg4.IsWhole) (arg5 : Memref sig .tc .vmem S1x256 .f32) (harg5 : arg5.IsWhole) (arg6 : Memref sig .tc .vmem S64x256 .bf16) (harg6 : arg6.IsWhole) (arg7 : Memref sig .tc .vmem S1x64 .f32) (harg7 : arg7.IsWhole) (arg8 : Memref sig .tc .vmem S64x64 .bf16) (harg8 : arg8.IsWhole) (arg9 : Memref sig .tc .vmem S64x128 .bf16) (harg9 : arg9.IsWhole) (arg10 : Memref sig .tc .vmem S256x64 .bf16) (harg10 : arg10.IsWhole) (arg11 : Memref sig .tc .vmem S1x256 .f32) (harg11 : arg11.IsWhole) (arg12 : Memref sig .tc .vmem S64x256 .bf16) (harg12 : arg12.IsWhole) (arg13 : Memref sig .tc .vmem S1x64 .f32) (harg13 : arg13.IsWhole) (arg14 : Memref sig .tc .vmem S1x4096x64 .f32) (harg14 : arg14.IsWhole) (arg15 : Memref sig .tc .vmem S4096x128 .f32) (harg15 : arg15.IsWhole) (arg16 : Memref sig .tc .vmem S4096x64 .f32) (harg16 : arg16.IsWhole) (v30 : Vec F S4096x64 .f32) (v32 : Vec F S4096x64 .f32) (v34 : Vec F S256x64 .bf16) (v36 : Vec F S64x256 .bf16) (v38 : Vec F S1x256 .f32) (v40 : Vec F S1x64 .f32) (x7 : Vec F S64x64 .bf16) (Y16 : Vec F S4096x64 .f32) (G : BufTy.Contents (Elt F) arg14.view.ty) :
    arg14.view.writes (Elt F) G (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v30 v32 v34 v36 v38 v40 (harg8.unread x7) (harg16.unread Y16) G (Scf.trips k0_t2_loop.lb k0_t2_loop.ub k0_t2_loop.st))
      = harg14.unread (out2 v30 v32 v34 v36 v38 v40 x7 Y16) := by
  rw [writes_pb_k0_t2, harg8.read_unread, harg16.read_unread]

/-! ## The trips' loads at an index -/

theorem zero2 : (![0, 0] : Fin 2 → ℕ) = fun _ => 0 := funext fun a => match a with | ⟨0, _⟩ => rfl | ⟨1, _⟩ => rfl

/-- Trip `k`'s load of the input block: its rows `512 k ..`. -/
theorem ld_off1 (X1 : Vec F S1x4096x64 .f32) (k : Fin k0_t1_loop.trips) :
    View.ld (Val := Elt F) X1 (Rect.unit (s := S1x4096x64) (k0_off1 k) S1x512x64.size (Gen.k0_off1_inb k))
      = fun y : S1x512x64.Idx => X1 (ix3 (⟨0, by decide⟩ : Fin 1)
          (⟨512 * k.val + (y 1).val, by have h1 : (y 1).val < 512 := (y 1).isLt; have hk : k.val < 8 := lt_of_lt_of_eq k.isLt trips1; omega⟩ : Fin 4096)
          (⟨(y 2).val, (y 2).isLt⟩ : Fin 64)) := by
  funext y
  show X1 ((Rect.unit (s := S1x4096x64) (k0_off1 k) S1x512x64.size (Gen.k0_off1_inb k)).emb y) = _
  congr 1
  funext a
  have e := Gen.k0_off1_eq k
  have e0 : k0_off1 k 0 = 0 := congrFun e 0
  have e1 : k0_off1 k 1 = 512 * k.val := congrFun e 1
  have e2 : k0_off1 k 2 = 0 := congrFun e 2
  have h0 : (y 0).val < 1 := (y 0).isLt
  match a with
  | ⟨0, _⟩ => exact Fin.ext (by show k0_off1 k 0 + 1 * (y 0).val = 0; omega)
  | ⟨1, _⟩ => exact Fin.ext (by show k0_off1 k 1 + 1 * (y 1).val = 512 * k.val + (y 1).val; omega)
  | ⟨2, _⟩ => exact Fin.ext (by show k0_off1 k 2 + 1 * (y 2).val = (y 2).val; omega)

/-- Trip `k`'s load of the first scratch: its rows `512 k ..`. -/
theorem ld_off3 (X16 : Vec F S4096x64 .f32) (k : Fin k0_t2_loop.trips) :
    View.ld (Val := Elt F) X16 (Rect.unit (s := S4096x64) (k0_off3 k) S512x64.size (Gen.k0_off3_inb k))
      = fun y : S512x64.Idx => X16 (ix2
          (⟨512 * k.val + (y 0).val, by have h1 : (y 0).val < 512 := (y 0).isLt; have hk : k.val < 8 := lt_of_lt_of_eq k.isLt trips2; omega⟩ : Fin 4096)
          (⟨(y 1).val, (y 1).isLt⟩ : Fin 64)) := by
  funext y
  show X16 ((Rect.unit (s := S4096x64) (k0_off3 k) S512x64.size (Gen.k0_off3_inb k)).emb y) = _
  congr 1
  funext a
  have e := Gen.k0_off3_eq k
  have e0 : k0_off3 k 0 = 512 * k.val := congrFun e 0
  have e1 : k0_off3 k 1 = 0 := congrFun e 1
  match a with
  | ⟨0, _⟩ => exact Fin.ext (by show k0_off3 k 0 + 1 * (y 0).val = 512 * k.val + (y 0).val; omega)
  | ⟨1, _⟩ => exact Fin.ext (by show k0_off3 k 1 + 1 * (y 1).val = (y 1).val; omega)

/-- The trips' load of a whole weight reads it. -/
theorem ld_whole64 (X : Vec F S64x64 .bf16) :
    View.ld (Val := Elt F) X (Rect.unit (s := S64x64) ![0, 0] S64x64.size Gen.inb_S64x64_S64x64_0_0) = X :=
  View.ld_unit_zero zero2 _ X

/-! ## The closed forms at an index -/

theorem out1_apply (v9 v11 : Vec F S4096x64 .f32) (v13 : Vec F S256x64 .bf16) (v15 : Vec F S64x256 .bf16) (v17 : Vec F S1x256 .f32) (v19 : Vec F S1x64 .f32) (X1 : Vec F S1x4096x64 .f32) (X2 : Vec F S64x64 .bf16) (r : Fin 4096) (o : Fin 64) :
    out1 v9 v11 v13 v15 v17 v19 X1 X2 (ix2 r o)
      = k0_pay18 (k0_pay9 (k0_pay12 v9) (k0_pay13 v11) (k0_pay14 v13) (k0_pay15 v15) (k0_pay16 v17) (k0_pay17 v19)
          (fun y : S1x512x64.Idx => X1 (ix3 (⟨0, by decide⟩ : Fin 1)
            (⟨512 * (r.val / 512) + (y 1).val, by have h1 : (y 1).val < 512 := (y 1).isLt; have := r.isLt; omega⟩ : Fin 4096)
            (⟨(y 2).val, (y 2).isLt⟩ : Fin 64)))
          X2) (ix2 (⟨r.val % 512, Nat.mod_lt _ (by decide)⟩ : Fin 512) o) := by
  unfold out1 blk1
  rw [ld_off1, ld_whole64]

theorem out2_apply (v30 v32 : Vec F S4096x64 .f32) (v34 : Vec F S256x64 .bf16) (v36 : Vec F S64x256 .bf16) (v38 : Vec F S1x256 .f32) (v40 : Vec F S1x64 .f32) (X8 : Vec F S64x64 .bf16) (X16 : Vec F S4096x64 .f32) (z : Fin 1) (r : Fin 4096) (o : Fin 64) :
    out2 v30 v32 v34 v36 v38 v40 X8 X16 (ix3 z r o)
      = k0_pay8 (k0_pay10 (k0_pay2 v30) (k0_pay3 v32) (k0_pay4 v34) (k0_pay5 v36) (k0_pay6 v38) (k0_pay7 v40)
          (fun y : S512x64.Idx => X16 (ix2
            (⟨512 * (r.val / 512) + (y 0).val, by have h1 : (y 0).val < 512 := (y 0).isLt; have := r.isLt; omega⟩ : Fin 4096)
            (⟨(y 1).val, (y 1).isLt⟩ : Fin 64)))
          X8) (ix3 (⟨0, by decide⟩ : Fin 1) (⟨r.val % 512, Nat.mod_lt _ (by decide)⟩ : Fin 512) o) := by
  unfold out2 blk2
  rw [ld_off3, ld_whole64]

end Cert.Kernel.Body

end
-- ==== Proof.K.Run.lean ====
/-
  The kernel body's triple, with the output named.

  At one grid point the body is handed thirteen input blocks `x0 … x12`, an output buffer at arbitrary contents and
  two scratch buffers at arbitrary contents. It stores the joint key-and-value projection of the input block into the
  first scratch buffer and reads its two column halves back; in eight trips it writes, 512 rows at a time, the first
  stage's result into the second scratch buffer; it then projects that result into the first scratch buffer again,
  reads the halves back, and in eight more trips writes the second stage's result, 512 rows at a time, into the output
  buffer. Each trip first loads the rows it is about to store; that value is never used.

  `bodyOut x0 … x12` is what the output buffer then holds: a closed function of the inputs, built from the column
  halves (`colsL`, `colsR`), the first stage (`stage1`, over the closed form `out1` of the first loop) and the
  closed form `out2` of the second loop. `bodyRun` is the triple: whatever the output and scratch buffers held, the
  body ends with the inputs unchanged and the output buffer at `bodyOut` of them. The eight stores of each loop tile
  their buffer, so nothing of the prior contents survives; the loads after a store through the full rectangle read
  the stored payload.
-/
import proofs.«405560_j29480655519796_3_alg».proof.Proof.Gen.Kernel.Frame
import proofs.«405560_j29480655519796_3_alg».proof.Proof.Gen.Kernel.Loops
import proofs.«405560_j29480655519796_3_alg».proof.Proof.K.Trips
import Idealize.ShloMosaic.Lib.WholeRead

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads through a whole memref, and after a whole store -/

theorem offs2_zero : (![0, 0] : Fin 2 → ℕ) = fun _ => 0 := by funext a; fin_cases a <;> rfl
theorem offs3_zero : (![0, 0, 0] : Fin 3 → ℕ) = fun _ => 0 := by funext a; fin_cases a <;> rfl

/-- A load through the full rectangle of a whole memref held at the contents that read `X` reads `X`. -/
theorem readAt_full_unread {κ : Kind} {sp : Space} {S : Shape} {e : EltTy} {m : Memref sig κ sp S e} (h : m.IsWhole)
    (X : S.Idx → Elt F e) {off : Fin S.rank → ℕ} (hoff : off = fun _ => 0) (inb : ∀ a, off a + S.size a ≤ S.size a) :
    View.readAt (Elt F) m.view (Rect.unit off S.size inb).toLoadRect (h.unread X) = X := by
  rw [View.readAt_eq_ld, h.read_unread, View.ld_unit_zero hoff]

/-- After a store through the full rectangle, made last, a load through any rectangle reads the stored payload there. -/
theorem readCov_cons_full {κ : Kind} {sp : Space} {S : Shape} {e : EltTy} (v : View sig κ sp S e) {off : Fin S.rank → ℕ}
    (hoff : off = fun _ => 0) (inb : ∀ a, off a + S.size a ≤ S.size a) (w : S.Idx → Elt F e)
    (L : List (View.Piece (Elt F) S e)) (r : Rect S) :
    v.readCov ((⟨Rect.unit off S.size inb, w⟩ : View.Piece (Elt F) S e) :: L) r.toLoadRect = View.ld w r := by
  rw [View.readCov_eq_canon', View.canon_cons_unit_zero hoff]

/-! ## What the body leaves in the output's staging buffer -/

/-- Columns 0 … 63 of a 4096 × 128 array. -/
def colsL (w : Vec F S4096x128 .f32) : Vec F S4096x64 .f32 :=
  View.ld (Val := Elt F) w (Rect.unit (s := S4096x128) ![0, 0] S4096x64.size inb_S4096x128_S4096x64_0_0)

/-- Columns 64 … 127 of a 4096 × 128 array. -/
def colsR (w : Vec F S4096x128 .f32) : Vec F S4096x64 .f32 :=
  View.ld (Val := Elt F) w (Rect.unit (s := S4096x128) ![0, 64] S4096x64.size inb_S4096x128_S4096x64_0_64)

/-- The first stage's result: the keys and values are the two column halves of the joint projection of the input
    block, and each block of 512 rows attends to them. -/
def stage1 (x0 : Vec F S1x4096x64 .f32) (x1 : Vec F S64x64 .bf16) (x2 : Vec F S64x128 .bf16) (x3 : Vec F S256x64 .bf16) (x4 : Vec F S1x256 .f32) (x5 : Vec F S64x256 .bf16) (x6 : Vec F S1x64 .f32) : Vec F S4096x64 .f32 :=
  out1 (colsL (k0_pay11 x0 x2)) (colsR (k0_pay11 x0 x2)) x3 x5 x4 x6 x0 x1

/-- What the body leaves in the output window's staging buffer, as a function of the thirteen input blocks: the second
    stage run on the first stage's result. -/
def bodyOut (x0 : Vec F S1x4096x64 .f32) (x1 : Vec F S64x64 .bf16) (x2 : Vec F S64x128 .bf16) (x3 : Vec F S256x64 .bf16) (x4 : Vec F S1x256 .f32) (x5 : Vec F S64x256 .bf16) (x6 : Vec F S1x64 .f32) (x7 : Vec F S64x64 .bf16) (x8 : Vec F S64x128 .bf16) (x9 : Vec F S256x64 .bf16) (x10 : Vec F S1x256 .f32) (x11 : Vec F S64x256 .bf16) (x12 : Vec F S1x64 .f32) : Vec F S1x4096x64 .f32 :=
  out2 (colsL (k0_pay1 (k0_pay19 (stage1 x0 x1 x2 x3 x4 x5 x6) x8))) (colsR (k0_pay1 (k0_pay19 (stage1 x0 x1 x2 x3 x4 x5 x6) x8)))
    x9 x11 x10 x12 x7 (stage1 x0 x1 x2 x3 x4 x5 x6)

set_option maxHeartbeats 1000000 in
/-- The body's triple on whole staging memrefs: the inputs' at their contents, the output's at ANY prior contents, the
    two scratch buffers at any; the body runs to the continuation holding the inputs' as they were, the output's at
    `bodyOut` of the inputs, the scratch at some contents. -/
theorem bodyRun (c : Dev nD) (i : grid0.Coords) (arg1 : Memref sig .tc .vmem S1x4096x64 .f32) (harg1 : arg1.IsWhole) (arg2 : Memref sig .tc .vmem S64x64 .bf16) (harg2 : arg2.IsWhole) (arg3 : Memref sig .tc .vmem S64x128 .bf16) (harg3 : arg3.IsWhole) (arg4 : Memref sig .tc .vmem S256x64 .bf16) (harg4 : arg4.IsWhole) (arg5 : Memref sig .tc .vmem S1x256 .f32) (harg5 : arg5.IsWhole) (arg6 : Memref sig .tc .vmem S64x256 .bf16) (harg6 : arg6.IsWhole) (arg7 : Memref sig .tc .vmem S1x64 .f32) (harg7 : arg7.IsWhole) (arg8 : Memref sig .tc .vmem S64x64 .bf16) (harg8 : arg8.IsWhole) (arg9 : Memref sig .tc .vmem S64x128 .bf16) (harg9 : arg9.IsWhole) (arg10 : Memref sig .tc .vmem S256x64 .bf16) (harg10 : arg10.IsWhole) (arg11 : Memref sig .tc .vmem S1x256 .f32) (harg11 : arg11.IsWhole) (arg12 : Memref sig .tc .vmem S64x256 .bf16) (harg12 : arg12.IsWhole) (arg13 : Memref sig .tc .vmem S1x64 .f32) (harg13 : arg13.IsWhole) (arg14 : Memref sig .tc .vmem S1x4096x64 .f32) (harg14 : arg14.IsWhole) (arg15 : Memref sig .tc .vmem S4096x128 .f32) (harg15 : arg15.IsWhole) (arg16 : Memref sig .tc .vmem S4096x64 .f32) (harg16 : arg16.IsWhole)
    (x0 : Vec F S1x4096x64 .f32) (x1 : Vec F S64x64 .bf16) (x2 : Vec F S64x128 .bf16) (x3 : Vec F S256x64 .bf16) (x4 : Vec F S1x256 .f32) (x5 : Vec F S64x256 .bf16) (x6 : Vec F S1x64 .f32) (x7 : Vec F S64x64 .bf16) (x8 : Vec F S64x128 .bf16) (x9 : Vec F S256x64 .bf16) (x10 : Vec F S1x256 .f32) (x11 : Vec F S64x256 .bf16) (x12 : Vec F S1x64 .f32) (d13 : Vec F S1x4096x64 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare d13 ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (bodyOut x0 x1 x2 x3 x4 x5 x6 x7 x8 x9 x10 x11 x12) ∗ (∃ d, owns (c : Thread nD τ) arg15 fullShare d) ∗ (∃ d, owns (c : Thread nD τ) arg16 fullShare d)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_kernel_eq_skeleton]; unfold cc0_kernel_skel
    simp only [k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, -, H13⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; swap; · iexact H13
      ipureintro
      sl_unfold_run_names
      rw [writes_pb_k0_t1']
      rw [writes_pb_k0_t2', harg14.read_unread]
      rw [readAt_full_unread harg16 _ offs2_zero]
      rw [readAt_full_unread harg1 x0 offs3_zero, readAt_full_unread harg3 x2 offs2_zero, readAt_full_unread harg4 x3 offs2_zero,
        readAt_full_unread harg5 x4 offs2_zero, readAt_full_unread harg6 x5 offs2_zero, readAt_full_unread harg7 x6 offs2_zero,
        readAt_full_unread harg9 x8 offs2_zero, readAt_full_unread harg10 x9 offs2_zero, readAt_full_unread harg11 x10 offs2_zero,
        readAt_full_unread harg12 x11 offs2_zero, readAt_full_unread harg13 x12 offs2_zero]
      repeat rw [readCov_cons_full arg15.view offs2_zero]
      rfl
    isplitl [HS0]
    · iexists _, _; isplitr; swap; · iexact HS0
      ipureintro; rfl
    iexists _, _; isplitr; swap; · iexact HS1
    ipureintro; rfl

end Cert.Kernel.Body

end
-- ==== Proof.K.Body.lean ====
/-
  The proof data and the launch, with the output named.

  The pipeline calls the body at each of the four grid points with the inputs' staging buffers, the output's and the
  two scratch buffers. Every input's staging buffer holds its block at every point, fetched there or not; the output's
  holds whatever the pipeline left, which the body's triple does not need to know. After the body the output's staging
  buffer holds `bodyOut` of the thirteen input blocks (`after13`), which the pipeline writes back to the output array
  at every point. So the run of the whole program ends with every input array unchanged, the output array at what the
  library computes from those write-backs (`run_main`), and in particular every argument array as launched (`frame`).
-/
import proofs.«405560_j29480655519796_3_alg».proof.Proof.Gen.Kernel.Frame
import proofs.«405560_j29480655519796_3_alg».proof.Proof.Gen.Kernel.Loops
import proofs.«405560_j29480655519796_3_alg».proof.Proof.K.Run

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the pipeline calls the body with -/

/-- Each window's current staging memref at point `t`, and that it is a whole buffer. -/
abbrev ms0 (t : Fin cfg0.N) : Memref sig .tc .vmem S1x4096x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x64 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x64 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S64x64 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S64x128 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S256x64 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x256 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S64x256 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x64 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x4096x64 .f32 := win0_13.stage (cfg0.slots t 13)
abbrev hs13 (t : Fin cfg0.N) : (ms13 t).IsWhole := hstage0_13 ((cfg0.slots t 13).cast nbuf0_13)
/-- The two scratch operands: whole scoped buffers of the kernel's own. -/
abbrev scA : Memref sig .tc .vmem S4096x128 .f32 := Memref.whole cc0_scratch0
abbrev scB : Memref sig .tc .vmem S4096x64 .f32 := Memref.whole cc0_scratch1

/-- The region's invariant, opened: the two scratch buffers owned at some contents each, and the generator register
    at some state. -/
theorem phiA_eq (c : Dev nD) :
    (Pipeline.ΦA spec0 c : sProp 𝕄)
      = iprop(iprop((∃ d, owns (c : Thread nD τ) scA fullShare d) ∗ (∃ d, owns (c : Thread nD τ) scB fullShare d)) ∗ (∃ r, prngReg c r)) := by
  unfold Pipeline.ΦA
  rw [scopedRest0_eq]
  simp only [scA, scB, owns_whole]
  try rfl

/-! ## The proof data -/

/-- What the output window's staging buffer holds after the body at point `t`: `bodyOut` of the thirteen input blocks. -/
def outAt (c : Dev nD) (t : Fin cfg0.N) : Vec F S1x4096x64 .f32 :=
  bodyOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- The proof data of the one pipeline on core `c`: the arrays as the region finds them; after the body at point `t`
    each input's buffer at its block and the output's at `outAt`; the invariant the scratch buffers at any contents and
    the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
/-- After the body the output's staging buffer holds `bodyOut` of the input blocks. -/
theorem after13 (c : Dev nD) (t : Fin cfg0.N) :
    (dats m 0 c).after 13 t = bodyOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by
  dsimp only [dats, outAt]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t))

set_option maxHeartbeats 1600000 in
/-- The body at any point: the inputs' memrefs hold their blocks, the output's whatever the pipeline left there, so the
    body's triple applies; the invariant lends the two scratch buffers and takes them back; the core owes nothing. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after13]
  rw [show (dats m 0 c).Φ t.castSucc = Pipeline.ΦA spec0 c from rfl, phiA_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((bodyRun c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((dats m 0 c).before 13 t d13)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  iintro ⟨H0, H1, H2, H3, H4, H5, H6, H7, H8, H9, H10, H11, H12, H13, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the library computes from the proof data — the output array at each block written back
    with `bodyOut` of the input blocks — and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every argument array is left as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Body

end
-- ==== Proof.KI.Trips.lean ====
/-
  The two counted loops of the body as closed contents.

  Each loop makes eight trips; trip `k` stores, through rows `512 k .. 512 k + 511` of the buffer it fills, one block
  computed from rows `512 k ..` of the buffer it reads and from a whole weight. Here: the one piece a trip writes
  (`tripL_k0_t1_eq`, `tripL_k0_t2_eq`; the second loop's piece does not depend on what the written buffer held), the
  closed functions `out1` / `out2` of the buffer's index that the eight pieces add up to (row `r` is the block of trip
  `r / 512` at its row `r % 512`), and the equations saying that after all trips the buffer's contents are those
  functions whatever it held before (`writes_pb_k0_t1`, `writes_pb_k0_t2`): by induction over the trips, the rows
  below `512 k` read the closed function before trip `k`; the newest piece is read at its own rows and left alone
  below them. Last, the closed functions at an index, with the trip's loads spelt by coordinates
  (`out1_apply`, `out2_apply`). Everything is generic in the float instance.
-/
import proofs.«405560_j29480655519796_3_alg».proof.Proof.Gen.KernelIdeal.Loops
import Idealize.ShloMosaic.Lib.Pipeline.FrameBody
import Idealize.ShloMosaic.Lib.Pipeline.Value
import Idealize.ShloMosaic.Lib.WritesUnit
import Idealize.ShloMosaic.Lib.ValueIdx

set_option maxRecDepth 16384

noncomputable section

namespace Cert.KernelIdeal.Body

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-! ## The trip counts -/

theorem trips1 : k0_t1_loop.trips = 8 := by decide
theorem trips2 : k0_t2_loop.trips = 8 := by decide

theorem div_lt_trips1 {n : ℕ} (h : n < 4096) : n / 512 < k0_t1_loop.trips := by rw [trips1]; omega
theorem div_lt_trips2 {n : ℕ} (h : n < 4096) : n / 512 < k0_t2_loop.trips := by rw [trips2]; omega

/-! ## The closed forms -/

/-- Rows `512 k ..` of the first loop's result: the payload of trip `k` over the contents read. -/
def blk1 (v9 v11 : Vec F S4096x64 .f32) (v13 : Vec F S256x64 .bf16) (v15 : Vec F S64x256 .bf16) (v17 : Vec F S1x256 .f32) (v19 : Vec F S1x64 .f32) (X1 : Vec F S1x4096x64 .f32) (X2 : Vec F S64x64 .bf16) (k : Fin k0_t1_loop.trips) : FVec F S512x64 .f32 :=
  k0_pay18 (k0_pay9 (k0_pay12 v9) (k0_pay13 v11) (k0_pay14 v13) (k0_pay15 v15) (k0_pay16 v17) (k0_pay17 v19)
    (View.ld (Val := Elt F) X1 (Rect.unit (s := S1x4096x64) (k0_off1 k) S1x512x64.size (Gen.k0_off1_inb k)))
    (View.ld (Val := Elt F) X2 (Rect.unit (s := S64x64) ![0, 0] S64x64.size Gen.inb_S64x64_S64x64_0_0)))

/-- What the first scratch holds after the first loop: at row `r` the payload of trip `r / 512` at its row `r % 512`. -/
def out1 (v9 v11 : Vec F S4096x64 .f32) (v13 : Vec F S256x64 .bf16) (v15 : Vec F S64x256 .bf16) (v17 : Vec F S1x256 .f32) (v19 : Vec F S1x64 .f32) (X1 : Vec F S1x4096x64 .f32) (X2 : Vec F S64x64 .bf16) : Vec F S4096x64 .f32 :=
  fun y => blk1 v9 v11 v13 v15 v17 v19 X1 X2 ⟨(y 0).val / 512, div_lt_trips1 (y 0).isLt⟩
    (ix2 (⟨(y 0).val % 512, Nat.mod_lt _ (by decide)⟩ : Fin 512) (⟨(y 1).val, (y 1).isLt⟩ : Fin 64))

/-- Rows `512 k ..` of the second loop's result. -/
def blk2 (v30 v32 : Vec F S4096x64 .f32) (v34 : Vec F S256x64 .bf16) (v36 : Vec F S64x256 .bf16) (v38 : Vec F S1x256 .f32) (v40 : Vec F S1x64 .f32) (X8 : Vec F S64x64 .bf16) (X16 : Vec F S4096x64 .f32) (k : Fin k0_t2_loop.trips) : FVec F S1x512x64 .f32 :=
  k0_pay8 (k0_pay10 (k0_pay2 v30) (k0_pay3 v32) (k0_pay4 v34) (k0_pay5 v36) (k0_pay6 v38) (k0_pay7 v40)
    (View.ld (Val := Elt F) X16 (Rect.unit (s := S4096x64) (k0_off3 k) S512x64.size (Gen.k0_off3_inb k)))
    (View.ld (Val := Elt F) X8 (Rect.unit (s := S64x64) ![0, 0] S64x64.size Gen.inb_S64x64_S64x64_0_0)))

/-- What the output's staging buffer holds after the second loop. -/
def out2 (v30 v32 : Vec F S4096x64 .f32) (v34 : Vec F S256x64 .bf16) (v36 : Vec F S64x256 .bf16) (v38 : Vec F S1x256 .f32) (v40 : Vec F S1x64 .f32) (X8 : Vec F S64x64 .bf16) (X16 : Vec F S4096x64 .f32) : Vec F S1x4096x64 .f32 :=
  fun y => blk2 v30 v32 v34 v36 v38 v40 X8 X16 ⟨(y 1).val / 512, div_lt_trips2 (y 1).isLt⟩
    (ix3 (⟨0, by decide⟩ : Fin 1) (⟨(y 1).val % 512, Nat.mod_lt _ (by decide)⟩ : Fin 512) (⟨(y 2).val, (y 2).isLt⟩ : Fin 64))

/-! ## One trip's piece -/

theorem tripL_k0_t1_eq (𝒱 : Variants) (c : Dev nD) (bd : Option 𝒱.V) (i : grid0.Coords) (arg1 : Memref sig .tc .vmem S1x4096x64 .f32) (harg1 : arg1.IsWhole) (arg2 : Memref sig .tc .vmem S64x64 .bf16) (harg2 : arg2.IsWhole) (arg3 : Memref sig .tc .vmem S64x128 .bf16) (harg3 : arg3.IsWhole) (arg4 : Memref sig .tc .vmem S256x64 .bf16) (harg4 : arg4.IsWhole) (arg5 : Memref sig .tc .vmem S1x256 .f32) (harg5 : arg5.IsWhole) (arg6 : Memref sig .tc .vmem S64x256 .bf16) (harg6 : arg6.IsWhole) (arg7 : Memref sig .tc .vmem S1x64 .f32) (harg7 : arg7.IsWhole) (arg8 : Memref sig .tc .vmem S64x64 .bf16) (harg8 : arg8.IsWhole) (arg9 : Memref sig .tc .vmem S64x128 .bf16) (harg9 : arg9.IsWhole) (arg10 : Memref sig .tc .vmem S256x64 .bf16) (harg10 : arg10.IsWhole) (arg11 : Memref sig .tc .vmem S1x256 .f32) (harg11 : arg11.IsWhole) (arg12 : Memref sig .tc .vmem S64x256 .bf16) (harg12 : arg12.IsWhole) (arg13 : Memref sig .tc .vmem S1x64 .f32) (harg13 : arg13.IsWhole) (arg14 : Memref sig .tc .vmem S1x4096x64 .f32) (harg14 : arg14.IsWhole) (arg15 : Memref sig .tc .vmem S4096x128 .f32) (harg15 : arg15.IsWhole) (arg16 : Memref sig .tc .vmem S4096x64 .f32) (harg16 : arg16.IsWhole) (v9 : Vec F S4096x64 .f32) (v11 : Vec F S4096x64 .f32) (v13 : Vec F S256x64 .bf16) (v15 : Vec F S64x256 .bf16) (v17 : Vec F S1x256 .f32) (v19 : Vec F S1x64 .f32) (X_arg1 : BufTy.Contents (Elt F) arg1.view.ty) (X_arg2 : BufTy.Contents (Elt F) arg2.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v9 v11 v13 v15 v17 v19 X_arg1 X_arg2 k
      = [⟨Rect.unit (s := S4096x64) (k0_off2 k) S512x64.size (Gen.k0_off2_inb k),
          blk1 v9 v11 v13 v15 v17 v19 (arg1.view.read (Elt F) X_arg1) (arg2.view.read (Elt F) X_arg2) k⟩] := by
  unfold tripL_k0_t1
  delta trip_k0_t1
  rfl

theorem tripL_k0_t2_eq (𝒱 : Variants) (c : Dev nD) (bd : Option 𝒱.V) (i : grid0.Coords) (arg1 : Memref sig .tc .vmem S1x4096x64 .f32) (harg1 : arg1.IsWhole) (arg2 : Memref sig .tc .vmem S64x64 .bf16) (harg2 : arg2.IsWhole) (arg3 : Memref sig .tc .vmem S64x128 .bf16) (harg3 : arg3.IsWhole) (arg4 : Memref sig .tc .vmem S256x64 .bf16) (harg4 : arg4.IsWhole) (arg5 : Memref sig .tc .vmem S1x256 .f32) (harg5 : arg5.IsWhole) (arg6 : Memref sig .tc .vmem S64x256 .bf16) (harg6 : arg6.IsWhole) (arg7 : Memref sig .tc .vmem S1x64 .f32) (harg7 : arg7.IsWhole) (arg8 : Memref sig .tc .vmem S64x64 .bf16) (harg8 : arg8.IsWhole) (arg9 : Memref sig .tc .vmem S64x128 .bf16) (harg9 : arg9.IsWhole) (arg10 : Memref sig .tc .vmem S256x64 .bf16) (harg10 : arg10.IsWhole) (arg11 : Memref sig .tc .vmem S1x256 .f32) (harg11 : arg11.IsWhole) (arg12 : Memref sig .tc .vmem S64x256 .bf16) (harg12 : arg12.IsWhole) (arg13 : Memref sig .tc .vmem S1x64 .f32) (harg13 : arg13.IsWhole) (arg14 : Memref sig .tc .vmem S1x4096x64 .f32) (harg14 : arg14.IsWhole) (arg15 : Memref sig .tc .vmem S4096x128 .f32) (harg15 : arg15.IsWhole) (arg16 : Memref sig .tc .vmem S4096x64 .f32) (harg16 : arg16.IsWhole) (v30 : Vec F S4096x64 .f32) (v32 : Vec F S4096x64 .f32) (v34 : Vec F S256x64 .bf16) (v36 : Vec F S64x256 .bf16) (v38 : Vec F S1x256 .f32) (v40 : Vec F S1x64 .f32) (X_arg8 : BufTy.Contents (Elt F) arg8.view.ty) (X_arg16 : BufTy.Contents (Elt F) arg16.view.ty) (k : Fin k0_t2_loop.trips) (f_arg14 : BufTy.Contents (Elt F) arg14.view.ty) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v30 v32 v34 v36 v38 v40 X_arg8 X_arg16 k f_arg14
      = [⟨Rect.unit (s := S1x4096x64) (k0_off4 k) S1x512x64.size (Gen.k0_off4_inb k),
          blk2 v30 v32 v34 v36 v38 v40 (arg8.view.read (Elt F) X_arg8) (arg16.view.read (Elt F) X_arg16) k⟩] := by
  unfold tripL_k0_t2
  delta trip_k0_t2
  rfl

/-! ## The loops' piece lists as closed contents (the interface) -/

/-- Before trip `k` the rows below `512 k` of the first scratch read `out1`. -/
theorem read_writes_pb1 (𝒱 : Variants) (c : Dev nD) (bd : Option 𝒱.V) (i : grid0.Coords) (arg1 : Memref sig .tc .vmem S1x4096x64 .f32) (harg1 : arg1.IsWhole) (arg2 : Memref sig .tc .vmem S64x64 .bf16) (harg2 : arg2.IsWhole) (arg3 : Memref sig .tc .vmem S64x128 .bf16) (harg3 : arg3.IsWhole) (arg4 : Memref sig .tc .vmem S256x64 .bf16) (harg4 : arg4.IsWhole) (arg5 : Memref sig .tc .vmem S1x256 .f32) (harg5 : arg5.IsWhole) (arg6 : Memref sig .tc .vmem S64x256 .bf16) (harg6 : arg6.IsWhole) (arg7 : Memref sig .tc .vmem S1x64 .f32) (harg7 : arg7.IsWhole) (arg8 : Memref sig .tc .vmem S64x64 .bf16) (harg8 : arg8.IsWhole) (arg9 : Memref sig .tc .vmem S64x128 .bf16) (harg9 : arg9.IsWhole) (arg10 : Memref sig .tc .vmem S256x64 .bf16) (harg10 : arg10.IsWhole) (arg11 : Memref sig .tc .vmem S1x256 .f32) (harg11 : arg11.IsWhole) (arg12 : Memref sig .tc .vmem S64x256 .bf16) (harg12 : arg12.IsWhole) (arg13 : Memref sig .tc .vmem S1x64 .f32) (harg13 : arg13.IsWhole) (arg14 : Memref sig .tc .vmem S1x4096x64 .f32) (harg14 : arg14.IsWhole) (arg15 : Memref sig .tc .vmem S4096x128 .f32) (harg15 : arg15.IsWhole) (arg16 : Memref sig .tc .vmem S4096x64 .f32) (harg16 : arg16.IsWhole) (v9 : Vec F S4096x64 .f32) (v11 : Vec F S4096x64 .f32) (v13 : Vec F S256x64 .bf16) (v15 : Vec F S64x256 .bf16) (v17 : Vec F S1x256 .f32) (v19 : Vec F S1x64 .f32) (X_arg1 : BufTy.Contents (Elt F) arg1.view.ty) (X_arg2 : BufTy.Contents (Elt F) arg2.view.ty) (G : BufTy.Contents (Elt F) arg16.view.ty) :
    ∀ (k : ℕ), k ≤ 8 → ∀ y : S4096x64.Idx, (y 0).val < 512 * k →
      arg16.view.read (Elt F) (arg16.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v9 v11 v13 v15 v17 v19 X_arg1 X_arg2 k)) y
        = out1 v9 v11 v13 v15 v17 v19 (arg1.view.read (Elt F) X_arg1) (arg2.view.read (Elt F) X_arg2) y
  | 0, _, y, h => absurd h (by omega)
  | k + 1, hk, y, h => by
    have hk' : k < k0_t1_loop.trips := by rw [trips1]; omega
    have e : pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v9 v11 v13 v15 v17 v19 X_arg1 X_arg2 (k + 1)
        = (⟨Rect.unit (s := S4096x64) (k0_off2 ⟨k, hk'⟩) S512x64.size (Gen.k0_off2_inb ⟨k, hk'⟩),
            blk1 v9 v11 v13 v15 v17 v19 (arg1.view.read (Elt F) X_arg1) (arg2.view.read (Elt F) X_arg2) ⟨k, hk'⟩⟩ : View.Piece (Elt F) S4096x64 .f32)
          :: pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v9 v11 v13 v15 v17 v19 X_arg1 X_arg2 k :=
      (pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v9 v11 v13 v15 v17 v19 X_arg1 X_arg2 ⟨k, hk'⟩).trans
        (by rw [tripL_k0_t1_eq]; rfl)
    rw [e]
    have h0 : (y 0).val < 4096 := (y 0).isLt
    have h1 : (y 1).val < 64 := (y 1).isLt
    by_cases hy : 512 * k ≤ (y 0).val
    · refine (View.read_writes_cons_unit_of_mem arg16.view G (Gen.k0_off2_inb ⟨k, hk'⟩) _ _ y
        (ix2 (⟨(y 0).val - 512 * k, by omega⟩ : Fin 512) (⟨(y 1).val, h1⟩ : Fin 64)) (Gen.k0_off2_eq ⟨k, hk'⟩)
        (Fin.forall_fin_two.mpr ⟨by show (y 0).val = 512 * k + ((y 0).val - 512 * k); omega,
          by show (y 1).val = 0 + (y 1).val; omega⟩)).trans ?_
      have ek : (⟨(y 0).val / 512, div_lt_trips1 (y 0).isLt⟩ : Fin k0_t1_loop.trips) = ⟨k, hk'⟩ :=
        Fin.ext (by show (y 0).val / 512 = k; omega)
      have ex : (⟨(y 0).val % 512, Nat.mod_lt _ (by decide)⟩ : Fin 512) = ⟨(y 0).val - 512 * k, by omega⟩ :=
        Fin.ext (by show (y 0).val % 512 = (y 0).val - 512 * k; omega)
      show _ = blk1 v9 v11 v13 v15 v17 v19 (arg1.view.read (Elt F) X_arg1) (arg2.view.read (Elt F) X_arg2) _ _
      rw [ek, ex]
    · refine (View.read_writes_cons_unit_of_not_mem arg16.view G (Gen.k0_off2_inb ⟨k, hk'⟩) _ _ y
        (Gen.k0_off2_eq ⟨k, hk'⟩) 0 (Or.inl (by show (y 0).val < 512 * k; omega))).trans ?_
      exact read_writes_pb1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v9 v11 v13 v15 v17 v19 X_arg1 X_arg2 G k (by omega) y (by omega)

/-- After the first loop the first scratch reads `out1`, whatever it held before. -/
theorem writes_pb_k0_t1 (𝒱 : Variants) (c : Dev nD) (bd : Option 𝒱.V) (i : grid0.Coords) (arg1 : Memref sig .tc .vmem S1x4096x64 .f32) (harg1 : arg1.IsWhole) (arg2 : Memref sig .tc .vmem S64x64 .bf16) (harg2 : arg2.IsWhole) (arg3 : Memref sig .tc .vmem S64x128 .bf16) (harg3 : arg3.IsWhole) (arg4 : Memref sig .tc .vmem S256x64 .bf16) (harg4 : arg4.IsWhole) (arg5 : Memref sig .tc .vmem S1x256 .f32) (harg5 : arg5.IsWhole) (arg6 : Memref sig .tc .vmem S64x256 .bf16) (harg6 : arg6.IsWhole) (arg7 : Memref sig .tc .vmem S1x64 .f32) (harg7 : arg7.IsWhole) (arg8 : Memref sig .tc .vmem S64x64 .bf16) (harg8 : arg8.IsWhole) (arg9 : Memref sig .tc .vmem S64x128 .bf16) (harg9 : arg9.IsWhole) (arg10 : Memref sig .tc .vmem S256x64 .bf16) (harg10 : arg10.IsWhole) (arg11 : Memref sig .tc .vmem S1x256 .f32) (harg11 : arg11.IsWhole) (arg12 : Memref sig .tc .vmem S64x256 .bf16) (harg12 : arg12.IsWhole) (arg13 : Memref sig .tc .vmem S1x64 .f32) (harg13 : arg13.IsWhole) (arg14 : Memref sig .tc .vmem S1x4096x64 .f32) (harg14 : arg14.IsWhole) (arg15 : Memref sig .tc .vmem S4096x128 .f32) (harg15 : arg15.IsWhole) (arg16 : Memref sig .tc .vmem S4096x64 .f32) (harg16 : arg16.IsWhole) (v9 : Vec F S4096x64 .f32) (v11 : Vec F S4096x64 .f32) (v13 : Vec F S256x64 .bf16) (v15 : Vec F S64x256 .bf16) (v17 : Vec F S1x256 .f32) (v19 : Vec F S1x64 .f32) (X_arg1 : BufTy.Contents (Elt F) arg1.view.ty) (X_arg2 : BufTy.Contents (Elt F) arg2.view.ty) (G : BufTy.Contents (Elt F) arg16.view.ty) :
    arg16.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v9 v11 v13 v15 v17 v19 X_arg1 X_arg2 (Scf.trips k0_t1_loop.lb k0_t1_loop.ub k0_t1_loop.st))
      = harg16.unread (out1 v9 v11 v13 v15 v17 v19 (arg1.view.read (Elt F) X_arg1) (arg2.view.read (Elt F) X_arg2)) := by
  refine harg16.eq_unread (funext fun y => ?_)
  exact read_writes_pb1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v9 v11 v13 v15 v17 v19 X_arg1 X_arg2 G 8 (le_refl _) y (by have h0 : (y 0).val < 4096 := (y 0).isLt; omega)

/-- The same at the contents a body proof holds: the inputs' raw contents `unread` of what they read. -/
theorem writes_pb_k0_t1' (𝒱 : Variants) (c : Dev nD) (bd : Option 𝒱.V) (i : grid0.Coords) (arg1 : Memref sig .tc .vmem S1x4096x64 .f32) (harg1 : arg1.IsWhole) (arg2 : Memref sig .tc .vmem S64x64 .bf16) (harg2 : arg2.IsWhole) (arg3 : Memref sig .tc .vmem S64x128 .bf16) (harg3 : arg3.IsWhole) (arg4 : Memref sig .tc .vmem S256x64 .bf16) (harg4 : arg4.IsWhole) (arg5 : Memref sig .tc .vmem S1x256 .f32) (harg5 : arg5.IsWhole) (arg6 : Memref sig .tc .vmem S64x256 .bf16) (harg6 : arg6.IsWhole) (arg7 : Memref sig .tc .vmem S1x64 .f32) (harg7 : arg7.IsWhole) (arg8 : Memref sig .tc .vmem S64x64 .bf16) (harg8 : arg8.IsWhole) (arg9 : Memref sig .tc .vmem S64x128 .bf16) (harg9 : arg9.IsWhole) (arg10 : Memref sig .tc .vmem S256x64 .bf16) (harg10 : arg10.IsWhole) (arg11 : Memref sig .tc .vmem S1x256 .f32) (harg11 : arg11.IsWhole) (arg12 : Memref sig .tc .vmem S64x256 .bf16) (harg12 : arg12.IsWhole) (arg13 : Memref sig .tc .vmem S1x64 .f32) (harg13 : arg13.IsWhole) (arg14 : Memref sig .tc .vmem S1x4096x64 .f32) (harg14 : arg14.IsWhole) (arg15 : Memref sig .tc .vmem S4096x128 .f32) (harg15 : arg15.IsWhole) (arg16 : Memref sig .tc .vmem S4096x64 .f32) (harg16 : arg16.IsWhole) (v9 : Vec F S4096x64 .f32) (v11 : Vec F S4096x64 .f32) (v13 : Vec F S256x64 .bf16) (v15 : Vec F S64x256 .bf16) (v17 : Vec F S1x256 .f32) (v19 : Vec F S1x64 .f32) (x0 : Vec F S1x4096x64 .f32) (x1 : Vec F S64x64 .bf16) (G : BufTy.Contents (Elt F) arg16.view.ty) :
    arg16.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v9 v11 v13 v15 v17 v19 (harg1.unread x0) (harg2.unread x1) (Scf.trips k0_t1_loop.lb k0_t1_loop.ub k0_t1_loop.st))
      = harg16.unread (out1 v9 v11 v13 v15 v17 v19 x0 x1) := by
  rw [writes_pb_k0_t1, harg1.read_unread, harg2.read_unread]

/-- Before trip `k` the rows below `512 k` of the output's staging buffer read `out2`. -/
theorem read_writes_pb2 (𝒱 : Variants) (c : Dev nD) (bd : Option 𝒱.V) (i : grid0.Coords) (arg1 : Memref sig .tc .vmem S1x4096x64 .f32) (harg1 : arg1.IsWhole) (arg2 : Memref sig .tc .vmem S64x64 .bf16) (harg2 : arg2.IsWhole) (arg3 : Memref sig .tc .vmem S64x128 .bf16) (harg3 : arg3.IsWhole) (arg4 : Memref sig .tc .vmem S256x64 .bf16) (harg4 : arg4.IsWhole) (arg5 : Memref sig .tc .vmem S1x256 .f32) (harg5 : arg5.IsWhole) (arg6 : Memref sig .tc .vmem S64x256 .bf16) (harg6 : arg6.IsWhole) (arg7 : Memref sig .tc .vmem S1x64 .f32) (harg7 : arg7.IsWhole) (arg8 : Memref sig .tc .vmem S64x64 .bf16) (harg8 : arg8.IsWhole) (arg9 : Memref sig .tc .vmem S64x128 .bf16) (harg9 : arg9.IsWhole) (arg10 : Memref sig .tc .vmem S256x64 .bf16) (harg10 : arg10.IsWhole) (arg11 : Memref sig .tc .vmem S1x256 .f32) (harg11 : arg11.IsWhole) (arg12 : Memref sig .tc .vmem S64x256 .bf16) (harg12 : arg12.IsWhole) (arg13 : Memref sig .tc .vmem S1x64 .f32) (harg13 : arg13.IsWhole) (arg14 : Memref sig .tc .vmem S1x4096x64 .f32) (harg14 : arg14.IsWhole) (arg15 : Memref sig .tc .vmem S4096x128 .f32) (harg15 : arg15.IsWhole) (arg16 : Memref sig .tc .vmem S4096x64 .f32) (harg16 : arg16.IsWhole) (v30 : Vec F S4096x64 .f32) (v32 : Vec F S4096x64 .f32) (v34 : Vec F S256x64 .bf16) (v36 : Vec F S64x256 .bf16) (v38 : Vec F S1x256 .f32) (v40 : Vec F S1x64 .f32) (X_arg8 : BufTy.Contents (Elt F) arg8.view.ty) (X_arg16 : BufTy.Contents (Elt F) arg16.view.ty) (G : BufTy.Contents (Elt F) arg14.view.ty) :
    ∀ (k : ℕ), k ≤ 8 → ∀ y : S1x4096x64.Idx, (y 1).val < 512 * k →
      arg14.view.read (Elt F) (arg14.view.writes (Elt F) G (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v30 v32 v34 v36 v38 v40 X_arg8 X_arg16 G k)) y
        = out2 v30 v32 v34 v36 v38 v40 (arg8.view.read (Elt F) X_arg8) (arg16.view.read (Elt F) X_arg16) y
  | 0, _, y, h => absurd h (by omega)
  | k + 1, hk, y, h => by
    have hk' : k < k0_t2_loop.trips := by rw [trips2]; omega
    have e : pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v30 v32 v34 v36 v38 v40 X_arg8 X_arg16 G (k + 1)
        = (⟨Rect.unit (s := S1x4096x64) (k0_off4 ⟨k, hk'⟩) S1x512x64.size (Gen.k0_off4_inb ⟨k, hk'⟩),
            blk2 v30 v32 v34 v36 v38 v40 (arg8.view.read (Elt F) X_arg8) (arg16.view.read (Elt F) X_arg16) ⟨k, hk'⟩⟩ : View.Piece (Elt F) S1x4096x64 .f32)
          :: pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v30 v32 v34 v36 v38 v40 X_arg8 X_arg16 G k :=
      (pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v30 v32 v34 v36 v38 v40 X_arg8 X_arg16 G ⟨k, hk'⟩).trans
        (by rw [tripL_k0_t2_eq]; rfl)
    rw [e]
    have h0 : (y 0).val < 1 := (y 0).isLt
    have h1 : (y 1).val < 4096 := (y 1).isLt
    have h2 : (y 2).val < 64 := (y 2).isLt
    by_cases hy : 512 * k ≤ (y 1).val
    · refine (View.read_writes_cons_unit_of_mem arg14.view G (Gen.k0_off4_inb ⟨k, hk'⟩) _ _ y
        (ix3 (⟨0, by decide⟩ : Fin 1) (⟨(y 1).val - 512 * k, by omega⟩ : Fin 512) (⟨(y 2).val, h2⟩ : Fin 64)) (Gen.k0_off4_eq ⟨k, hk'⟩)
        (fun a => match a with
          | ⟨0, _⟩ => by show (y 0).val = 0 + 0; omega
          | ⟨1, _⟩ => by show (y 1).val = 512 * k + ((y 1).val - 512 * k); omega
          | ⟨2, _⟩ => by show (y 2).val = 0 + (y 2).val; omega)).trans ?_
      have ek : (⟨(y 1).val / 512, div_lt_trips2 (y 1).isLt⟩ : Fin k0_t2_loop.trips) = ⟨k, hk'⟩ :=
        Fin.ext (by show (y 1).val / 512 = k; omega)
      have ex : (⟨(y 1).val % 512, Nat.mod_lt _ (by decide)⟩ : Fin 512) = ⟨(y 1).val - 512 * k, by omega⟩ :=
        Fin.ext (by show (y 1).val % 512 = (y 1).val - 512 * k; omega)
      show _ = blk2 v30 v32 v34 v36 v38 v40 (arg8.view.read (Elt F) X_arg8) (arg16.view.read (Elt F) X_arg16) _ _
      rw [ek, ex]
    · refine (View.read_writes_cons_unit_of_not_mem arg14.view G (Gen.k0_off4_inb ⟨k, hk'⟩) _ _ y
        (Gen.k0_off4_eq ⟨k, hk'⟩) 1 (Or.inl (by show (y 1).val < 512 * k; omega))).trans ?_
      exact read_writes_pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v30 v32 v34 v36 v38 v40 X_arg8 X_arg16 G k (by omega) y (by omega)

/-- After the second loop the output's staging buffer reads `out2`, whatever it held before. -/
theorem writes_pb_k0_t2 (𝒱 : Variants) (c : Dev nD) (bd : Option 𝒱.V) (i : grid0.Coords) (arg1 : Memref sig .tc .vmem S1x4096x64 .f32) (harg1 : arg1.IsWhole) (arg2 : Memref sig .tc .vmem S64x64 .bf16) (harg2 : arg2.IsWhole) (arg3 : Memref sig .tc .vmem S64x128 .bf16) (harg3 : arg3.IsWhole) (arg4 : Memref sig .tc .vmem S256x64 .bf16) (harg4 : arg4.IsWhole) (arg5 : Memref sig .tc .vmem S1x256 .f32) (harg5 : arg5.IsWhole) (arg6 : Memref sig .tc .vmem S64x256 .bf16) (harg6 : arg6.IsWhole) (arg7 : Memref sig .tc .vmem S1x64 .f32) (harg7 : arg7.IsWhole) (arg8 : Memref sig .tc .vmem S64x64 .bf16) (harg8 : arg8.IsWhole) (arg9 : Memref sig .tc .vmem S64x128 .bf16) (harg9 : arg9.IsWhole) (arg10 : Memref sig .tc .vmem S256x64 .bf16) (harg10 : arg10.IsWhole) (arg11 : Memref sig .tc .vmem S1x256 .f32) (harg11 : arg11.IsWhole) (arg12 : Memref sig .tc .vmem S64x256 .bf16) (harg12 : arg12.IsWhole) (arg13 : Memref sig .tc .vmem S1x64 .f32) (harg13 : arg13.IsWhole) (arg14 : Memref sig .tc .vmem S1x4096x64 .f32) (harg14 : arg14.IsWhole) (arg15 : Memref sig .tc .vmem S4096x128 .f32) (harg15 : arg15.IsWhole) (arg16 : Memref sig .tc .vmem S4096x64 .f32) (harg16 : arg16.IsWhole) (v30 : Vec F S4096x64 .f32) (v32 : Vec F S4096x64 .f32) (v34 : Vec F S256x64 .bf16) (v36 : Vec F S64x256 .bf16) (v38 : Vec F S1x256 .f32) (v40 : Vec F S1x64 .f32) (X_arg8 : BufTy.Contents (Elt F) arg8.view.ty) (X_arg16 : BufTy.Contents (Elt F) arg16.view.ty) (G : BufTy.Contents (Elt F) arg14.view.ty) :
    arg14.view.writes (Elt F) G (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v30 v32 v34 v36 v38 v40 X_arg8 X_arg16 G (Scf.trips k0_t2_loop.lb k0_t2_loop.ub k0_t2_loop.st))
      = harg14.unread (out2 v30 v32 v34 v36 v38 v40 (arg8.view.read (Elt F) X_arg8) (arg16.view.read (Elt F) X_arg16)) := by
  refine harg14.eq_unread (funext fun y => ?_)
  exact read_writes_pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v30 v32 v34 v36 v38 v40 X_arg8 X_arg16 G 8 (le_refl _) y (by have h1 : (y 1).val < 4096 := (y 1).isLt; omega)

theorem writes_pb_k0_t2' (𝒱 : Variants) (c : Dev nD) (bd : Option 𝒱.V) (i : grid0.Coords) (arg1 : Memref sig .tc .vmem S1x4096x64 .f32) (harg1 : arg1.IsWhole) (arg2 : Memref sig .tc .vmem S64x64 .bf16) (harg2 : arg2.IsWhole) (arg3 : Memref sig .tc .vmem S64x128 .bf16) (harg3 : arg3.IsWhole) (arg4 : Memref sig .tc .vmem S256x64 .bf16) (harg4 : arg4.IsWhole) (arg5 : Memref sig .tc .vmem S1x256 .f32) (harg5 : arg5.IsWhole) (arg6 : Memref sig .tc .vmem S64x256 .bf16) (harg6 : arg6.IsWhole) (arg7 : Memref sig .tc .vmem S1x64 .f32) (harg7 : arg7.IsWhole) (arg8 : Memref sig .tc .vmem S64x64 .bf16) (harg8 : arg8.IsWhole) (arg9 : Memref sig .tc .vmem S64x128 .bf16) (harg9 : arg9.IsWhole) (arg10 : Memref sig .tc .vmem S256x64 .bf16) (harg10 : arg10.IsWhole) (arg11 : Memref sig .tc .vmem S1x256 .f32) (harg11 : arg11.IsWhole) (arg12 : Memref sig .tc .vmem S64x256 .bf16) (harg12 : arg12.IsWhole) (arg13 : Memref sig .tc .vmem S1x64 .f32) (harg13 : arg13.IsWhole) (arg14 : Memref sig .tc .vmem S1x4096x64 .f32) (harg14 : arg14.IsWhole) (arg15 : Memref sig .tc .vmem S4096x128 .f32) (harg15 : arg15.IsWhole) (arg16 : Memref sig .tc .vmem S4096x64 .f32) (harg16 : arg16.IsWhole) (v30 : Vec F S4096x64 .f32) (v32 : Vec F S4096x64 .f32) (v34 : Vec F S256x64 .bf16) (v36 : Vec F S64x256 .bf16) (v38 : Vec F S1x256 .f32) (v40 : Vec F S1x64 .f32) (x7 : Vec F S64x64 .bf16) (Y16 : Vec F S4096x64 .f32) (G : BufTy.Contents (Elt F) arg14.view.ty) :
    arg14.view.writes (Elt F) G (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v30 v32 v34 v36 v38 v40 (harg8.unread x7) (harg16.unread Y16) G (Scf.trips k0_t2_loop.lb k0_t2_loop.ub k0_t2_loop.st))
      = harg14.unread (out2 v30 v32 v34 v36 v38 v40 x7 Y16) := by
  rw [writes_pb_k0_t2, harg8.read_unread, harg16.read_unread]

/-! ## The trips' loads at an index -/

theorem zero2 : (![0, 0] : Fin 2 → ℕ) = fun _ => 0 := funext fun a => match a with | ⟨0, _⟩ => rfl | ⟨1, _⟩ => rfl

/-- Trip `k`'s load of the input block: its rows `512 k ..`. -/
theorem ld_off1 (X1 : Vec F S1x4096x64 .f32) (k : Fin k0_t1_loop.trips) :
    View.ld (Val := Elt F) X1 (Rect.unit (s := S1x4096x64) (k0_off1 k) S1x512x64.size (Gen.k0_off1_inb k))
      = fun y : S1x512x64.Idx => X1 (ix3 (⟨0, by decide⟩ : Fin 1)
          (⟨512 * k.val + (y 1).val, by have h1 : (y 1).val < 512 := (y 1).isLt; have hk : k.val < 8 := lt_of_lt_of_eq k.isLt trips1; omega⟩ : Fin 4096)
          (⟨(y 2).val, (y 2).isLt⟩ : Fin 64)) := by
  funext y
  show X1 ((Rect.unit (s := S1x4096x64) (k0_off1 k) S1x512x64.size (Gen.k0_off1_inb k)).emb y) = _
  congr 1
  funext a
  have e := Gen.k0_off1_eq k
  have e0 : k0_off1 k 0 = 0 := congrFun e 0
  have e1 : k0_off1 k 1 = 512 * k.val := congrFun e 1
  have e2 : k0_off1 k 2 = 0 := congrFun e 2
  have h0 : (y 0).val < 1 := (y 0).isLt
  match a with
  | ⟨0, _⟩ => exact Fin.ext (by show k0_off1 k 0 + 1 * (y 0).val = 0; omega)
  | ⟨1, _⟩ => exact Fin.ext (by show k0_off1 k 1 + 1 * (y 1).val = 512 * k.val + (y 1).val; omega)
  | ⟨2, _⟩ => exact Fin.ext (by show k0_off1 k 2 + 1 * (y 2).val = (y 2).val; omega)

/-- Trip `k`'s load of the first scratch: its rows `512 k ..`. -/
theorem ld_off3 (X16 : Vec F S4096x64 .f32) (k : Fin k0_t2_loop.trips) :
    View.ld (Val := Elt F) X16 (Rect.unit (s := S4096x64) (k0_off3 k) S512x64.size (Gen.k0_off3_inb k))
      = fun y : S512x64.Idx => X16 (ix2
          (⟨512 * k.val + (y 0).val, by have h1 : (y 0).val < 512 := (y 0).isLt; have hk : k.val < 8 := lt_of_lt_of_eq k.isLt trips2; omega⟩ : Fin 4096)
          (⟨(y 1).val, (y 1).isLt⟩ : Fin 64)) := by
  funext y
  show X16 ((Rect.unit (s := S4096x64) (k0_off3 k) S512x64.size (Gen.k0_off3_inb k)).emb y) = _
  congr 1
  funext a
  have e := Gen.k0_off3_eq k
  have e0 : k0_off3 k 0 = 512 * k.val := congrFun e 0
  have e1 : k0_off3 k 1 = 0 := congrFun e 1
  match a with
  | ⟨0, _⟩ => exact Fin.ext (by show k0_off3 k 0 + 1 * (y 0).val = 512 * k.val + (y 0).val; omega)
  | ⟨1, _⟩ => exact Fin.ext (by show k0_off3 k 1 + 1 * (y 1).val = (y 1).val; omega)

/-- The trips' load of a whole weight reads it. -/
theorem ld_whole64 (X : Vec F S64x64 .bf16) :
    View.ld (Val := Elt F) X (Rect.unit (s := S64x64) ![0, 0] S64x64.size Gen.inb_S64x64_S64x64_0_0) = X :=
  View.ld_unit_zero zero2 _ X

/-! ## The closed forms at an index -/

theorem out1_apply (v9 v11 : Vec F S4096x64 .f32) (v13 : Vec F S256x64 .bf16) (v15 : Vec F S64x256 .bf16) (v17 : Vec F S1x256 .f32) (v19 : Vec F S1x64 .f32) (X1 : Vec F S1x4096x64 .f32) (X2 : Vec F S64x64 .bf16) (r : Fin 4096) (o : Fin 64) :
    out1 v9 v11 v13 v15 v17 v19 X1 X2 (ix2 r o)
      = k0_pay18 (k0_pay9 (k0_pay12 v9) (k0_pay13 v11) (k0_pay14 v13) (k0_pay15 v15) (k0_pay16 v17) (k0_pay17 v19)
          (fun y : S1x512x64.Idx => X1 (ix3 (⟨0, by decide⟩ : Fin 1)
            (⟨512 * (r.val / 512) + (y 1).val, by have h1 : (y 1).val < 512 := (y 1).isLt; have := r.isLt; omega⟩ : Fin 4096)
            (⟨(y 2).val, (y 2).isLt⟩ : Fin 64)))
          X2) (ix2 (⟨r.val % 512, Nat.mod_lt _ (by decide)⟩ : Fin 512) o) := by
  unfold out1 blk1
  rw [ld_off1, ld_whole64]

theorem out2_apply (v30 v32 : Vec F S4096x64 .f32) (v34 : Vec F S256x64 .bf16) (v36 : Vec F S64x256 .bf16) (v38 : Vec F S1x256 .f32) (v40 : Vec F S1x64 .f32) (X8 : Vec F S64x64 .bf16) (X16 : Vec F S4096x64 .f32) (z : Fin 1) (r : Fin 4096) (o : Fin 64) :
    out2 v30 v32 v34 v36 v38 v40 X8 X16 (ix3 z r o)
      = k0_pay8 (k0_pay10 (k0_pay2 v30) (k0_pay3 v32) (k0_pay4 v34) (k0_pay5 v36) (k0_pay6 v38) (k0_pay7 v40)
          (fun y : S512x64.Idx => X16 (ix2
            (⟨512 * (r.val / 512) + (y 0).val, by have h1 : (y 0).val < 512 := (y 0).isLt; have := r.isLt; omega⟩ : Fin 4096)
            (⟨(y 1).val, (y 1).isLt⟩ : Fin 64)))
          X8) (ix3 (⟨0, by decide⟩ : Fin 1) (⟨r.val % 512, Nat.mod_lt _ (by decide)⟩ : Fin 512) o) := by
  unfold out2 blk2
  rw [ld_off3, ld_whole64]

end Cert.KernelIdeal.Body

end
-- ==== Proof.KI.Run.lean ====
/-
  The kernel body's triple, with the output named.

  At one grid point the body is handed thirteen input blocks `x0 … x12`, an output buffer at arbitrary contents and
  two scratch buffers at arbitrary contents. It stores the joint key-and-value projection of the input block into the
  first scratch buffer and reads its two column halves back; in eight trips it writes, 512 rows at a time, the first
  stage's result into the second scratch buffer; it then projects that result into the first scratch buffer again,
  reads the halves back, and in eight more trips writes the second stage's result, 512 rows at a time, into the output
  buffer. Each trip first loads the rows it is about to store; that value is never used.

  `bodyOut x0 … x12` is what the output buffer then holds: a closed function of the inputs, built from the column
  halves (`colsL`, `colsR`), the first stage (`stage1`, over the closed form `out1` of the first loop) and the
  closed form `out2` of the second loop. `bodyRun` is the triple: whatever the output and scratch buffers held, the
  body ends with the inputs unchanged and the output buffer at `bodyOut` of them. The eight stores of each loop tile
  their buffer, so nothing of the prior contents survives; the loads after a store through the full rectangle read
  the stored payload.
-/
import proofs.«405560_j29480655519796_3_alg».proof.Proof.Gen.KernelIdeal.Frame
import proofs.«405560_j29480655519796_3_alg».proof.Proof.Gen.KernelIdeal.Loops
import proofs.«405560_j29480655519796_3_alg».proof.Proof.KI.Trips
import Idealize.ShloMosaic.Lib.WholeRead

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads through a whole memref, and after a whole store -/

theorem offs2_zero : (![0, 0] : Fin 2 → ℕ) = fun _ => 0 := by funext a; fin_cases a <;> rfl
theorem offs3_zero : (![0, 0, 0] : Fin 3 → ℕ) = fun _ => 0 := by funext a; fin_cases a <;> rfl

/-- A load through the full rectangle of a whole memref held at the contents that read `X` reads `X`. -/
theorem readAt_full_unread {κ : Kind} {sp : Space} {S : Shape} {e : EltTy} {m : Memref sig κ sp S e} (h : m.IsWhole)
    (X : S.Idx → Elt F e) {off : Fin S.rank → ℕ} (hoff : off = fun _ => 0) (inb : ∀ a, off a + S.size a ≤ S.size a) :
    View.readAt (Elt F) m.view (Rect.unit off S.size inb).toLoadRect (h.unread X) = X := by
  rw [View.readAt_eq_ld, h.read_unread, View.ld_unit_zero hoff]

/-- After a store through the full rectangle, made last, a load through any rectangle reads the stored payload there. -/
theorem readCov_cons_full {κ : Kind} {sp : Space} {S : Shape} {e : EltTy} (v : View sig κ sp S e) {off : Fin S.rank → ℕ}
    (hoff : off = fun _ => 0) (inb : ∀ a, off a + S.size a ≤ S.size a) (w : S.Idx → Elt F e)
    (L : List (View.Piece (Elt F) S e)) (r : Rect S) :
    v.readCov ((⟨Rect.unit off S.size inb, w⟩ : View.Piece (Elt F) S e) :: L) r.toLoadRect = View.ld w r := by
  rw [View.readCov_eq_canon', View.canon_cons_unit_zero hoff]

/-! ## What the body leaves in the output's staging buffer -/

/-- Columns 0 … 63 of a 4096 × 128 array. -/
def colsL (w : Vec F S4096x128 .f32) : Vec F S4096x64 .f32 :=
  View.ld (Val := Elt F) w (Rect.unit (s := S4096x128) ![0, 0] S4096x64.size inb_S4096x128_S4096x64_0_0)

/-- Columns 64 … 127 of a 4096 × 128 array. -/
def colsR (w : Vec F S4096x128 .f32) : Vec F S4096x64 .f32 :=
  View.ld (Val := Elt F) w (Rect.unit (s := S4096x128) ![0, 64] S4096x64.size inb_S4096x128_S4096x64_0_64)

/-- The first stage's result: the keys and values are the two column halves of the joint projection of the input
    block, and each block of 512 rows attends to them. -/
def stage1 (x0 : Vec F S1x4096x64 .f32) (x1 : Vec F S64x64 .bf16) (x2 : Vec F S64x128 .bf16) (x3 : Vec F S256x64 .bf16) (x4 : Vec F S1x256 .f32) (x5 : Vec F S64x256 .bf16) (x6 : Vec F S1x64 .f32) : Vec F S4096x64 .f32 :=
  out1 (colsL (k0_pay11 x0 x2)) (colsR (k0_pay11 x0 x2)) x3 x5 x4 x6 x0 x1

/-- What the body leaves in the output window's staging buffer, as a function of the thirteen input blocks: the second
    stage run on the first stage's result. -/
def bodyOut (x0 : Vec F S1x4096x64 .f32) (x1 : Vec F S64x64 .bf16) (x2 : Vec F S64x128 .bf16) (x3 : Vec F S256x64 .bf16) (x4 : Vec F S1x256 .f32) (x5 : Vec F S64x256 .bf16) (x6 : Vec F S1x64 .f32) (x7 : Vec F S64x64 .bf16) (x8 : Vec F S64x128 .bf16) (x9 : Vec F S256x64 .bf16) (x10 : Vec F S1x256 .f32) (x11 : Vec F S64x256 .bf16) (x12 : Vec F S1x64 .f32) : Vec F S1x4096x64 .f32 :=
  out2 (colsL (k0_pay1 (k0_pay19 (stage1 x0 x1 x2 x3 x4 x5 x6) x8))) (colsR (k0_pay1 (k0_pay19 (stage1 x0 x1 x2 x3 x4 x5 x6) x8)))
    x9 x11 x10 x12 x7 (stage1 x0 x1 x2 x3 x4 x5 x6)

set_option maxHeartbeats 1000000 in
/-- The body's triple on whole staging memrefs: the inputs' at their contents, the output's at ANY prior contents, the
    two scratch buffers at any; the body runs to the continuation holding the inputs' as they were, the output's at
    `bodyOut` of the inputs, the scratch at some contents. -/
theorem bodyRun (c : Dev nD) (i : grid0.Coords) (arg1 : Memref sig .tc .vmem S1x4096x64 .f32) (harg1 : arg1.IsWhole) (arg2 : Memref sig .tc .vmem S64x64 .bf16) (harg2 : arg2.IsWhole) (arg3 : Memref sig .tc .vmem S64x128 .bf16) (harg3 : arg3.IsWhole) (arg4 : Memref sig .tc .vmem S256x64 .bf16) (harg4 : arg4.IsWhole) (arg5 : Memref sig .tc .vmem S1x256 .f32) (harg5 : arg5.IsWhole) (arg6 : Memref sig .tc .vmem S64x256 .bf16) (harg6 : arg6.IsWhole) (arg7 : Memref sig .tc .vmem S1x64 .f32) (harg7 : arg7.IsWhole) (arg8 : Memref sig .tc .vmem S64x64 .bf16) (harg8 : arg8.IsWhole) (arg9 : Memref sig .tc .vmem S64x128 .bf16) (harg9 : arg9.IsWhole) (arg10 : Memref sig .tc .vmem S256x64 .bf16) (harg10 : arg10.IsWhole) (arg11 : Memref sig .tc .vmem S1x256 .f32) (harg11 : arg11.IsWhole) (arg12 : Memref sig .tc .vmem S64x256 .bf16) (harg12 : arg12.IsWhole) (arg13 : Memref sig .tc .vmem S1x64 .f32) (harg13 : arg13.IsWhole) (arg14 : Memref sig .tc .vmem S1x4096x64 .f32) (harg14 : arg14.IsWhole) (arg15 : Memref sig .tc .vmem S4096x128 .f32) (harg15 : arg15.IsWhole) (arg16 : Memref sig .tc .vmem S4096x64 .f32) (harg16 : arg16.IsWhole)
    (x0 : Vec F S1x4096x64 .f32) (x1 : Vec F S64x64 .bf16) (x2 : Vec F S64x128 .bf16) (x3 : Vec F S256x64 .bf16) (x4 : Vec F S1x256 .f32) (x5 : Vec F S64x256 .bf16) (x6 : Vec F S1x64 .f32) (x7 : Vec F S64x64 .bf16) (x8 : Vec F S64x128 .bf16) (x9 : Vec F S256x64 .bf16) (x10 : Vec F S1x256 .f32) (x11 : Vec F S64x256 .bf16) (x12 : Vec F S1x64 .f32) (d13 : Vec F S1x4096x64 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare d13 ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (bodyOut x0 x1 x2 x3 x4 x5 x6 x7 x8 x9 x10 x11 x12) ∗ (∃ d, owns (c : Thread nD τ) arg15 fullShare d) ∗ (∃ d, owns (c : Thread nD τ) arg16 fullShare d)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_kernel_eq_skeleton]; unfold cc0_kernel_skel
    simp only [k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, -, H13⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; swap; · iexact H13
      ipureintro
      sl_unfold_run_names
      rw [writes_pb_k0_t1']
      rw [writes_pb_k0_t2', harg14.read_unread]
      rw [readAt_full_unread harg16 _ offs2_zero]
      rw [readAt_full_unread harg1 x0 offs3_zero, readAt_full_unread harg3 x2 offs2_zero, readAt_full_unread harg4 x3 offs2_zero,
        readAt_full_unread harg5 x4 offs2_zero, readAt_full_unread harg6 x5 offs2_zero, readAt_full_unread harg7 x6 offs2_zero,
        readAt_full_unread harg9 x8 offs2_zero, readAt_full_unread harg10 x9 offs2_zero, readAt_full_unread harg11 x10 offs2_zero,
        readAt_full_unread harg12 x11 offs2_zero, readAt_full_unread harg13 x12 offs2_zero]
      repeat rw [readCov_cons_full arg15.view offs2_zero]
      rfl
    isplitl [HS0]
    · iexists _, _; isplitr; swap; · iexact HS0
      ipureintro; rfl
    iexists _, _; isplitr; swap; · iexact HS1
    ipureintro; rfl

end Cert.KernelIdeal.Body

end
-- ==== Proof.KI.Body.lean ====
/-
  The proof data and the launch, with the output named.

  The pipeline calls the body at each of the four grid points with the inputs' staging buffers, the output's and the
  two scratch buffers. Every input's staging buffer holds its block at every point, fetched there or not; the output's
  holds whatever the pipeline left, which the body's triple does not need to know. After the body the output's staging
  buffer holds `bodyOut` of the thirteen input blocks (`after13`), which the pipeline writes back to the output array
  at every point. So the run of the whole program ends with every input array unchanged, the output array at what the
  library computes from those write-backs (`run_main`), and in particular every argument array as launched (`frame`).
-/
import proofs.«405560_j29480655519796_3_alg».proof.Proof.Gen.KernelIdeal.Frame
import proofs.«405560_j29480655519796_3_alg».proof.Proof.Gen.KernelIdeal.Loops
import proofs.«405560_j29480655519796_3_alg».proof.Proof.KI.Run

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the pipeline calls the body with -/

/-- Each window's current staging memref at point `t`, and that it is a whole buffer. -/
abbrev ms0 (t : Fin cfg0.N) : Memref sig .tc .vmem S1x4096x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x64 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x64 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S64x64 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S64x128 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S256x64 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x256 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S64x256 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x64 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x4096x64 .f32 := win0_13.stage (cfg0.slots t 13)
abbrev hs13 (t : Fin cfg0.N) : (ms13 t).IsWhole := hstage0_13 ((cfg0.slots t 13).cast nbuf0_13)
/-- The two scratch operands: whole scoped buffers of the kernel's own. -/
abbrev scA : Memref sig .tc .vmem S4096x128 .f32 := Memref.whole cc0_scratch0
abbrev scB : Memref sig .tc .vmem S4096x64 .f32 := Memref.whole cc0_scratch1

/-- The region's invariant, opened: the two scratch buffers owned at some contents each, and the generator register
    at some state. -/
theorem phiA_eq (c : Dev nD) :
    (Pipeline.ΦA spec0 c : sProp 𝕄)
      = iprop(iprop((∃ d, owns (c : Thread nD τ) scA fullShare d) ∗ (∃ d, owns (c : Thread nD τ) scB fullShare d)) ∗ (∃ r, prngReg c r)) := by
  unfold Pipeline.ΦA
  rw [scopedRest0_eq]
  simp only [scA, scB, owns_whole]
  try rfl

/-! ## The proof data -/

/-- What the output window's staging buffer holds after the body at point `t`: `bodyOut` of the thirteen input blocks. -/
def outAt (c : Dev nD) (t : Fin cfg0.N) : Vec F S1x4096x64 .f32 :=
  bodyOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- The proof data of the one pipeline on core `c`: the arrays as the region finds them; after the body at point `t`
    each input's buffer at its block and the output's at `outAt`; the invariant the scratch buffers at any contents and
    the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
/-- After the body the output's staging buffer holds `bodyOut` of the input blocks. -/
theorem after13 (c : Dev nD) (t : Fin cfg0.N) :
    (dats m 0 c).after 13 t = bodyOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by
  dsimp only [dats, outAt]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t))

set_option maxHeartbeats 1600000 in
/-- The body at any point: the inputs' memrefs hold their blocks, the output's whatever the pipeline left there, so the
    body's triple applies; the invariant lends the two scratch buffers and takes them back; the core owes nothing. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after13]
  rw [show (dats m 0 c).Φ t.castSucc = Pipeline.ΦA spec0 c from rfl, phiA_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((bodyRun c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((dats m 0 c).before 13 t d13)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  iintro ⟨H0, H1, H2, H3, H4, H5, H6, H7, H8, H9, H10, H11, H12, H13, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the library computes from the proof data — the output array at each block written back
    with `bodyOut` of the input blocks — and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every argument array is left as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Body

end
-- ==== Proof.KI.Host.lean ====
/- What each input window of the kernel's one region stages, as a vector and read at an index, in terms of the memory
   the program is launched on. The input is staged one batch entry per grid point; every weight matrix is staged whole
   after the host narrowed it to bf16 (the identity on values over the extended reals), the key and value weights after
   the host laid them side by side along the column axis; every bias vector is staged whole after the host reshaped it
   into one row. -/
import proofs.«405560_j29480655519796_3_alg».proof.Proof.Gen.KernelIdeal.Frame
import Idealize.ShloMosaic.Lib.ValueIdx
import Idealize.ShloMosaic.Lib.Pipeline.Value
import Idealize.ShloMosaic.Lib.Tactic

noncomputable section

open Idealize.ShloMosaic Idealize.ShloMosaic.TcCoe Idealize.SL.Sem Idealize.ShloMosaic.Tactic
open Idealize.ShloMosaic.ValueIdx

namespace Cert.KernelIdeal.Val

open Cert.KernelIdeal Cert.KernelIdeal.Gen

variable (m : (ℓ : Loc nD τ sig) → Buf (Elt Ideal) ℓ)

/-! ## The grid's points and the windows' block indices

The grid has four points, one per batch entry. Window 0 walks the batch axis of the input with the point; every other
input window stages its whole array at every point (block index zero on both axes). -/

/-- A grid point is below four. -/
theorem t_lt (t : Fin cfg0.N) : t.val < 4 := by
  have h := t.isLt
  have h2 : cfg0.N = 4 := N_0
  omega

/-- Window 0's block index at point `t`: `t` along the batch axis, zero along the others. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
/-- Window 1's block index is zero on both axes at every point. -/
theorem idx1 : ∀ t : Fin cfg0.N, win0_1.index t (0 : Fin 2) = 0 ∧ win0_1.index t (1 : Fin 2) = 0 :=
  (by decide +kernel : ∀ t : Fin grid0.N, _)
/-- Window 2's block index is zero on both axes at every point. -/
theorem idx2 : ∀ t : Fin cfg0.N, win0_2.index t (0 : Fin 2) = 0 ∧ win0_2.index t (1 : Fin 2) = 0 :=
  (by decide +kernel : ∀ t : Fin grid0.N, _)
/-- Window 3's block index is zero on both axes at every point. -/
theorem idx3 : ∀ t : Fin cfg0.N, win0_3.index t (0 : Fin 2) = 0 ∧ win0_3.index t (1 : Fin 2) = 0 :=
  (by decide +kernel : ∀ t : Fin grid0.N, _)
/-- Window 4's block index is zero on both axes at every point. -/
theorem idx4 : ∀ t : Fin cfg0.N, win0_4.index t (0 : Fin 2) = 0 ∧ win0_4.index t (1 : Fin 2) = 0 :=
  (by decide +kernel : ∀ t : Fin grid0.N, _)
/-- Window 5's block index is zero on both axes at every point. -/
theorem idx5 : ∀ t : Fin cfg0.N, win0_5.index t (0 : Fin 2) = 0 ∧ win0_5.index t (1 : Fin 2) = 0 :=
  (by decide +kernel : ∀ t : Fin grid0.N, _)
/-- Window 6's block index is zero on both axes at every point. -/
theorem idx6 : ∀ t : Fin cfg0.N, win0_6.index t (0 : Fin 2) = 0 ∧ win0_6.index t (1 : Fin 2) = 0 :=
  (by decide +kernel : ∀ t : Fin grid0.N, _)
/-- Window 7's block index is zero on both axes at every point. -/
theorem idx7 : ∀ t : Fin cfg0.N, win0_7.index t (0 : Fin 2) = 0 ∧ win0_7.index t (1 : Fin 2) = 0 :=
  (by decide +kernel : ∀ t : Fin grid0.N, _)
/-- Window 8's block index is zero on both axes at every point. -/
theorem idx8 : ∀ t : Fin cfg0.N, win0_8.index t (0 : Fin 2) = 0 ∧ win0_8.index t (1 : Fin 2) = 0 :=
  (by decide +kernel : ∀ t : Fin grid0.N, _)
/-- Window 9's block index is zero on both axes at every point. -/
theorem idx9 : ∀ t : Fin cfg0.N, win0_9.index t (0 : Fin 2) = 0 ∧ win0_9.index t (1 : Fin 2) = 0 :=
  (by decide +kernel : ∀ t : Fin grid0.N, _)
/-- Window 10's block index is zero on both axes at every point. -/
theorem idx10 : ∀ t : Fin cfg0.N, win0_10.index t (0 : Fin 2) = 0 ∧ win0_10.index t (1 : Fin 2) = 0 :=
  (by decide +kernel : ∀ t : Fin grid0.N, _)
/-- Window 11's block index is zero on both axes at every point. -/
theorem idx11 : ∀ t : Fin cfg0.N, win0_11.index t (0 : Fin 2) = 0 ∧ win0_11.index t (1 : Fin 2) = 0 :=
  (by decide +kernel : ∀ t : Fin grid0.N, _)
/-- Window 12's block index is zero on both axes at every point. -/
theorem idx12 : ∀ t : Fin cfg0.N, win0_12.index t (0 : Fin 2) = 0 ∧ win0_12.index t (1 : Fin 2) = 0 :=
  (by decide +kernel : ∀ t : Fin grid0.N, _)

/-! ## Where a block's element sits in its array

A block's coordinate in the array is, on each axis, the block index times the block's extent plus the coordinate inside
the block. -/

/-- Window 0: row `s`, column `d` of the block at point `t` is entry `(t, s, d)` of the input. -/
theorem emb0 (t : Fin cfg0.N) (s : Fin 4096) (d : Fin 64) :
    ((cfg0.win 0).blk t).view.emb (ix3 (0 : Fin 1) s d) = (ix3 ⟨t.val, t_lt t⟩ s d : S4x4096x64.Idx) := by
  obtain ⟨e0, e1, e2⟩ := idx0 t
  funext a; apply Fin.ext
  match a with
  | ⟨0, _⟩ => show win0_0.index t (0 : Fin 3) * 1 + 1 * (0 : Fin 1).val = t.val; rw [e0]; simp
  | ⟨1, _⟩ => show win0_0.index t (1 : Fin 3) * 4096 + 1 * s.val = s.val; rw [e1]; omega
  | ⟨2, _⟩ => show win0_0.index t (2 : Fin 3) * 64 + 1 * d.val = d.val; rw [e2]; omega
/-- Window 1's block is its whole array: an element sits where its own coordinates say. -/
theorem emb1 (t : Fin cfg0.N) (y : S64x64.Idx) : ((cfg0.win 1).blk t).view.emb y = y := by
  obtain ⟨e0, e1⟩ := idx1 t
  funext a; apply Fin.ext
  match a with
  | ⟨0, _⟩ => show win0_1.index t (0 : Fin 2) * 64 + 1 * (y 0).val = (y 0).val; rw [e0]; omega
  | ⟨1, _⟩ => show win0_1.index t (1 : Fin 2) * 64 + 1 * (y 1).val = (y 1).val; rw [e1]; omega
/-- Window 2's block is its whole array: an element sits where its own coordinates say. -/
theorem emb2 (t : Fin cfg0.N) (y : S64x128.Idx) : ((cfg0.win 2).blk t).view.emb y = y := by
  obtain ⟨e0, e1⟩ := idx2 t
  funext a; apply Fin.ext
  match a with
  | ⟨0, _⟩ => show win0_2.index t (0 : Fin 2) * 64 + 1 * (y 0).val = (y 0).val; rw [e0]; omega
  | ⟨1, _⟩ => show win0_2.index t (1 : Fin 2) * 128 + 1 * (y 1).val = (y 1).val; rw [e1]; omega
/-- Window 3's block is its whole array: an element sits where its own coordinates say. -/
theorem emb3 (t : Fin cfg0.N) (y : S256x64.Idx) : ((cfg0.win 3).blk t).view.emb y = y := by
  obtain ⟨e0, e1⟩ := idx3 t
  funext a; apply Fin.ext
  match a with
  | ⟨0, _⟩ => show win0_3.index t (0 : Fin 2) * 256 + 1 * (y 0).val = (y 0).val; rw [e0]; omega
  | ⟨1, _⟩ => show win0_3.index t (1 : Fin 2) * 64 + 1 * (y 1).val = (y 1).val; rw [e1]; omega
/-- Window 4's block is its whole array: an element sits where its own coordinates say. -/
theorem emb4 (t : Fin cfg0.N) (y : S1x256.Idx) : ((cfg0.win 4).blk t).view.emb y = y := by
  obtain ⟨e0, e1⟩ := idx4 t
  funext a; apply Fin.ext
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega
/-- Window 5's block is its whole array: an element sits where its own coordinates say. -/
theorem emb5 (t : Fin cfg0.N) (y : S64x256.Idx) : ((cfg0.win 5).blk t).view.emb y = y := by
  obtain ⟨e0, e1⟩ := idx5 t
  funext a; apply Fin.ext
  match a with
  | ⟨0, _⟩ => show win0_5.index t (0 : Fin 2) * 64 + 1 * (y 0).val = (y 0).val; rw [e0]; omega
  | ⟨1, _⟩ => show win0_5.index t (1 : Fin 2) * 256 + 1 * (y 1).val = (y 1).val; rw [e1]; omega
/-- Window 6's block is its whole array: an element sits where its own coordinates say. -/
theorem emb6 (t : Fin cfg0.N) (y : S1x64.Idx) : ((cfg0.win 6).blk t).view.emb y = y := by
  obtain ⟨e0, e1⟩ := idx6 t
  funext a; apply Fin.ext
  match a with
  | ⟨0, _⟩ => show win0_6.index t (0 : Fin 2) * 1 + 1 * (y 0).val = (y 0).val; rw [e0]; omega
  | ⟨1, _⟩ => show win0_6.index t (1 : Fin 2) * 64 + 1 * (y 1).val = (y 1).val; rw [e1]; omega
/-- Window 7's block is its whole array: an element sits where its own coordinates say. -/
theorem emb7 (t : Fin cfg0.N) (y : S64x64.Idx) : ((cfg0.win 7).blk t).view.emb y = y := by
  obtain ⟨e0, e1⟩ := idx7 t
  funext a; apply Fin.ext
  match a with
  | ⟨0, _⟩ => show win0_7.index t (0 : Fin 2) * 64 + 1 * (y 0).val = (y 0).val; rw [e0]; omega
  | ⟨1, _⟩ => show win0_7.index t (1 : Fin 2) * 64 + 1 * (y 1).val = (y 1).val; rw [e1]; omega
/-- Window 8's block is its whole array: an element sits where its own coordinates say. -/
theorem emb8 (t : Fin cfg0.N) (y : S64x128.Idx) : ((cfg0.win 8).blk t).view.emb y = y := by
  obtain ⟨e0, e1⟩ := idx8 t
  funext a; apply Fin.ext
  match a with
  | ⟨0, _⟩ => show win0_8.index t (0 : Fin 2) * 64 + 1 * (y 0).val = (y 0).val; rw [e0]; omega
  | ⟨1, _⟩ => show win0_8.index t (1 : Fin 2) * 128 + 1 * (y 1).val = (y 1).val; rw [e1]; omega
/-- Window 9's block is its whole array: an element sits where its own coordinates say. -/
theorem emb9 (t : Fin cfg0.N) (y : S256x64.Idx) : ((cfg0.win 9).blk t).view.emb y = y := by
  obtain ⟨e0, e1⟩ := idx9 t
  funext a; apply Fin.ext
  match a with
  | ⟨0, _⟩ => show win0_9.index t (0 : Fin 2) * 256 + 1 * (y 0).val = (y 0).val; rw [e0]; omega
  | ⟨1, _⟩ => show win0_9.index t (1 : Fin 2) * 64 + 1 * (y 1).val = (y 1).val; rw [e1]; omega
/-- Window 10's block is its whole array: an element sits where its own coordinates say. -/
theorem emb10 (t : Fin cfg0.N) (y : S1x256.Idx) : ((cfg0.win 10).blk t).view.emb y = y := by
  obtain ⟨e0, e1⟩ := idx10 t
  funext a; apply Fin.ext
  match a with
  | ⟨0, _⟩ => show win0_10.index t (0 : Fin 2) * 1 + 1 * (y 0).val = (y 0).val; rw [e0]; omega
  | ⟨1, _⟩ => show win0_10.index t (1 : Fin 2) * 256 + 1 * (y 1).val = (y 1).val; rw [e1]; omega
/-- Window 11's block is its whole array: an element sits where its own coordinates say. -/
theorem emb11 (t : Fin cfg0.N) (y : S64x256.Idx) : ((cfg0.win 11).blk t).view.emb y = y := by
  obtain ⟨e0, e1⟩ := idx11 t
  funext a; apply Fin.ext
  match a with
  | ⟨0, _⟩ => show win0_11.index t (0 : Fin 2) * 64 + 1 * (y 0).val = (y 0).val; rw [e0]; omega
  | ⟨1, _⟩ => show win0_11.index t (1 : Fin 2) * 256 + 1 * (y 1).val = (y 1).val; rw [e1]; omega
/-- Window 12's block is its whole array: an element sits where its own coordinates say. -/
theorem emb12 (t : Fin cfg0.N) (y : S1x64.Idx) : ((cfg0.win 12).blk t).view.emb y = y := by
  obtain ⟨e0, e1⟩ := idx12 t
  funext a; apply Fin.ext
  match a with
  | ⟨0, _⟩ => show win0_12.index t (0 : Fin 2) * 1 + 1 * (y 0).val = (y 0).val; rw [e0]; omega
  | ⟨1, _⟩ => show win0_12.index t (1 : Fin 2) * 64 + 1 * (y 1).val = (y 1).val; rw [e1]; omega

/-! ## The staged arrays as the host operations leave them

Before the region the host narrows each weight matrix to bf16 (the identity on values over the extended reals), lays
the key and value weights side by side along the column axis before narrowing them, and reshapes each bias vector into
one row. -/

/-- The array window 1 stages is argument 1 narrowed to bf16. -/
theorem V_main_v0 (c : Dev nD) : (V m c main_v0 : S64x64.Idx → EReal)
    = (truncf .bf16 (m ((c.tc : Thread nD τ).loc main_arg1) : FVec Ideal S64x64 .f32) bitsLt_bf16_f32 : FVec Ideal S64x64 .bf16) := by
  dsimp only [Gen.V, Gen.hostOps0]; after_results

/-- The array window 2 stages is arguments 2 and 3 side by side along the column axis, narrowed to bf16. -/
theorem V_main_v2 (c : Dev nD) : (V m c main_v2 : S64x128.Idx → EReal)
    = (truncf .bf16 (concatenate S64x128 1 [⟨S64x64, (m ((c.tc : Thread nD τ).loc main_arg2) : S64x64.Idx → EReal)⟩, ⟨S64x64, (m ((c.tc : Thread nD τ).loc main_arg3) : S64x64.Idx → EReal)⟩] concatenates_S64x64_S64x64_S64x128_d1 : FVec Ideal S64x128 .f32) bitsLt_bf16_f32 : FVec Ideal S64x128 .bf16) := by
  dsimp only [Gen.V, Gen.hostOps0]; after_results

/-- The array window 3 stages is argument 7 narrowed to bf16. -/
theorem V_main_v3 (c : Dev nD) : (V m c main_v3 : S256x64.Idx → EReal)
    = (truncf .bf16 (m ((c.tc : Thread nD τ).loc main_arg7) : FVec Ideal S256x64 .f32) bitsLt_bf16_f32 : FVec Ideal S256x64 .bf16) := by
  dsimp only [Gen.V, Gen.hostOps0]; after_results

/-- The array window 4 stages is argument 8 reshaped into one row. -/
theorem V_main_v10 (c : Dev nD) : (V m c main_v10 : S1x256.Idx → EReal)
    = shapeCast S1x256 (m ((c.tc : Thread nD τ).loc main_arg8) : S256.Idx → EReal) shapeCasts_S256_S1x256 := by
  dsimp only [Gen.V, Gen.hostOps0]; after_results
  rfl

/-- The array window 5 stages is argument 9 narrowed to bf16. -/
theorem V_main_v4 (c : Dev nD) : (V m c main_v4 : S64x256.Idx → EReal)
    = (truncf .bf16 (m ((c.tc : Thread nD τ).loc main_arg9) : FVec Ideal S64x256 .f32) bitsLt_bf16_f32 : FVec Ideal S64x256 .bf16) := by
  dsimp only [Gen.V, Gen.hostOps0]; after_results

/-- The array window 6 stages is argument 10 reshaped into one row. -/
theorem V_main_v11 (c : Dev nD) : (V m c main_v11 : S1x64.Idx → EReal)
    = shapeCast S1x64 (m ((c.tc : Thread nD τ).loc main_arg10) : S64.Idx → EReal) shapeCasts_S64_S1x64 := by
  dsimp only [Gen.V, Gen.hostOps0]; after_results
  rfl

/-- The array window 7 stages is argument 4 narrowed to bf16. -/
theorem V_main_v5 (c : Dev nD) : (V m c main_v5 : S64x64.Idx → EReal)
    = (truncf .bf16 (m ((c.tc : Thread nD τ).loc main_arg4) : FVec Ideal S64x64 .f32) bitsLt_bf16_f32 : FVec Ideal S64x64 .bf16) := by
  dsimp only [Gen.V, Gen.hostOps0]; after_results

/-- The array window 8 stages is arguments 5 and 6 side by side along the column axis, narrowed to bf16. -/
theorem V_main_v7 (c : Dev nD) : (V m c main_v7 : S64x128.Idx → EReal)
    = (truncf .bf16 (concatenate S64x128 1 [⟨S64x64, (m ((c.tc : Thread nD τ).loc main_arg5) : S64x64.Idx → EReal)⟩, ⟨S64x64, (m ((c.tc : Thread nD τ).loc main_arg6) : S64x64.Idx → EReal)⟩] concatenates_S64x64_S64x64_S64x128_d1 : FVec Ideal S64x128 .f32) bitsLt_bf16_f32 : FVec Ideal S64x128 .bf16) := by
  dsimp only [Gen.V, Gen.hostOps0]; after_results

/-- The array window 9 stages is argument 11 narrowed to bf16. -/
theorem V_main_v8 (c : Dev nD) : (V m c main_v8 : S256x64.Idx → EReal)
    = (truncf .bf16 (m ((c.tc : Thread nD τ).loc main_arg11) : FVec Ideal S256x64 .f32) bitsLt_bf16_f32 : FVec Ideal S256x64 .bf16) := by
  dsimp only [Gen.V, Gen.hostOps0]; after_results

/-- The array window 10 stages is argument 12 reshaped into one row. -/
theorem V_main_v12 (c : Dev nD) : (V m c main_v12 : S1x256.Idx → EReal)
    = shapeCast S1x256 (m ((c.tc : Thread nD τ).loc main_arg12) : S256.Idx → EReal) shapeCasts_S256_S1x256 := by
  dsimp only [Gen.V, Gen.hostOps0]; after_results
  rfl

/-- The array window 11 stages is argument 13 narrowed to bf16. -/
theorem V_main_v9 (c : Dev nD) : (V m c main_v9 : S64x256.Idx → EReal)
    = (truncf .bf16 (m ((c.tc : Thread nD τ).loc main_arg13) : FVec Ideal S64x256 .f32) bitsLt_bf16_f32 : FVec Ideal S64x256 .bf16) := by
  dsimp only [Gen.V, Gen.hostOps0]; after_results

/-- The array window 12 stages is argument 14 reshaped into one row. -/
theorem V_main_v13 (c : Dev nD) : (V m c main_v13 : S1x64.Idx → EReal)
    = shapeCast S1x64 (m ((c.tc : Thread nD τ).loc main_arg14) : S64.Idx → EReal) shapeCasts_S64_S1x64 := by
  dsimp only [Gen.V, Gen.hostOps0]; after_results
  rfl

/-! ## Each input window's block in terms of the launch memory

First each block as a whole vector, then read at an index. -/

/-- Window 0's block at point `t` is the `t`-th batch entry of the input. -/
theorem iblk0_apply (c : Dev nD) (t : Fin cfg0.N) (s : Fin 4096) (d : Fin 64) :
    (iblk m c 0 t : S1x4096x64.Idx → EReal) (ix3 (0 : Fin 1) s d)
      = (m ((c.tc : Thread nD τ).loc main_arg0) : S4x4096x64.Idx → EReal) (ix3 ⟨t.val, t_lt t⟩ s d) := by
  unfold iblk
  rw [View.read_apply]
  show V m c main_arg0 (((cfg0.win 0).blk t).view.emb (ix3 (0 : Fin 1) s d)) = _
  rw [emb0, V_main_arg0]

/-- Window 1's block is argument 1 (the first stage's query weights): narrowing to bf16 changes no value. -/
theorem iblk1_eq (c : Dev nD) (t : Fin cfg0.N) :
    (iblk m c 1 t : S64x64.Idx → EReal) = (m ((c.tc : Thread nD τ).loc main_arg1) : S64x64.Idx → EReal) := by
  funext y
  unfold iblk
  rw [View.read_apply]
  show V m c main_v0 (((cfg0.win 1).blk t).view.emb y) = _
  rw [emb1, V_main_v0]
  rfl

/-- … entry by entry. -/
theorem iblk1_apply (c : Dev nD) (t : Fin cfg0.N) (i : Fin 64) (j : Fin 64) :
    (iblk m c 1 t : S64x64.Idx → EReal) (ix2 i j) = (m ((c.tc : Thread nD τ).loc main_arg1) : S64x64.Idx → EReal) (ix2 i j) :=
  congrFun (iblk1_eq m c t) (ix2 i j)

/-- Window 2's block is arguments 2 and 3 side by side along the column axis (the first stage's key and value weights side by side). -/
theorem iblk2_eq (c : Dev nD) (t : Fin cfg0.N) :
    (iblk m c 2 t : S64x128.Idx → EReal)
      = concatenate S64x128 1 [⟨S64x64, (m ((c.tc : Thread nD τ).loc main_arg2) : S64x64.Idx → EReal)⟩, ⟨S64x64, (m ((c.tc : Thread nD τ).loc main_arg3) : S64x64.Idx → EReal)⟩] concatenates_S64x64_S64x64_S64x128_d1 := by
  funext y
  unfold iblk
  rw [View.read_apply]
  show V m c main_v2 (((cfg0.win 2).blk t).view.emb y) = _
  rw [emb2, V_main_v2]
  rfl

/-- … entry by entry: argument 2 in the first 64 columns, argument 3 in the last 64. -/
theorem iblk2_apply (c : Dev nD) (t : Fin cfg0.N) (i : Fin 64) (j : Fin 128) :
    (iblk m c 2 t : S64x128.Idx → EReal) (ix2 i j)
      = if h : j.val < 64 then (m ((c.tc : Thread nD τ).loc main_arg2) : S64x64.Idx → EReal) (ix2 i ⟨j.val, h⟩)
        else (m ((c.tc : Thread nD τ).loc main_arg3) : S64x64.Idx → EReal) (ix2 i ⟨j.val - 64, by have := j.isLt; omega⟩) := by
  refine (congrFun (iblk2_eq m c t) (ix2 i j)).trans ?_
  split
  · next h =>
    exact concatenate_pair_apply_left (t := S64x128) (s₁ := S64x64) (s₂ := S64x64) (1 : Fin 2) _ _ _ (ix2 i j) rfl (ix2 i ⟨j.val, h⟩)
      (fun b => match b with | ⟨0, _⟩ => rfl | ⟨1, _⟩ => rfl)
  · next h =>
    exact concatenate_pair_apply_right (t := S64x128) (s₁ := S64x64) (s₂ := S64x64) (1 : Fin 2) _ _ _ (ix2 i j) rfl rfl (ix2 i ⟨j.val - 64, by have := j.isLt; omega⟩)
      (fun b hb => match b, hb with | ⟨0, _⟩, _ => rfl | ⟨1, _⟩, hb => absurd rfl hb)
      (by show j.val - 64 + 64 = j.val; omega)

/-- Window 3's block is argument 7 (the first stage's hidden-layer weights): narrowing to bf16 changes no value. -/
theorem iblk3_eq (c : Dev nD) (t : Fin cfg0.N) :
    (iblk m c 3 t : S256x64.Idx → EReal) = (m ((c.tc : Thread nD τ).loc main_arg7) : S256x64.Idx → EReal) := by
  funext y
  unfold iblk
  rw [View.read_apply]
  show V m c main_v3 (((cfg0.win 3).blk t).view.emb y) = _
  rw [emb3, V_main_v3]
  rfl

/-- … entry by entry. -/
theorem iblk3_apply (c : Dev nD) (t : Fin cfg0.N) (i : Fin 256) (j : Fin 64) :
    (iblk m c 3 t : S256x64.Idx → EReal) (ix2 i j) = (m ((c.tc : Thread nD τ).loc main_arg7) : S256x64.Idx → EReal) (ix2 i j) :=
  congrFun (iblk3_eq m c t) (ix2 i j)

/-- Window 4's block is argument 8 laid out as one row (the first stage's hidden-layer bias). -/
theorem iblk4_eq (c : Dev nD) (t : Fin cfg0.N) :
    (iblk m c 4 t : S1x256.Idx → EReal) = shapeCast S1x256 (m ((c.tc : Thread nD τ).loc main_arg8) : S256.Idx → EReal) shapeCasts_S256_S1x256 := by
  funext y
  unfold iblk
  rw [View.read_apply]
  show V m c main_v10 (((cfg0.win 4).blk t).view.emb y) = _
  rw [emb4, V_main_v10]

/-- … entry by entry: the row's `j`-th entry is the vector's `j`-th. -/
theorem iblk4_apply (c : Dev nD) (t : Fin cfg0.N) (j : Fin 256) :
    (iblk m c 4 t : S1x256.Idx → EReal) (ix2 (0 : Fin 1) j) = (m ((c.tc : Thread nD τ).loc main_arg8) : S256.Idx → EReal) (ix1 j) := by
  refine (congrFun (iblk4_eq m c t) (ix2 (0 : Fin 1) j)).trans ?_
  refine shapeCast_apply _ _ (ix2 (0 : Fin 1) j) (ix1 j) ?_
  rw [Shape.rowMajor_val_one, Shape.rowMajor_val_two]
  show j.val = (0 : Fin 1).val * 256 + j.val
  simp

/-- Window 5's block is argument 9 (the first stage's output-layer weights): narrowing to bf16 changes no value. -/
theorem iblk5_eq (c : Dev nD) (t : Fin cfg0.N) :
    (iblk m c 5 t : S64x256.Idx → EReal) = (m ((c.tc : Thread nD τ).loc main_arg9) : S64x256.Idx → EReal) := by
  funext y
  unfold iblk
  rw [View.read_apply]
  show V m c main_v4 (((cfg0.win 5).blk t).view.emb y) = _
  rw [emb5, V_main_v4]
  rfl

/-- … entry by entry. -/
theorem iblk5_apply (c : Dev nD) (t : Fin cfg0.N) (i : Fin 64) (j : Fin 256) :
    (iblk m c 5 t : S64x256.Idx → EReal) (ix2 i j) = (m ((c.tc : Thread nD τ).loc main_arg9) : S64x256.Idx → EReal) (ix2 i j) :=
  congrFun (iblk5_eq m c t) (ix2 i j)

/-- Window 6's block is argument 10 laid out as one row (the first stage's output-layer bias). -/
theorem iblk6_eq (c : Dev nD) (t : Fin cfg0.N) :
    (iblk m c 6 t : S1x64.Idx → EReal) = shapeCast S1x64 (m ((c.tc : Thread nD τ).loc main_arg10) : S64.Idx → EReal) shapeCasts_S64_S1x64 := by
  funext y
  unfold iblk
  rw [View.read_apply]
  show V m c main_v11 (((cfg0.win 6).blk t).view.emb y) = _
  rw [emb6, V_main_v11]

/-- … entry by entry: the row's `j`-th entry is the vector's `j`-th. -/
theorem iblk6_apply (c : Dev nD) (t : Fin cfg0.N) (j : Fin 64) :
    (iblk m c 6 t : S1x64.Idx → EReal) (ix2 (0 : Fin 1) j) = (m ((c.tc : Thread nD τ).loc main_arg10) : S64.Idx → EReal) (ix1 j) := by
  refine (congrFun (iblk6_eq m c t) (ix2 (0 : Fin 1) j)).trans ?_
  refine shapeCast_apply _ _ (ix2 (0 : Fin 1) j) (ix1 j) ?_
  rw [Shape.rowMajor_val_one, Shape.rowMajor_val_two]
  show j.val = (0 : Fin 1).val * 64 + j.val
  simp

/-- Window 7's block is argument 4 (the second stage's query weights): narrowing to bf16 changes no value. -/
theorem iblk7_eq (c : Dev nD) (t : Fin cfg0.N) :
    (iblk m c 7 t : S64x64.Idx → EReal) = (m ((c.tc : Thread nD τ).loc main_arg4) : S64x64.Idx → EReal) := by
  funext y
  unfold iblk
  rw [View.read_apply]
  show V m c main_v5 (((cfg0.win 7).blk t).view.emb y) = _
  rw [emb7, V_main_v5]
  rfl

/-- … entry by entry. -/
theorem iblk7_apply (c : Dev nD) (t : Fin cfg0.N) (i : Fin 64) (j : Fin 64) :
    (iblk m c 7 t : S64x64.Idx → EReal) (ix2 i j) = (m ((c.tc : Thread nD τ).loc main_arg4) : S64x64.Idx → EReal) (ix2 i j) :=
  congrFun (iblk7_eq m c t) (ix2 i j)

/-- Window 8's block is arguments 5 and 6 side by side along the column axis (the second stage's key and value weights side by side). -/
theorem iblk8_eq (c : Dev nD) (t : Fin cfg0.N) :
    (iblk m c 8 t : S64x128.Idx → EReal)
      = concatenate S64x128 1 [⟨S64x64, (m ((c.tc : Thread nD τ).loc main_arg5) : S64x64.Idx → EReal)⟩, ⟨S64x64, (m ((c.tc : Thread nD τ).loc main_arg6) : S64x64.Idx → EReal)⟩] concatenates_S64x64_S64x64_S64x128_d1 := by
  funext y
  unfold iblk
  rw [View.read_apply]
  show V m c main_v7 (((cfg0.win 8).blk t).view.emb y) = _
  rw [emb8, V_main_v7]
  rfl

/-- … entry by entry: argument 5 in the first 64 columns, argument 6 in the last 64. -/
theorem iblk8_apply (c : Dev nD) (t : Fin cfg0.N) (i : Fin 64) (j : Fin 128) :
    (iblk m c 8 t : S64x128.Idx → EReal) (ix2 i j)
      = if h : j.val < 64 then (m ((c.tc : Thread nD τ).loc main_arg5) : S64x64.Idx → EReal) (ix2 i ⟨j.val, h⟩)
        else (m ((c.tc : Thread nD τ).loc main_arg6) : S64x64.Idx → EReal) (ix2 i ⟨j.val - 64, by have := j.isLt; omega⟩) := by
  refine (congrFun (iblk8_eq m c t) (ix2 i j)).trans ?_
  split
  · next h =>
    exact concatenate_pair_apply_left (t := S64x128) (s₁ := S64x64) (s₂ := S64x64) (1 : Fin 2) _ _ _ (ix2 i j) rfl (ix2 i ⟨j.val, h⟩)
      (fun b => match b with | ⟨0, _⟩ => rfl | ⟨1, _⟩ => rfl)
  · next h =>
    exact concatenate_pair_apply_right (t := S64x128) (s₁ := S64x64) (s₂ := S64x64) (1 : Fin 2) _ _ _ (ix2 i j) rfl rfl (ix2 i ⟨j.val - 64, by have := j.isLt; omega⟩)
      (fun b hb => match b, hb with | ⟨0, _⟩, _ => rfl | ⟨1, _⟩, hb => absurd rfl hb)
      (by show j.val - 64 + 64 = j.val; omega)

/-- Window 9's block is argument 11 (the second stage's hidden-layer weights): narrowing to bf16 changes no value. -/
theorem iblk9_eq (c : Dev nD) (t : Fin cfg0.N) :
    (iblk m c 9 t : S256x64.Idx → EReal) = (m ((c.tc : Thread nD τ).loc main_arg11) : S256x64.Idx → EReal) := by
  funext y
  unfold iblk
  rw [View.read_apply]
  show V m c main_v8 (((cfg0.win 9).blk t).view.emb y) = _
  rw [emb9, V_main_v8]
  rfl

/-- … entry by entry. -/
theorem iblk9_apply (c : Dev nD) (t : Fin cfg0.N) (i : Fin 256) (j : Fin 64) :
    (iblk m c 9 t : S256x64.Idx → EReal) (ix2 i j) = (m ((c.tc : Thread nD τ).loc main_arg11) : S256x64.Idx → EReal) (ix2 i j) :=
  congrFun (iblk9_eq m c t) (ix2 i j)

/-- Window 10's block is argument 12 laid out as one row (the second stage's hidden-layer bias). -/
theorem iblk10_eq (c : Dev nD) (t : Fin cfg0.N) :
    (iblk m c 10 t : S1x256.Idx → EReal) = shapeCast S1x256 (m ((c.tc : Thread nD τ).loc main_arg12) : S256.Idx → EReal) shapeCasts_S256_S1x256 := by
  funext y
  unfold iblk
  rw [View.read_apply]
  show V m c main_v12 (((cfg0.win 10).blk t).view.emb y) = _
  rw [emb10, V_main_v12]

/-- … entry by entry: the row's `j`-th entry is the vector's `j`-th. -/
theorem iblk10_apply (c : Dev nD) (t : Fin cfg0.N) (j : Fin 256) :
    (iblk m c 10 t : S1x256.Idx → EReal) (ix2 (0 : Fin 1) j) = (m ((c.tc : Thread nD τ).loc main_arg12) : S256.Idx → EReal) (ix1 j) := by
  refine (congrFun (iblk10_eq m c t) (ix2 (0 : Fin 1) j)).trans ?_
  refine shapeCast_apply _ _ (ix2 (0 : Fin 1) j) (ix1 j) ?_
  rw [Shape.rowMajor_val_one, Shape.rowMajor_val_two]
  show j.val = (0 : Fin 1).val * 256 + j.val
  simp

/-- Window 11's block is argument 13 (the second stage's output-layer weights): narrowing to bf16 changes no value. -/
theorem iblk11_eq (c : Dev nD) (t : Fin cfg0.N) :
    (iblk m c 11 t : S64x256.Idx → EReal) = (m ((c.tc : Thread nD τ).loc main_arg13) : S64x256.Idx → EReal) := by
  funext y
  unfold iblk
  rw [View.read_apply]
  show V m c main_v9 (((cfg0.win 11).blk t).view.emb y) = _
  rw [emb11, V_main_v9]
  rfl

/-- … entry by entry. -/
theorem iblk11_apply (c : Dev nD) (t : Fin cfg0.N) (i : Fin 64) (j : Fin 256) :
    (iblk m c 11 t : S64x256.Idx → EReal) (ix2 i j) = (m ((c.tc : Thread nD τ).loc main_arg13) : S64x256.Idx → EReal) (ix2 i j) :=
  congrFun (iblk11_eq m c t) (ix2 i j)

/-- Window 12's block is argument 14 laid out as one row (the second stage's output-layer bias). -/
theorem iblk12_eq (c : Dev nD) (t : Fin cfg0.N) :
    (iblk m c 12 t : S1x64.Idx → EReal) = shapeCast S1x64 (m ((c.tc : Thread nD τ).loc main_arg14) : S64.Idx → EReal) shapeCasts_S64_S1x64 := by
  funext y
  unfold iblk
  rw [View.read_apply]
  show V m c main_v13 (((cfg0.win 12).blk t).view.emb y) = _
  rw [emb12, V_main_v13]

/-- … entry by entry: the row's `j`-th entry is the vector's `j`-th. -/
theorem iblk12_apply (c : Dev nD) (t : Fin cfg0.N) (j : Fin 64) :
    (iblk m c 12 t : S1x64.Idx → EReal) (ix2 (0 : Fin 1) j) = (m ((c.tc : Thread nD τ).loc main_arg14) : S64.Idx → EReal) (ix1 j) := by
  refine (congrFun (iblk12_eq m c t) (ix2 (0 : Fin 1) j)).trans ?_
  refine shapeCast_apply _ _ (ix2 (0 : Fin 1) j) (ix1 j) ?_
  rw [Shape.rowMajor_val_one, Shape.rowMajor_val_two]
  show j.val = (0 : Fin 1).val * 64 + j.val
  simp

end Cert.KernelIdeal.Val

end
-- ==== Proof.KI.Final.lean ====
/-
  The value of the kernel's run: the output array as one function of the blocks the pipeline stages.

  The frame run ends with the output array at what the library computes from the four write-backs. Each point writes
  back what the body left in the output's staging buffer, which is the body's result on the input blocks of that
  point; output window 13's block at point `t` is batch entry `t` of the output, and the four blocks tile it. So the
  array ends at `outArr`: entry `(b, s, d)` is row `s`, column `d` of the body's result at point `b`.
-/
import proofs.«405560_j29480655519796_3_alg».proof.Proof.KI.Body
import proofs.«405560_j29480655519796_3_alg».proof.Proof.KI.Host
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.Tactic
open Idealize.ShloMosaic.ValueIdx
open Idealize.ShloMosaic.Pipeline (Dat)

namespace Cert.KernelIdeal.Val

open Cert.KernelIdeal Cert.KernelIdeal.Gen Cert.KernelIdeal.Body

variable (m : (ℓ : Loc nD τ sig) → Buf (Elt Ideal) ℓ) (ρ : Dev nD → PrngReg)

/-! ## The output array as one function of the staged blocks

The grid has one point per batch entry, and output window 13's block at point `t` is batch entry `t` of the output,
whole along the other two axes. So entry `(b, s, d)` of the output is written at point `b` only, from row `s`, column
`d` of what the body left in the staging buffer there. -/

/-- The batch coordinate of an index of the output names a grid point. -/
theorem i0_lt (i : S4x4096x64.Idx) : (i 0).val < cfg0.N := (i 0).isLt

/-- What the body leaves in the output's staging buffer at point `t`, as a function of the point. -/
def outPt (c : Dev nD) (t : Fin cfg0.N) : Vec Ideal S1x4096x64 .f32 :=
  bodyOut (F := Ideal) (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t)

/-- THE OUTPUT ARRAY after the run: entry `(b, s, d)` is row `s`, column `d` of the body's result on the input blocks of
    grid point `b`. -/
def outArr (c : Dev nD) : S4x4096x64.Idx → EReal := fun i =>
  bodyOut (F := Ideal) (iblk m c 0 ⟨(i 0).val, i0_lt i⟩) (iblk m c 1 ⟨(i 0).val, i0_lt i⟩) (iblk m c 2 ⟨(i 0).val, i0_lt i⟩)
    (iblk m c 3 ⟨(i 0).val, i0_lt i⟩) (iblk m c 4 ⟨(i 0).val, i0_lt i⟩) (iblk m c 5 ⟨(i 0).val, i0_lt i⟩)
    (iblk m c 6 ⟨(i 0).val, i0_lt i⟩) (iblk m c 7 ⟨(i 0).val, i0_lt i⟩) (iblk m c 8 ⟨(i 0).val, i0_lt i⟩)
    (iblk m c 9 ⟨(i 0).val, i0_lt i⟩) (iblk m c 10 ⟨(i 0).val, i0_lt i⟩) (iblk m c 11 ⟨(i 0).val, i0_lt i⟩)
    (iblk m c 12 ⟨(i 0).val, i0_lt i⟩) (ix3 (0 : Fin 1) (i 1) (i 2))

/-- The same, through `outPt`. -/
theorem outArr_apply (c : Dev nD) (i : S4x4096x64.Idx) :
    outArr m c i = outPt m c ⟨(i 0).val, i0_lt i⟩ (ix3 (0 : Fin 1) (i 1) (i 2)) := rfl

/-- Output window 13's block index at point `t`: `t` along the batch axis, zero along the others. -/
theorem idx13 : ∀ t : Fin cfg0.N, win0_13.index t (0 : Fin 3) = t.val ∧ win0_13.index t (1 : Fin 3) = 0 ∧ win0_13.index t (2 : Fin 3) = 0 :=
  (by decide +kernel : ∀ t : Fin grid0.N, _)

/-- Where an element of the block at point `t` sits in the output: on each axis the block index times the block's extent
    plus the coordinate inside the block, that is batch entry `t`, same row, same column. -/
theorem emb13 (t : Fin cfg0.N) (j : S1x4096x64.Idx) :
    ((cfg0.win 13).blk t).view.emb j = (ix3 ⟨t.val, t_lt t⟩ (j 1) (j 2) : S4x4096x64.Idx) := by
  obtain ⟨e0, e1, e2⟩ := idx13 t
  funext a; apply Fin.ext
  match a with
  | ⟨0, _⟩ =>
    show win0_13.index t (0 : Fin 3) * 1 + 1 * (j 0).val = t.val
    have hj : (j 0).val < 1 := (j 0).isLt
    rw [e0]; omega
  | ⟨1, _⟩ => show win0_13.index t (1 : Fin 3) * 4096 + 1 * (j 1).val = (j 1).val; rw [e1]; omega
  | ⟨2, _⟩ => show win0_13.index t (2 : Fin 3) * 64 + 1 * (j 2).val = (j 2).val; rw [e2]; omega

/-- WHAT POINT `t` WRITES BACK is block `t` of `outArr`. -/
theorem flushed13_eq (c : Dev nD) (t : Fin cfg0.N) :
    (dats m 0 c).flushed 13 t = ((cfg0.win 13).blk t).view.read (Elt Ideal) (outArr m c) := by
  show (cfg0.win 13).cut (grid0.coords t) ((dats m 0 c).after 13 t) = _
  rw [after13]
  funext j
  rw [View.read_apply]
  show outPt m c t ((cfg0.win 13).xinj (grid0.coords t) j) = outArr m c (((cfg0.win 13).blk t).view.emb j)
  rw [emb13 t j]
  have hx : (cfg0.win 13).xinj (grid0.coords t) j = (ix3 (0 : Fin 1) (j 1) (j 2) : S1x4096x64.Idx) := by
    funext a; apply Fin.ext
    match a with
    | ⟨0, _⟩ => show (j 0).val = 0; have hj : (j 0).val < 1 := (j 0).isLt; omega
    | ⟨1, _⟩ => rfl
    | ⟨2, _⟩ => rfl
  rw [hx]
  rfl

/-- Every entry of the output is in the block of the point its batch coordinate names, and every point writes back. -/
theorem cover13 (i : S4x4096x64.Idx) :
    ∃ t : Fin cfg0.N, (cfg0.win 13).flush t = true ∧ i ∈ ((cfg0.win 13).blk t).view.set := by
  refine ⟨⟨(i 0).val, i0_lt i⟩, flush0_13 _, ?_⟩
  have h : ((cfg0.win 13).blk ⟨(i 0).val, i0_lt i⟩).view.emb (ix3 (0 : Fin 1) (i 1) (i 2) : S1x4096x64.Idx) = i := by
    rw [emb13]
    funext a
    match a with
    | ⟨0, _⟩ => rfl
    | ⟨1, _⟩ => rfl
    | ⟨2, _⟩ => rfl
  exact Finset.mem_map.mpr ⟨_, Finset.mem_univ _, h⟩

/-- THE OUTPUT ARRAY after the write-backs of all four points is `outArr`. -/
theorem final13 (c : Dev nD) : (dats m 0 c).arrAt 13 cfg0.N = outArr m c :=
  (dats m 0 c).arrAt_eq_of_cover 13 (outArr m c) (fun t _ => flushed13_eq m c t) cover13

/-! ## The run, read -/

/-- From any memory with zero counters every weakly fair execution of @main terminates with the output array at
    `outArr` and every argument array as launched. -/
theorem run_value : θ_run defs (onTc (τ := τ) (main (F := Ideal))) ⟨m, fun _ => 0, ρ⟩ fun r => ∀ c : Dev nD,
      r.2.mem ((c.tc : Thread nD τ).loc main_v14) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨((h c).1 13).trans (final13 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩)
    (run_main m ρ)

end Cert.KernelIdeal.Val

end
-- ==== Proof.Spec.lean ====
/-
  One attention-and-MLP stage as a function of its arguments, three times.

  The program is the composition of two such stages. For an input `X` of 4096 rows of 64 entries, projection matrices
  `Wq Wk Wv` (64 × 64) and MLP parameters `W1` (256 × 64), `b1`, `W2` (64 × 256), `b2`, the stage's row `s` is

    Q = X·Wq,  K = X·Wk,  V = X·Wv,   score(s,t) = (Σ_q Q(s,q)·K(t,q)) / 8,
    p(s,t) = exp (score(s,t) − max_t score(s,t)),   a(s,·) = (Σ_t p(s,t)·V(t,·)) / Σ_t p(s,t),
    h(s,j) = Σ_v a(s,v)·W1(j,v) + b1(j),   e = h if 0 < h else exp h − 1,   out(s,o) = Σ_j e(s,j)·W2(o,j) + b2(o).

  `stageR` is that function over the reals. `stageK` and `stageH` are the two spellings of it over the extended
  reals that the two programs compute: `stageK` scales `Q` by 1/8 before the score's sum and divides by the
  normaliser after the sum against `V`; `stageH` divides the score's sum by √64 and each `p(s,t)` by the normaliser
  before the sum against `V`. On real-valued arguments all three agree (Proof/Algebra.lean).
-/
import Idealize.ShloMosaic.PureOps.Ideal

noncomputable section

namespace Cert.Spec

open Idealize.ShloMosaic
open scoped BigOperators

/-! ## Over the reals -/

/-- A projection `X·W`: row `s`, column `q`. -/
def projR (X : Fin 4096 → Fin 64 → ℝ) (W : Fin 64 → Fin 64 → ℝ) (s : Fin 4096) (q : Fin 64) : ℝ :=
  ∑ d : Fin 64, X s d * W d q

/-- The scaled score of query row `s` against key row `t`. -/
def scoreR (X : Fin 4096 → Fin 64 → ℝ) (Wq Wk : Fin 64 → Fin 64 → ℝ) (s t : Fin 4096) : ℝ :=
  (∑ q : Fin 64, projR X Wq s q * projR X Wk t q) / 8

/-- The largest score of row `s`. -/
def maxR (X : Fin 4096 → Fin 64 → ℝ) (Wq Wk : Fin 64 → Fin 64 → ℝ) (s : Fin 4096) : ℝ :=
  Finset.univ.sup' Finset.univ_nonempty (scoreR X Wq Wk s)

/-- The unnormalised softmax weight. -/
def wtR (X : Fin 4096 → Fin 64 → ℝ) (Wq Wk : Fin 64 → Fin 64 → ℝ) (s t : Fin 4096) : ℝ :=
  Real.exp (scoreR X Wq Wk s t - maxR X Wq Wk s)

/-- The softmax normaliser of row `s`: positive. -/
def denR (X : Fin 4096 → Fin 64 → ℝ) (Wq Wk : Fin 64 → Fin 64 → ℝ) (s : Fin 4096) : ℝ :=
  ∑ t : Fin 4096, wtR X Wq Wk s t

/-- The attention output. -/
def attR (X : Fin 4096 → Fin 64 → ℝ) (Wq Wk Wv : Fin 64 → Fin 64 → ℝ) (s : Fin 4096) (v : Fin 64) : ℝ :=
  (∑ t : Fin 4096, wtR X Wq Wk s t * projR X Wv t v) / denR X Wq Wk s

/-- The MLP's hidden pre-activation. -/
def hidR (X : Fin 4096 → Fin 64 → ℝ) (Wq Wk Wv : Fin 64 → Fin 64 → ℝ) (W1 : Fin 256 → Fin 64 → ℝ) (b1 : Fin 256 → ℝ)
    (s : Fin 4096) (j : Fin 256) : ℝ :=
  (∑ v : Fin 64, attR X Wq Wk Wv s v * W1 j v) + b1 j

/-- ELU with unit slope parameter. -/
def eluR (h : ℝ) : ℝ := if 0 < h then h else Real.exp h - 1

/-- The stage over the reals. -/
def stageR (X : Fin 4096 → Fin 64 → ℝ) (Wq Wk Wv : Fin 64 → Fin 64 → ℝ) (W1 : Fin 256 → Fin 64 → ℝ) (b1 : Fin 256 → ℝ)
    (W2 : Fin 64 → Fin 256 → ℝ) (b2 : Fin 64 → ℝ) (s : Fin 4096) (o : Fin 64) : ℝ :=
  (∑ j : Fin 256, eluR (hidR X Wq Wk Wv W1 b1 s j) * W2 o j) + b2 o

/-! ## Over the extended reals -/

/-- A projection `X·W` over the extended reals. -/
def projE (X : Fin 4096 → Fin 64 → EReal) (W : Fin 64 → Fin 64 → EReal) (s : Fin 4096) (q : Fin 64) : EReal :=
  ∑ d : Fin 64, X s d * W d q

/-- ELU over the extended reals, as both programs spell it after simplification. -/
def eluE (h : EReal) : EReal := if 0 < h then h else Ideal.exp h - 1

/-- The score with the scale 1/8 folded into the query before the sum. -/
def scoreK (X : Fin 4096 → Fin 64 → EReal) (Wq Wk : Fin 64 → Fin 64 → EReal) (s t : Fin 4096) : EReal :=
  ∑ q : Fin 64, (projE X Wq s q * ((1 / 8 : ℝ) : EReal)) * projE X Wk t q

/-- The score as a quotient by √64. -/
def scoreH (X : Fin 4096 → Fin 64 → EReal) (Wq Wk : Fin 64 → Fin 64 → EReal) (s t : Fin 4096) : EReal :=
  Ideal.div (∑ q : Fin 64, projE X Wq s q * projE X Wk t q) (Ideal.sqrt ((64 : ℝ) : EReal))

/-- Unnormalised softmax weights of a row of scores: exp of the score less the row's maximum. -/
def wtE (sc : Fin 4096 → EReal) (t : Fin 4096) : EReal :=
  Ideal.exp (sc t - Finset.univ.fold max (⊥ : EReal) sc)

/-- Attention with the normaliser applied after the sum against `V`. -/
def attK (X : Fin 4096 → Fin 64 → EReal) (Wq Wk Wv : Fin 64 → Fin 64 → EReal) (s : Fin 4096) (v : Fin 64) : EReal :=
  Ideal.div (∑ t : Fin 4096, wtE (scoreK X Wq Wk s) t * projE X Wv t v) (∑ t : Fin 4096, wtE (scoreK X Wq Wk s) t)

/-- Attention with each weight normalised before the sum against `V`. -/
def attH (X : Fin 4096 → Fin 64 → EReal) (Wq Wk Wv : Fin 64 → Fin 64 → EReal) (s : Fin 4096) (v : Fin 64) : EReal :=
  ∑ t : Fin 4096, Ideal.div (wtE (scoreH X Wq Wk s) t) (∑ t' : Fin 4096, wtE (scoreH X Wq Wk s) t') * projE X Wv t v

/-- The MLP on a row `a` of 64 entries. -/
def mlpE (a : Fin 64 → EReal) (W1 : Fin 256 → Fin 64 → EReal) (b1 : Fin 256 → EReal)
    (W2 : Fin 64 → Fin 256 → EReal) (b2 : Fin 64 → EReal) (o : Fin 64) : EReal :=
  (∑ j : Fin 256, eluE ((∑ v : Fin 64, a v * W1 j v) + b1 j) * W2 o j) + b2 o

/-- One row of the kernel's stage, from the row `x` of the input and the key and value matrices `K`, `V` already
    projected: the kernel computes `K` and `V` once for all rows and then each row by this function. -/
def rowK (x : Fin 64 → EReal) (Wq : Fin 64 → Fin 64 → EReal) (K V : Fin 4096 → Fin 64 → EReal) (W1 : Fin 256 → Fin 64 → EReal)
    (b1 : Fin 256 → EReal) (W2 : Fin 64 → Fin 256 → EReal) (b2 : Fin 64 → EReal) (o : Fin 64) : EReal :=
  mlpE (fun v => Ideal.div
      (∑ t : Fin 4096, wtE (fun t => ∑ q : Fin 64, ((∑ d : Fin 64, x d * Wq d q) * ((1 / 8 : ℝ) : EReal)) * K t q) t * V t v)
      (∑ t : Fin 4096, wtE (fun t => ∑ q : Fin 64, ((∑ d : Fin 64, x d * Wq d q) * ((1 / 8 : ℝ) : EReal)) * K t q) t))
    W1 b1 W2 b2 o

/-- The stage as the kernel computes it. -/
def stageK (X : Fin 4096 → Fin 64 → EReal) (Wq Wk Wv : Fin 64 → Fin 64 → EReal) (W1 : Fin 256 → Fin 64 → EReal)
    (b1 : Fin 256 → EReal) (W2 : Fin 64 → Fin 256 → EReal) (b2 : Fin 64 → EReal) (s : Fin 4096) (o : Fin 64) : EReal :=
  mlpE (attK X Wq Wk Wv s) W1 b1 W2 b2 o

/-- The stage as the reference computes it. -/
def stageH (X : Fin 4096 → Fin 64 → EReal) (Wq Wk Wv : Fin 64 → Fin 64 → EReal) (W1 : Fin 256 → Fin 64 → EReal)
    (b1 : Fin 256 → EReal) (W2 : Fin 64 → Fin 256 → EReal) (b2 : Fin 64 → EReal) (s : Fin 4096) (o : Fin 64) : EReal :=
  mlpE (attH X Wq Wk Wv s) W1 b1 W2 b2 o

/-- The kernel's stage is its row function at the projected keys and values. -/
theorem stageK_eq_rowK (X : Fin 4096 → Fin 64 → EReal) (Wq Wk Wv : Fin 64 → Fin 64 → EReal) (W1 : Fin 256 → Fin 64 → EReal)
    (b1 : Fin 256 → EReal) (W2 : Fin 64 → Fin 256 → EReal) (b2 : Fin 64 → EReal) (s : Fin 4096) (o : Fin 64) :
    stageK X Wq Wk Wv W1 b1 W2 b2 s o = rowK (X s) Wq (projE X Wk) (projE X Wv) W1 b1 W2 b2 o := rfl

end Cert.Spec

end
-- ==== Proof.Consts.lean ====
/-
  The float literals the two programs spell, as the extended reals their bit patterns denote.
-/
import Idealize.ShloMosaic.PureOps.Ideal

noncomputable section

namespace Cert.Consts

open Idealize.ShloMosaic

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `0.125` denotes the real `1/8`. -/
theorem ofBits_eighth : Ideal.ofBits .f32 0x3E000000#32 = ((1 / 8 : ℝ) : EReal) := by
  simp [Ideal.ofBits, Ideal.ieee, -EReal.coe_mul]; norm_num

/-- `64.0` denotes the real `64`. -/
theorem ofBits_64 : Ideal.ofBits .f32 0x42800000#32 = ((64 : ℝ) : EReal) := by
  simp [Ideal.ofBits, Ideal.ieee, -EReal.coe_mul]; norm_num

/-- The pattern of `-inf` denotes `⊥`. -/
theorem ofBits_neg_inf : Ideal.ofBits .f32 0xFF800000#32 = (⊥ : EReal) := by
  simp [Ideal.ofBits, Ideal.ieee]

end Cert.Consts

end
-- ==== Proof.KI.PayValue.lean ====
/-
  The kernel's pure payloads read at an index, at the ideal values.

  One stage on a block of 512 rows is four steps: the scores (the rows projected, scaled by 1/8, against the keys), the
  unnormalised weights (exp of each score less its row's maximum), the attention output (the weights against the values,
  divided by the weights' row sums) and the MLP (a hidden layer with ELU, then the output layer). Each step is read at an
  index by one lemma over variables; the stage's payload is the four composed, and at row `r`, column `o` it is
  `Cert.Spec.rowK` of the block's row `r`. The two key-and-value payloads are one product each, and the remaining payloads
  only re-lay or narrow a value, which at the ideal values is the identity.
-/
import proofs.«405560_j29480655519796_3_alg».proof.Proof.Gen.KernelIdeal.Skeleton
import proofs.«405560_j29480655519796_3_alg».proof.Proof.Spec
import proofs.«405560_j29480655519796_3_alg».proof.Proof.Consts
import Idealize.ShloMosaic.PureOps.Ideal.Laws
import Idealize.ShloMosaic.Lib.ValueIdx
import Idealize.ShloMosaic.Lib.ValueLayout

noncomputable section

namespace Cert.KernelIdeal.Val

open Cert.KernelIdeal Cert.KernelIdeal.Gen Idealize.ShloMosaic Idealize.ShloMosaic.ValueIdx
open scoped BigOperators

/-! ## A matrix product read at an index -/

section Products
variable {m k n : Nat} {φ₁ φ₂ : FTy}

/-- The product of an m×k by a k×n matrix (the second axis of the left against the first of the right), into the zero
    accumulator, read at `(a, b)`: the sum over the contracted coordinate of the products of the entries. -/
theorem matmul_rows_cols_apply
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    matmul (⟨[1], [0], [0], [1], [], [], w⟩ : DotDims _ _ _) none A B
        (constant (F := Ideal) ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

/-- The product of an m×k matrix by the transpose of an n×k one (second axis against second axis), into the zero
    accumulator, read at `(a, b)`. -/
theorem matmul_rows_rows_apply
    (w : DotDims.WF ⟨2, ![m, k]⟩ ⟨2, ![n, k]⟩ ⟨2, ![m, n]⟩ [1] [1] [0] [0] [] [])
    (A : FVec Ideal ⟨2, ![m, k]⟩ φ₁) (B : FVec Ideal ⟨2, ![n, k]⟩ φ₂) (a : Fin m) (b : Fin n) :
    matmul (⟨[1], [1], [0], [0], [], [], w⟩ : DotDims _ _ _) none A B
        (constant (F := Ideal) ⟨2, ![m, n]⟩ .f32 0x00000000#32) (ix2 a b)
      = ∑ c : Fin k, A (ix2 a c) * B (ix2 b c) := by
  show FloatOps.matmul _ none A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have hc := contrEquiv1_symm_val
    (⟨[1], [1], [0], [0], [], [], w⟩ : DotDims ⟨2, ![m, k]⟩ ⟨2, ![n, k]⟩ ⟨2, ![m, n]⟩) k rfl rfl c
  have hl : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact hc
  rw [hl, hr]

end Products

/-! ## A column kept as a unit axis: the cast that makes it and the broadcast that reads it -/

section Column
variable {α : Type} {a b : Nat}

/-- An `[a]` array cast to the column `[a, 1]` reads, at `(i, u)`, the operand at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## A reduction along the rows of a matrix -/

section RowReductions
variable {a b : Nat}

/-- The source index a row reduction reads: row `p`, column `c`. -/
theorem lift_row (h : (⟨2, ![a, b]⟩ : Shape).Reduces [1] ⟨1, ![a]⟩) (p : Fin a) (c : Fin b) :
    h.lift (ix1 p) c = ix2 p c := by
  funext ax; apply Fin.ext
  match ax with
  | ⟨0, _⟩ => rfl
  | ⟨1, _⟩ => rfl

/-- The sum along each row, read at row `p`: the sum of the row's entries. -/
theorem rowSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ src 0x00000000#32 h hφ hacc (ix1 p) = ∑ c : Fin b, src (ix2 p c) := by
  refine (Ideal.multiReduction_add_single src 0x00000000#32 h hφ hacc (ix1 p)).trans ?_
  exact Finset.sum_congr rfl fun c _ => congrArg src (lift_row h p c)

/-- The maximum along each row, read at row `p`: the fold of `max` from `⊥` over the row's entries. -/
theorem rowMax_apply (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction (F := Ideal) .maximumf [1] ⟨1, ![a]⟩ src 0xFF800000#32 h hφ hacc (ix1 p)
      = (Finset.univ : Finset (Fin b)).fold max (⊥ : EReal) (fun c => src (ix2 p c)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [Cert.Consts.ofBits_neg_inf]
  exact congrArg (fun f => (Finset.univ : Finset (Fin b)).fold max (⊥ : EReal) f)
    (funext fun c => congrArg src (lift_row h p c))

end RowReductions

/-! ## The products of one stage, each at its own shapes -/

/-- The query projection: rows × the projection's columns. -/
theorem mm_query (A : FVec Ideal S512x64 .bf16) (B : FVec Ideal S64x64 .bf16) (r : Fin 512) (q : Fin 64) :
    matmul dot_S512x64_S64x64_S512x64_1_0_0_1_n_n none A B (constant (F := Ideal) S512x64 .f32 0x00000000#32) (ix2 r q)
      = ∑ d : Fin 64, A (ix2 r d) * B (ix2 d q) :=
  matmul_rows_cols_apply _ A B r q

/-- The scores: query rows against key rows. -/
theorem mm_score (A : FVec Ideal S512x64 .bf16) (B : FVec Ideal S4096x64 .bf16) (r : Fin 512) (t : Fin 4096) :
    matmul dot_S512x64_S4096x64_S512x4096_1_1_0_0_n_n none A B (constant (F := Ideal) S512x4096 .f32 0x00000000#32) (ix2 r t)
      = ∑ q : Fin 64, A (ix2 r q) * B (ix2 t q) :=
  matmul_rows_rows_apply _ A B r t

/-- The weights against the values. -/
theorem mm_values (A : FVec Ideal S512x4096 .bf16) (B : FVec Ideal S4096x64 .bf16) (r : Fin 512) (v : Fin 64) :
    matmul dot_S512x4096_S4096x64_S512x64_1_0_0_1_n_n none A B (constant (F := Ideal) S512x64 .f32 0x00000000#32) (ix2 r v)
      = ∑ t : Fin 4096, A (ix2 r t) * B (ix2 t v) :=
  matmul_rows_cols_apply _ A B r v

/-- The hidden layer: attention rows against the first weight's rows. -/
theorem mm_hidden (A : FVec Ideal S512x64 .bf16) (B : FVec Ideal S256x64 .bf16) (r : Fin 512) (j : Fin 256) :
    matmul dot_S512x64_S256x64_S512x256_1_1_0_0_n_n none A B (constant (F := Ideal) S512x256 .f32 0x00000000#32) (ix2 r j)
      = ∑ v : Fin 64, A (ix2 r v) * B (ix2 j v) :=
  matmul_rows_rows_apply _ A B r j

/-- The output layer: activations against the second weight's rows. -/
theorem mm_output (A : FVec Ideal S512x256 .bf16) (B : FVec Ideal S64x256 .bf16) (r : Fin 512) (o : Fin 64) :
    matmul dot_S512x256_S64x256_S512x64_1_1_0_0_n_n none A B (constant (F := Ideal) S512x64 .f32 0x00000000#32) (ix2 r o)
      = ∑ j : Fin 256, A (ix2 r j) * B (ix2 o j) :=
  matmul_rows_rows_apply _ A B r o

/-- The two key-and-value projections: all 4096 rows × 128 columns. -/
theorem mm_keysValues (A : FVec Ideal S4096x64 .bf16) (B : FVec Ideal S64x128 .bf16) (t : Fin 4096) (j : Fin 128) :
    matmul dot_S4096x64_S64x128_S4096x128_1_0_0_1_n_n none A B (constant (F := Ideal) S4096x128 .f32 0x00000000#32) (ix2 t j)
      = ∑ d : Fin 64, A (ix2 t d) * B (ix2 d j) :=
  matmul_rows_cols_apply _ A B t j

/-! ## One stage on a block of 512 rows, in four steps -/

/-- The scores of a block: the query projection scaled by 1/8, against the keys. -/
def scoreV (X : FVec Ideal S512x64 .bf16) (Wq : FVec Ideal S64x64 .bf16) (K : FVec Ideal S4096x64 .bf16) :
    FVec Ideal S512x4096 .f32 :=
  matmul dot_S512x64_S4096x64_S512x4096_1_1_0_0_n_n none
    (truncf .bf16 (mulf (matmul dot_S512x64_S64x64_S512x64_1_0_0_1_n_n none X Wq (constant (F := Ideal) S512x64 .f32 0x00000000#32))
      (broadcast S512x64 (Scalar.ofBits (F := Ideal) .f32 0x3E000000#32))) bitsLt_bf16_f32)
    K (constant (F := Ideal) S512x4096 .f32 0x00000000#32)

theorem scoreV_apply (X : FVec Ideal S512x64 .bf16) (Wq : FVec Ideal S64x64 .bf16) (K : FVec Ideal S4096x64 .bf16)
    (r : Fin 512) (t : Fin 4096) :
    scoreV X Wq K (ix2 r t)
      = ∑ q : Fin 64, ((∑ d : Fin 64, X (ix2 r d) * Wq (ix2 d q)) * ((1 / 8 : ℝ) : EReal)) * K (ix2 t q) := by
  unfold scoreV
  rw [mm_score]
  refine Finset.sum_congr rfl fun q _ => ?_
  rw [truncf_apply, mulf_apply, mm_query, broadcast_apply]
  show _ * Ideal.ofBits .f32 0x3E000000#32 * _ = _
  rw [Cert.Consts.ofBits_eighth]

/-- The unnormalised weights of a block of scores: exp of each score less its row's maximum. -/
def weightV (S : FVec Ideal S512x4096 .f32) : FVec Ideal S512x4096 .f32 :=
  exp (subf S (broadcastTo S512x4096
    (shapeCast S512x1 (multiReduction .maximumf [1] S512 S 0xFF800000#32 reduces_S512x4096_S512 (.inl rfl) rfl)
      shapeCasts_S512_S512x1) broadcasts_S512x1_S512x4096))

theorem weightV_apply (S : FVec Ideal S512x4096 .f32) (r : Fin 512) (t : Fin 4096) :
    weightV S (ix2 r t) = Cert.Spec.wtE (fun t => S (ix2 r t)) t := by
  unfold weightV Cert.Spec.wtE
  show Ideal.exp (subf S _ (ix2 r t)) = _
  rw [subf_apply, broadcastTo_a1_ab_apply, shapeCast_a_a1_apply, rowMax_apply]

/-- The attention output of a block: the weights against the values, divided by the weights' row sums. -/
def attV (S : FVec Ideal S512x4096 .f32) (V : FVec Ideal S4096x64 .bf16) : FVec Ideal S512x64 .f32 :=
  divf (matmul dot_S512x4096_S4096x64_S512x64_1_0_0_1_n_n none (truncf .bf16 (weightV S) bitsLt_bf16_f32) V
      (constant (F := Ideal) S512x64 .f32 0x00000000#32))
    (broadcastTo S512x64
      (shapeCast S512x1 (multiReduction .add [1] S512 (weightV S) 0x00000000#32 reduces_S512x4096_S512 (.inl rfl) rfl)
        shapeCasts_S512_S512x1) broadcasts_S512x1_S512x64)

theorem attV_apply (S : FVec Ideal S512x4096 .f32) (V : FVec Ideal S4096x64 .bf16) (r : Fin 512) (v : Fin 64) :
    attV S V (ix2 r v)
      = Ideal.div (∑ t : Fin 4096, Cert.Spec.wtE (fun t => S (ix2 r t)) t * V (ix2 t v))
          (∑ t : Fin 4096, Cert.Spec.wtE (fun t => S (ix2 r t)) t) := by
  unfold attV
  rw [divf_apply, mm_values, broadcastTo_a1_ab_apply, shapeCast_a_a1_apply, rowSum_apply]
  have e1 : (∑ t : Fin 4096, truncf .bf16 (weightV S) bitsLt_bf16_f32 (ix2 r t) * V (ix2 t v))
      = ∑ t : Fin 4096, Cert.Spec.wtE (fun t => S (ix2 r t)) t * V (ix2 t v) :=
    Finset.sum_congr rfl fun t _ => by rw [truncf_apply, weightV_apply]
  have e2 : (∑ t : Fin 4096, weightV S (ix2 r t)) = ∑ t : Fin 4096, Cert.Spec.wtE (fun t => S (ix2 r t)) t :=
    Finset.sum_congr rfl fun t _ => weightV_apply S r t
  rw [e1, e2]

/-- ELU as the program spells it: where the argument is above zero the argument, elsewhere its exp less one. -/
def eluV {s : Shape} (H : FVec Ideal s .f32) : FVec Ideal s .f32 :=
  select (cmpf .ogt H (broadcast s (Scalar.ofBits (F := Ideal) .f32 0x00000000#32))) H
    (subf (exp H) (broadcast s (Scalar.ofBits (F := Ideal) .f32 0x3F800000#32)))

theorem eluV_apply {s : Shape} (H : FVec Ideal s .f32) (i : s.Idx) : eluV H i = Cert.Spec.eluE (H i) := by
  unfold eluV Cert.Spec.eluE
  show Scalar.select (Ideal.cmp .ogt (H i) (Ideal.ofBits .f32 0x00000000#32)) (H i)
      (Ideal.exp (H i) - Ideal.ofBits .f32 0x3F800000#32) = _
  rw [Cert.Consts.ofBits_zero, Cert.Consts.ofBits_one]
  by_cases h : 0 < H i
  · rw [if_pos h]; simp [Scalar.select, Ideal.cmp, h]
  · rw [if_neg h]; simp [Scalar.select, Ideal.cmp, h]

/-- The MLP on a block of attention rows. -/
def mlpV (A : FVec Ideal S512x64 .f32) (W1 : FVec Ideal S256x64 .bf16) (b1 : FVec Ideal S1x256 .f32)
    (W2 : FVec Ideal S64x256 .bf16) (b2 : FVec Ideal S1x64 .f32) : FVec Ideal S512x64 .f32 :=
  addf (matmul dot_S512x256_S64x256_S512x64_1_1_0_0_n_n none
      (truncf .bf16 (eluV (addf (matmul dot_S512x64_S256x64_S512x256_1_1_0_0_n_n none (truncf .bf16 A bitsLt_bf16_f32) W1
          (constant (F := Ideal) S512x256 .f32 0x00000000#32)) (broadcastTo S512x256 b1 broadcasts_S1x256_S512x256)))
        bitsLt_bf16_f32) W2 (constant (F := Ideal) S512x64 .f32 0x00000000#32))
    (broadcastTo S512x64 b2 broadcasts_S1x64_S512x64)

theorem mlpV_apply (A : FVec Ideal S512x64 .f32) (W1 : FVec Ideal S256x64 .bf16) (b1 : FVec Ideal S1x256 .f32)
    (W2 : FVec Ideal S64x256 .bf16) (b2 : FVec Ideal S1x64 .f32) (r : Fin 512) (o : Fin 64) :
    mlpV A W1 b1 W2 b2 (ix2 r o)
      = Cert.Spec.mlpE (fun v => A (ix2 r v)) (fun j v => W1 (ix2 j v)) (fun j => b1 (ix2 0 j))
          (fun o j => W2 (ix2 o j)) (fun o => b2 (ix2 0 o)) o := by
  unfold mlpV Cert.Spec.mlpE
  rw [addf_apply, mm_output, broadcastTo_1b_ab_apply]
  congr 1
  refine Finset.sum_congr rfl fun j _ => ?_
  rw [truncf_apply, eluV_apply, addf_apply, mm_hidden, broadcastTo_1b_ab_apply]
  rfl

/-! ## The payloads at an index -/

/-- Stage 2's payload is the four steps composed, on the loaded rows narrowed to bf16. -/
theorem pay10_eq (v31 v33 : FVec Ideal S4096x64 .bf16) (v35 : FVec Ideal S256x64 .bf16) (v37 : FVec Ideal S64x256 .bf16)
    (v39 : FVec Ideal S1x256 .f32) (v41 : FVec Ideal S1x64 .f32) (v48 : Vec Ideal S512x64 .f32) (v50 : Vec Ideal S64x64 .bf16) :
    k0_pay10 (F := Ideal) v31 v33 v35 v37 v39 v41 v48 v50
      = mlpV (attV (scoreV (truncf .bf16 v48 bitsLt_bf16_f32) (shapeCast S64x64 v50 shapeCasts_S64x64_S64x64) v31) v33)
          v35 v39 v37 v41 := rfl

/-- Stage 1's payload is stage 2's on the loaded rows with their leading unit axis dropped. -/
theorem pay9_eq (v10 v12 : FVec Ideal S4096x64 .bf16) (v14 : FVec Ideal S256x64 .bf16) (v16 : FVec Ideal S64x256 .bf16)
    (v18 : FVec Ideal S1x256 .f32) (v20 : FVec Ideal S1x64 .f32) (v48 : Vec Ideal S1x512x64 .f32) (v51 : Vec Ideal S64x64 .bf16) :
    k0_pay9 (F := Ideal) v10 v12 v14 v16 v18 v20 v48 v51
      = k0_pay10 (F := Ideal) v10 v12 v14 v16 v18 v20 (shapeCast S512x64 v48 shapeCasts_S1x512x64_S512x64) v51 := rfl

/-- Stage 2's payload at row `r` of the block, column `o`: the stage's row function of the block's row `r`. -/
theorem pay10_apply (v31 v33 : FVec Ideal S4096x64 .bf16) (v35 : FVec Ideal S256x64 .bf16) (v37 : FVec Ideal S64x256 .bf16)
    (v39 : FVec Ideal S1x256 .f32) (v41 : FVec Ideal S1x64 .f32) (v48 : Vec Ideal S512x64 .f32) (v50 : Vec Ideal S64x64 .bf16)
    (r : Fin 512) (o : Fin 64) :
    k0_pay10 (F := Ideal) v31 v33 v35 v37 v39 v41 v48 v50 (ix2 r o)
      = Cert.Spec.rowK (fun d => v48 (ix2 r d)) (fun d q => v50 (ix2 d q)) (fun t q => v31 (ix2 t q))
          (fun t v => v33 (ix2 t v)) (fun j v => v35 (ix2 j v)) (fun j => v39 (ix2 0 j)) (fun o j => v37 (ix2 o j))
          (fun o => v41 (ix2 0 o)) o := by
  rw [pay10_eq, mlpV_apply, shapeCast_self]
  have hS : (fun t : Fin 4096 => scoreV (truncf .bf16 v48 bitsLt_bf16_f32) v50 v31 (ix2 r t))
      = fun t => ∑ q : Fin 64, ((∑ d : Fin 64, v48 (ix2 r d) * v50 (ix2 d q)) * ((1 / 8 : ℝ) : EReal)) * v31 (ix2 t q) :=
    funext fun t => scoreV_apply _ v50 v31 r t
  have hA : (fun v : Fin 64 => attV (scoreV (truncf .bf16 v48 bitsLt_bf16_f32) v50 v31) v33 (ix2 r v))
      = fun v => Ideal.div
          (∑ t : Fin 4096, Cert.Spec.wtE (fun t => ∑ q : Fin 64,
            ((∑ d : Fin 64, v48 (ix2 r d) * v50 (ix2 d q)) * ((1 / 8 : ℝ) : EReal)) * v31 (ix2 t q)) t * v33 (ix2 t v))
          (∑ t : Fin 4096, Cert.Spec.wtE (fun t => ∑ q : Fin 64,
            ((∑ d : Fin 64, v48 (ix2 r d) * v50 (ix2 d q)) * ((1 / 8 : ℝ) : EReal)) * v31 (ix2 t q)) t) :=
    funext fun v => by rw [attV_apply, hS]
  rw [hA]
  rfl

/-- Stage 1's payload at row `r` of the block, column `o`. -/
theorem pay9_apply (v10 v12 : FVec Ideal S4096x64 .bf16) (v14 : FVec Ideal S256x64 .bf16) (v16 : FVec Ideal S64x256 .bf16)
    (v18 : FVec Ideal S1x256 .f32) (v20 : FVec Ideal S1x64 .f32) (v48 : Vec Ideal S1x512x64 .f32) (v51 : Vec Ideal S64x64 .bf16)
    (r : Fin 512) (o : Fin 64) :
    k0_pay9 (F := Ideal) v10 v12 v14 v16 v18 v20 v48 v51 (ix2 r o)
      = Cert.Spec.rowK (fun d => v48 (ix3 0 r d)) (fun d q => v51 (ix2 d q)) (fun t q => v10 (ix2 t q))
          (fun t v => v12 (ix2 t v)) (fun j v => v14 (ix2 j v)) (fun j => v18 (ix2 0 j)) (fun o j => v16 (ix2 o j))
          (fun o => v20 (ix2 0 o)) o := by
  rw [pay9_eq, pay10_apply]
  have hx : (fun d : Fin 64 => shapeCast S512x64 v48 shapeCasts_S1x512x64_S512x64 (ix2 r d)) = fun d => v48 (ix3 0 r d) :=
    funext fun d => shapeCast_1ab_ab_apply v48 _ r d
  rw [hx]

/-- The keys and values of stage 1, all rows: the input rows against the two projections side by side. -/
theorem pay11_apply (v0 : Vec Ideal S1x4096x64 .f32) (v3 : Vec Ideal S64x128 .bf16) (t : Fin 4096) (j : Fin 128) :
    k0_pay11 (F := Ideal) v0 v3 (ix2 t j) = ∑ d : Fin 64, v0 (ix3 0 t d) * v3 (ix2 d j) := by
  show shapeCast S4096x128 (matmul dot_S4096x64_S64x128_S4096x128_1_0_0_1_n_n none
    (truncf .bf16 (shapeCast S4096x64 v0 shapeCasts_S1x4096x64_S4096x64) bitsLt_bf16_f32)
    (shapeCast S64x128 v3 shapeCasts_S64x128_S64x128) (constant (F := Ideal) S4096x128 .f32 0x00000000#32))
    shapeCasts_S4096x128_S4096x128 (ix2 t j) = _
  rw [shapeCast_self, shapeCast_self, mm_keysValues]
  exact Finset.sum_congr rfl fun d _ => by rw [truncf_apply, shapeCast_1ab_ab_apply]

/-- The keys and values of stage 2, all rows: stage 1's output rows against the two projections side by side. -/
theorem pay19_apply (v22 : Vec Ideal S4096x64 .f32) (v24 : Vec Ideal S64x128 .bf16) (t : Fin 4096) (j : Fin 128) :
    k0_pay19 (F := Ideal) v22 v24 (ix2 t j) = ∑ d : Fin 64, v22 (ix2 t d) * v24 (ix2 d j) := by
  show matmul dot_S4096x64_S64x128_S4096x128_1_0_0_1_n_n none (truncf .bf16 v22 bitsLt_bf16_f32)
    (shapeCast S64x128 v24 shapeCasts_S64x128_S64x128) (constant (F := Ideal) S4096x128 .f32 0x00000000#32) (ix2 t j) = _
  rw [shapeCast_self, mm_keysValues]
  rfl

/-! ## The payloads that only re-lay or narrow a value: the identity on the values -/

theorem pay1_apply (v26 : FVec Ideal S4096x128 .f32) (i : S4096x128.Idx) : k0_pay1 (F := Ideal) v26 i = v26 i := by
  show shapeCast S4096x128 v26 shapeCasts_S4096x128_S4096x128 i = _
  rw [shapeCast_self]

theorem pay2_apply (v30 : Vec Ideal S4096x64 .f32) (i : S4096x64.Idx) : k0_pay2 (F := Ideal) v30 i = v30 i := rfl

theorem pay3_apply (v32 : Vec Ideal S4096x64 .f32) (i : S4096x64.Idx) : k0_pay3 (F := Ideal) v32 i = v32 i := rfl

theorem pay4_apply (v34 : Vec Ideal S256x64 .bf16) (i : S256x64.Idx) : k0_pay4 (F := Ideal) v34 i = v34 i := by
  show shapeCast S256x64 v34 shapeCasts_S256x64_S256x64 i = _
  rw [shapeCast_self]

theorem pay5_apply (v36 : Vec Ideal S64x256 .bf16) (i : S64x256.Idx) : k0_pay5 (F := Ideal) v36 i = v36 i := by
  show shapeCast S64x256 v36 shapeCasts_S64x256_S64x256 i = _
  rw [shapeCast_self]

theorem pay6_apply (v38 : Vec Ideal S1x256 .f32) (i : S1x256.Idx) : k0_pay6 (F := Ideal) v38 i = v38 i := by
  show shapeCast S1x256 v38 shapeCasts_S1x256_S1x256 i = _
  rw [shapeCast_self]

theorem pay7_apply (v40 : Vec Ideal S1x64 .f32) (i : S1x64.Idx) : k0_pay7 (F := Ideal) v40 i = v40 i := by
  show shapeCast S1x64 v40 shapeCasts_S1x64_S1x64 i = _
  rw [shapeCast_self]

/-- The stage-2 block stored under a leading unit axis: entry `(0, r, o)` is the block's `(r, o)`. -/
theorem pay8_apply (v81 : FVec Ideal S512x64 .f32) (u : Fin 1) (r : Fin 512) (o : Fin 64) :
    k0_pay8 (F := Ideal) v81 (ix3 u r o) = v81 (ix2 r o) :=
  shapeCast_ab_1ab_apply v81 _ u r o

theorem pay12_apply (v9 : Vec Ideal S4096x64 .f32) (i : S4096x64.Idx) : k0_pay12 (F := Ideal) v9 i = v9 i := rfl

theorem pay13_apply (v11 : Vec Ideal S4096x64 .f32) (i : S4096x64.Idx) : k0_pay13 (F := Ideal) v11 i = v11 i := rfl

theorem pay14_apply (v13 : Vec Ideal S256x64 .bf16) (i : S256x64.Idx) : k0_pay14 (F := Ideal) v13 i = v13 i := by
  show shapeCast S256x64 v13 shapeCasts_S256x64_S256x64 i = _
  rw [shapeCast_self]

theorem pay15_apply (v15 : Vec Ideal S64x256 .bf16) (i : S64x256.Idx) : k0_pay15 (F := Ideal) v15 i = v15 i := by
  show shapeCast S64x256 v15 shapeCasts_S64x256_S64x256 i = _
  rw [shapeCast_self]

theorem pay16_apply (v17 : Vec Ideal S1x256 .f32) (i : S1x256.Idx) : k0_pay16 (F := Ideal) v17 i = v17 i := by
  show shapeCast S1x256 v17 shapeCasts_S1x256_S1x256 i = _
  rw [shapeCast_self]

theorem pay17_apply (v19 : Vec Ideal S1x64 .f32) (i : S1x64.Idx) : k0_pay17 (F := Ideal) v19 i = v19 i := by
  show shapeCast S1x64 v19 shapeCasts_S1x64_S1x64 i = _
  rw [shapeCast_self]

theorem pay18_apply (v82 : FVec Ideal S512x64 .f32) (i : S512x64.Idx) : k0_pay18 (F := Ideal) v82 i = v82 i := by
  show shapeCast S512x64 v82 shapeCasts_S512x64_S512x64 i = _
  rw [shapeCast_self]

end Cert.KernelIdeal.Val

end
-- ==== Proof.KI.BlockValue.lean ====
/-
  The value the body leaves in the output's block, at the ideal values.

  The body runs two attention-and-MLP stages. In each, the keys and values are the two column halves (columns 0 … 63
  and 64 … 127) of one joint projection of the stage's input, computed once for all 4096 rows; then each block of 512
  rows is the stage's row function of its rows against those keys and values. Read at row `r`, column `o`: the first
  stage's result is `Cert.Spec.stageK` of the input block and the first seven parameters (`stage1_apply`), and the
  output is `Cert.Spec.stageK` of that result and the last six parameters (`bodyOut_apply`). Row `r` lies in block
  `r / 512` at its row `r % 512`, and `512 (r / 512) + r % 512 = r`.
-/
import proofs.«405560_j29480655519796_3_alg».proof.Proof.KI.Trips
import proofs.«405560_j29480655519796_3_alg».proof.Proof.KI.Run
import proofs.«405560_j29480655519796_3_alg».proof.Proof.KI.PayValue
import proofs.«405560_j29480655519796_3_alg».proof.Proof.Spec

noncomputable section

namespace Cert.KernelIdeal.Val

open Cert.KernelIdeal Cert.KernelIdeal.Gen Cert.KernelIdeal.Body Idealize.ShloMosaic Idealize.ShloMosaic.ValueIdx
open scoped BigOperators

/-! ## The column halves of the joint projection at an index -/

theorem colsL_apply {F : FTy → Type} [FloatOps F] (w : Vec F S4096x128 .f32) (r : Fin 4096) (o : Fin 64) :
    colsL w (ix2 r o) = w (ix2 r (⟨o.val, by omega⟩ : Fin 128)) := by
  unfold colsL
  show w ((Rect.unit (s := S4096x128) ![0, 0] S4096x64.size inb_S4096x128_S4096x64_0_0).emb (ix2 r o)) = _
  congr 1
  funext a
  match a with
  | ⟨0, _⟩ => exact Fin.ext (by show 0 + 1 * r.val = r.val; omega)
  | ⟨1, _⟩ => exact Fin.ext (by show 0 + 1 * o.val = o.val; omega)

theorem colsR_apply {F : FTy → Type} [FloatOps F] (w : Vec F S4096x128 .f32) (r : Fin 4096) (o : Fin 64) :
    colsR w (ix2 r o) = w (ix2 r (⟨64 + o.val, by omega⟩ : Fin 128)) := by
  unfold colsR
  show w ((Rect.unit (s := S4096x128) ![0, 64] S4096x64.size inb_S4096x128_S4096x64_0_64).emb (ix2 r o)) = _
  congr 1
  funext a
  match a with
  | ⟨0, _⟩ => exact Fin.ext (by show 0 + 1 * r.val = r.val; omega)
  | ⟨1, _⟩ => exact Fin.ext (by show 64 + 1 * o.val = 64 + o.val; omega)

/-! ## The first stage -/

theorem stage1_apply (x0 : Vec Ideal S1x4096x64 .f32) (x1 : Vec Ideal S64x64 .bf16) (x2 : Vec Ideal S64x128 .bf16) (x3 : Vec Ideal S256x64 .bf16) (x4 : Vec Ideal S1x256 .f32) (x5 : Vec Ideal S64x256 .bf16) (x6 : Vec Ideal S1x64 .f32) (r : Fin 4096) (o : Fin 64) :
    stage1 (F := Ideal) x0 x1 x2 x3 x4 x5 x6 (ix2 r o)
      = Cert.Spec.stageK (fun s d => x0 (ix3 (0 : Fin 1) s d)) (fun d q => x1 (ix2 d q)) (fun d q => x2 (ix2 d (⟨q.val, by omega⟩ : Fin 128))) (fun d v => x2 (ix2 d (⟨64 + v.val, by omega⟩ : Fin 128)))
          (fun j v => x3 (ix2 j v)) (fun j => x4 (ix2 (0 : Fin 1) j)) (fun o j => x5 (ix2 o j)) (fun o => x6 (ix2 (0 : Fin 1) o)) r o := by
  unfold stage1
  rw [out1_apply, pay18_apply, pay9_apply, Cert.Spec.stageK_eq_rowK]
  have hrow : (512 * (r.val / 512) + r.val % 512) = r.val := by omega
  have hK : (fun (t : Fin 4096) (q : Fin 64) => k0_pay12 (F := Ideal) (colsL (k0_pay11 x0 x2)) (ix2 t q))
      = Cert.Spec.projE (fun s d => x0 (ix3 (0 : Fin 1) s d)) (fun d q => x2 (ix2 d (⟨q.val, by omega⟩ : Fin 128))) :=
    funext fun t => funext fun q => by rw [pay12_apply, colsL_apply, pay11_apply]; rfl
  have hV : (fun (t : Fin 4096) (v : Fin 64) => k0_pay13 (F := Ideal) (colsR (k0_pay11 x0 x2)) (ix2 t v))
      = Cert.Spec.projE (fun s d => x0 (ix3 (0 : Fin 1) s d)) (fun d v => x2 (ix2 d (⟨64 + v.val, by omega⟩ : Fin 128))) :=
    funext fun t => funext fun v => by rw [pay13_apply, colsR_apply, pay11_apply]; rfl
  rw [hK, hV]
  simp only [pay14_apply, pay15_apply, pay16_apply, pay17_apply]
  congr 1
  funext d
  congr 1
  funext a
  match a with
  | ⟨0, _⟩ => rfl
  | ⟨1, _⟩ => exact Fin.ext hrow
  | ⟨2, _⟩ => rfl

/-! ## The body's output -/

theorem bodyOut_apply (x0 : Vec Ideal S1x4096x64 .f32) (x1 : Vec Ideal S64x64 .bf16) (x2 : Vec Ideal S64x128 .bf16) (x3 : Vec Ideal S256x64 .bf16) (x4 : Vec Ideal S1x256 .f32) (x5 : Vec Ideal S64x256 .bf16) (x6 : Vec Ideal S1x64 .f32) (x7 : Vec Ideal S64x64 .bf16) (x8 : Vec Ideal S64x128 .bf16) (x9 : Vec Ideal S256x64 .bf16) (x10 : Vec Ideal S1x256 .f32) (x11 : Vec Ideal S64x256 .bf16) (x12 : Vec Ideal S1x64 .f32) (r : Fin 4096) (o : Fin 64) :
    Cert.KernelIdeal.Body.bodyOut (F := Ideal) x0 x1 x2 x3 x4 x5 x6 x7 x8 x9 x10 x11 x12 (ix3 (0 : Fin 1) r o)
      = Cert.Spec.stageK
          (Cert.Spec.stageK (fun s d => x0 (ix3 (0 : Fin 1) s d)) (fun d q => x1 (ix2 d q)) (fun d q => x2 (ix2 d (⟨q.val, by omega⟩ : Fin 128))) (fun d v => x2 (ix2 d (⟨64 + v.val, by omega⟩ : Fin 128)))
          (fun j v => x3 (ix2 j v)) (fun j => x4 (ix2 (0 : Fin 1) j)) (fun o j => x5 (ix2 o j)) (fun o => x6 (ix2 (0 : Fin 1) o)))
          (fun d q => x7 (ix2 d q)) (fun d q => x8 (ix2 d (⟨q.val, by omega⟩ : Fin 128))) (fun d v => x8 (ix2 d (⟨64 + v.val, by omega⟩ : Fin 128)))
          (fun j v => x9 (ix2 j v)) (fun j => x10 (ix2 (0 : Fin 1) j)) (fun o j => x11 (ix2 o j)) (fun o => x12 (ix2 (0 : Fin 1) o)) r o := by
  unfold bodyOut
  rw [out2_apply, pay8_apply, pay10_apply, Cert.Spec.stageK_eq_rowK]
  have hrow : (512 * (r.val / 512) + r.val % 512) = r.val := by omega
  have hK : (fun (t : Fin 4096) (q : Fin 64) => k0_pay2 (F := Ideal) (colsL (k0_pay1 (k0_pay19 (stage1 (F := Ideal) x0 x1 x2 x3 x4 x5 x6) x8))) (ix2 t q))
      = Cert.Spec.projE (Cert.Spec.stageK (fun s d => x0 (ix3 (0 : Fin 1) s d)) (fun d q => x1 (ix2 d q)) (fun d q => x2 (ix2 d (⟨q.val, by omega⟩ : Fin 128))) (fun d v => x2 (ix2 d (⟨64 + v.val, by omega⟩ : Fin 128)))
          (fun j v => x3 (ix2 j v)) (fun j => x4 (ix2 (0 : Fin 1) j)) (fun o j => x5 (ix2 o j)) (fun o => x6 (ix2 (0 : Fin 1) o))) (fun d q => x8 (ix2 d (⟨q.val, by omega⟩ : Fin 128))) :=
    funext fun t => funext fun q => by
      rw [pay2_apply, colsL_apply, pay1_apply, pay19_apply]
      exact Finset.sum_congr rfl fun d _ => by rw [stage1_apply]
  have hV : (fun (t : Fin 4096) (v : Fin 64) => k0_pay3 (F := Ideal) (colsR (k0_pay1 (k0_pay19 (stage1 (F := Ideal) x0 x1 x2 x3 x4 x5 x6) x8))) (ix2 t v))
      = Cert.Spec.projE (Cert.Spec.stageK (fun s d => x0 (ix3 (0 : Fin 1) s d)) (fun d q => x1 (ix2 d q)) (fun d q => x2 (ix2 d (⟨q.val, by omega⟩ : Fin 128))) (fun d v => x2 (ix2 d (⟨64 + v.val, by omega⟩ : Fin 128)))
          (fun j v => x3 (ix2 j v)) (fun j => x4 (ix2 (0 : Fin 1) j)) (fun o j => x5 (ix2 o j)) (fun o => x6 (ix2 (0 : Fin 1) o))) (fun d v => x8 (ix2 d (⟨64 + v.val, by omega⟩ : Fin 128))) :=
    funext fun t => funext fun v => by
      rw [pay3_apply, colsR_apply, pay1_apply, pay19_apply]
      exact Finset.sum_congr rfl fun d _ => by rw [stage1_apply]
  rw [hK, hV]
  simp only [pay4_apply, pay5_apply, pay6_apply, pay7_apply]
  congr 1
  funext d
  rw [← stage1_apply]
  congr 1
  funext a
  match a with
  | ⟨0, _⟩ => exact Fin.ext hrow
  | ⟨1, _⟩ => rfl

end Cert.KernelIdeal.Val

end
-- ==== Proof.Algebra.lean ====
/-
  The two extended-real spellings of the attention-and-MLP stage agree with the real stage on real arguments.

  Every quantity in the stage is a finite sum, product, difference, maximum, exponential or quotient of reals, so
  the coercion ℝ → EReal can be pushed outward through each of them:

    · a finite sum of coerced reals is the coercion of the real sum (induction on the index set);
    · the running maximum from ⊥ of coerced reals is the coercion of their largest, because the coercion is
      monotone and so commutes with binary max;
    · √64 = 8, and division by a nonzero real is multiplication by its reciprocal;
    · the softmax normaliser is a sum of exponentials over a nonempty index set, hence positive, hence nonzero.

  What remains is algebra in ℝ:  Σ_q (a_q · (1/8)) · b_q = (Σ_q a_q · b_q) / 8  for the score, and
  Σ_t (p_t / D) · V_t = (Σ_t p_t · V_t) / D  for the attention output.
-/
import proofs.«405560_j29480655519796_3_alg».proof.Proof.Spec
import Mathlib.Data.EReal.Basic
import Mathlib.Data.EReal.Operations
import Mathlib.Data.Finset.Lattice.Fold
import Mathlib.Order.MinMax
import Mathlib.Algebra.Order.BigOperators.Group.Finset
import Mathlib.Algebra.BigOperators.Field
import Mathlib.Analysis.Real.Sqrt
import Mathlib.Analysis.Complex.Exponential

noncomputable section

namespace Cert.Spec

open Idealize.ShloMosaic
open scoped BigOperators

/-! ## Coercion lemmas -/

/-- A finite sum of coerced reals is the coercion of the real sum. -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The running maximum from `⊥` of coerced reals is the coercion of their largest. -/
theorem fold_max_coe (f : Fin 4096 → ℝ) :
    Finset.univ.fold max (⊥ : EReal) (fun t => (f t : EReal))
      = ((Finset.univ.sup' Finset.univ_nonempty f : ℝ) : EReal) := by
  have h1 : Finset.univ.fold max (⊥ : EReal) (fun t => (f t : EReal))
      = Finset.univ.sup (fun t => (f t : EReal)) := rfl
  rw [h1, ← Finset.sup'_eq_sup Finset.univ_nonempty,
    Finset.apply_sup'_eq_sup'_comp Finset.univ_nonempty (fun x : ℝ => (x : EReal))
      (fun x y => EReal.coe_strictMono.monotone.map_max)]
  rfl

/-- √64 = 8. -/
theorem sqrt_64 : Ideal.sqrt ((64 : ℝ) : EReal) = ((8 : ℝ) : EReal) := by
  rw [Ideal.sqrt_coe, if_neg (by norm_num)]
  have h : (64 : ℝ) = 8 ^ 2 := by norm_num
  rw [h, Real.sqrt_sq (by norm_num)]

/-! ## The intermediates on real arguments -/

section Stage

variable (X : Fin 4096 → Fin 64 → ℝ) (Wq Wk Wv : Fin 64 → Fin 64 → ℝ)

/-- A projection of real arguments is real. -/
theorem projE_coe (W : Fin 64 → Fin 64 → ℝ) (s : Fin 4096) (q : Fin 64) :
    projE (fun s d => (X s d : EReal)) (fun d q => (W d q : EReal)) s q = ((projR X W s q : ℝ) : EReal) := by
  unfold projE projR
  rw [← coe_sum]
  exact Finset.sum_congr rfl fun d _ => (EReal.coe_mul _ _).symm

/-- Scaling the query by 1/8 before the sum gives the sum divided by 8. -/
theorem scoreK_coe (s t : Fin 4096) :
    scoreK (fun s d => (X s d : EReal)) (fun d q => (Wq d q : EReal)) (fun d q => (Wk d q : EReal)) s t
      = ((scoreR X Wq Wk s t : ℝ) : EReal) := by
  unfold scoreK scoreR
  simp only [projE_coe]
  rw [Finset.sum_div, ← coe_sum]
  refine Finset.sum_congr rfl fun q _ => ?_
  rw [← EReal.coe_mul, ← EReal.coe_mul]
  congr 1
  ring

/-- Dividing the sum by √64 gives the sum divided by 8. -/
theorem scoreH_coe (s t : Fin 4096) :
    scoreH (fun s d => (X s d : EReal)) (fun d q => (Wq d q : EReal)) (fun d q => (Wk d q : EReal)) s t
      = ((scoreR X Wq Wk s t : ℝ) : EReal) := by
  unfold scoreH scoreR
  simp only [projE_coe, ← EReal.coe_mul]
  rw [coe_sum, sqrt_64, Ideal.div_coe (by norm_num : (8 : ℝ) ≠ 0), ← EReal.coe_mul]
  congr 1
  ring

/-- The weight of a row of real scores: exp of the score less the row's largest. -/
theorem wtE_coe (sc : Fin 4096 → ℝ) (t : Fin 4096) :
    wtE (fun t => (sc t : EReal)) t
      = ((Real.exp (sc t - Finset.univ.sup' Finset.univ_nonempty sc) : ℝ) : EReal) := by
  unfold wtE
  rw [fold_max_coe, ← EReal.coe_sub, Ideal.exp_coe]

theorem wtK_coe (s t : Fin 4096) :
    wtE (scoreK (fun s d => (X s d : EReal)) (fun d q => (Wq d q : EReal)) (fun d q => (Wk d q : EReal)) s) t
      = ((wtR X Wq Wk s t : ℝ) : EReal) := by
  have h : scoreK (fun s d => (X s d : EReal)) (fun d q => (Wq d q : EReal)) (fun d q => (Wk d q : EReal)) s
      = fun t => ((scoreR X Wq Wk s t : ℝ) : EReal) := funext fun t => scoreK_coe X Wq Wk s t
  rw [h, wtE_coe]
  rfl

theorem wtH_coe (s t : Fin 4096) :
    wtE (scoreH (fun s d => (X s d : EReal)) (fun d q => (Wq d q : EReal)) (fun d q => (Wk d q : EReal)) s) t
      = ((wtR X Wq Wk s t : ℝ) : EReal) := by
  have h : scoreH (fun s d => (X s d : EReal)) (fun d q => (Wq d q : EReal)) (fun d q => (Wk d q : EReal)) s
      = fun t => ((scoreR X Wq Wk s t : ℝ) : EReal) := funext fun t => scoreH_coe X Wq Wk s t
  rw [h, wtE_coe]
  rfl

/-- The normaliser is a sum of exponentials over a nonempty index set: positive. -/
theorem denR_pos (s : Fin 4096) : 0 < denR X Wq Wk s :=
  Finset.sum_pos (fun t _ => Real.exp_pos _) Finset.univ_nonempty

/-- Normalising after the sum against `V`. -/
theorem attK_coe (s : Fin 4096) (v : Fin 64) :
    attK (fun s d => (X s d : EReal)) (fun d q => (Wq d q : EReal)) (fun d q => (Wk d q : EReal))
        (fun d q => (Wv d q : EReal)) s v
      = ((attR X Wq Wk Wv s v : ℝ) : EReal) := by
  unfold attK attR
  simp only [wtK_coe, projE_coe, ← EReal.coe_mul, coe_sum]
  change Ideal.div _ ((denR X Wq Wk s : ℝ) : EReal) = _
  rw [Ideal.div_coe (denR_pos X Wq Wk s).ne', ← EReal.coe_mul, mul_one_div]

/-- Normalising each weight before the sum against `V`. -/
theorem attH_coe (s : Fin 4096) (v : Fin 64) :
    attH (fun s d => (X s d : EReal)) (fun d q => (Wq d q : EReal)) (fun d q => (Wk d q : EReal))
        (fun d q => (Wv d q : EReal)) s v
      = ((attR X Wq Wk Wv s v : ℝ) : EReal) := by
  unfold attH attR
  simp only [wtH_coe, projE_coe, coe_sum]
  change ∑ t : Fin 4096, Ideal.div _ ((denR X Wq Wk s : ℝ) : EReal) * _ = _
  rw [Finset.sum_div, ← coe_sum]
  refine Finset.sum_congr rfl fun t _ => ?_
  rw [Ideal.div_coe (denR_pos X Wq Wk s).ne', ← EReal.coe_mul, ← EReal.coe_mul]
  congr 1
  ring

end Stage

/-- ELU on a real argument is real: the sign test and the exponential both pass through the coercion. -/
theorem eluE_coe (h : ℝ) : eluE (h : EReal) = ((eluR h : ℝ) : EReal) := by
  unfold eluE eluR
  by_cases hp : 0 < h
  · rw [if_pos (EReal.coe_pos.mpr hp), if_pos hp]
  · rw [if_neg (mt EReal.coe_pos.mp hp), if_neg hp, Ideal.exp_coe, EReal.coe_sub, EReal.coe_one]

/-- The MLP on a real row with real parameters is real. -/
theorem mlpE_coe (a : Fin 64 → ℝ) (W1 : Fin 256 → Fin 64 → ℝ) (b1 : Fin 256 → ℝ)
    (W2 : Fin 64 → Fin 256 → ℝ) (b2 : Fin 64 → ℝ) (o : Fin 64) :
    mlpE (fun v => (a v : EReal)) (fun j v => (W1 j v : EReal)) (fun j => (b1 j : EReal))
        (fun o j => (W2 o j : EReal)) (fun o => (b2 o : EReal)) o
      = (((∑ j : Fin 256, eluR ((∑ v : Fin 64, a v * W1 j v) + b1 j) * W2 o j) + b2 o : ℝ) : EReal) := by
  unfold mlpE
  simp only [← EReal.coe_mul, coe_sum, ← EReal.coe_add, eluE_coe]

/-! ## The two spellings agree with the real stage -/

theorem stageK_coe (X : Fin 4096 → Fin 64 → ℝ) (Wq Wk Wv : Fin 64 → Fin 64 → ℝ) (W1 : Fin 256 → Fin 64 → ℝ) (b1 : Fin 256 → ℝ)
    (W2 : Fin 64 → Fin 256 → ℝ) (b2 : Fin 64 → ℝ) (s : Fin 4096) (o : Fin 64) :
    stageK (fun s d => (X s d : EReal)) (fun d q => (Wq d q : EReal)) (fun d q => (Wk d q : EReal)) (fun d q => (Wv d q : EReal))
      (fun j v => (W1 j v : EReal)) (fun j => (b1 j : EReal)) (fun o j => (W2 o j : EReal)) (fun o => (b2 o : EReal)) s o
    = ((stageR X Wq Wk Wv W1 b1 W2 b2 s o : ℝ) : EReal) := by
  unfold stageK
  have h : attK (fun s d => (X s d : EReal)) (fun d q => (Wq d q : EReal)) (fun d q => (Wk d q : EReal))
      (fun d q => (Wv d q : EReal)) s = fun v => ((attR X Wq Wk Wv s v : ℝ) : EReal) :=
    funext fun v => attK_coe X Wq Wk Wv s v
  rw [h, mlpE_coe]
  rfl

theorem stageH_coe (X : Fin 4096 → Fin 64 → ℝ) (Wq Wk Wv : Fin 64 → Fin 64 → ℝ) (W1 : Fin 256 → Fin 64 → ℝ) (b1 : Fin 256 → ℝ)
    (W2 : Fin 64 → Fin 256 → ℝ) (b2 : Fin 64 → ℝ) (s : Fin 4096) (o : Fin 64) :
    stageH (fun s d => (X s d : EReal)) (fun d q => (Wq d q : EReal)) (fun d q => (Wk d q : EReal)) (fun d q => (Wv d q : EReal))
      (fun j v => (W1 j v : EReal)) (fun j => (b1 j : EReal)) (fun o j => (W2 o j : EReal)) (fun o => (b2 o : EReal)) s o
    = ((stageR X Wq Wk Wv W1 b1 W2 b2 s o : ℝ) : EReal) := by
  unfold stageH
  have h : attH (fun s d => (X s d : EReal)) (fun d q => (Wq d q : EReal)) (fun d q => (Wk d q : EReal))
      (fun d q => (Wv d q : EReal)) s = fun v => ((attR X Wq Wk Wv s v : ℝ) : EReal) :=
    funext fun v => attH_coe X Wq Wk Wv s v
  rw [h, mlpE_coe]
  rfl

end Cert.Spec

end
-- ==== Proof.Model.lean ====
/-
  The whole program over the reals: the stage of Proof/Spec.lean applied to each batch's slab of a
  [4, 4096, 64] array, twice, with the second stage's parameters. Both programs' results are the coercion of
  this function of real-valued arguments.
-/
import proofs.«405560_j29480655519796_3_alg».proof.Proof.Spec
import Idealize.ShloMosaic.Lib.ValueIdx

noncomputable section

namespace Cert.Model

open Idealize.ShloMosaic Idealize.ShloMosaic.ValueIdx Cert.Spec

/-- Index types of the arrays in play, as literal shapes. -/
abbrev I3 := (⟨3, ![4, 4096, 64]⟩ : Shape).Idx
abbrev Iqq := (⟨2, ![64, 64]⟩ : Shape).Idx
abbrev Ihv := (⟨2, ![256, 64]⟩ : Shape).Idx
abbrev Ioh := (⟨2, ![64, 256]⟩ : Shape).Idx
abbrev Ih := (⟨1, ![256]⟩ : Shape).Idx
abbrev Io := (⟨1, ![64]⟩ : Shape).Idx

/-- One stage on a batched array: entry (b, s, o) is the stage of batch b's slab at (s, o). -/
def stage3 (x : I3 → ℝ) (wq wk wv : Iqq → ℝ) (w1 : Ihv → ℝ) (b1 : Ih → ℝ) (w2 : Ioh → ℝ) (b2 : Io → ℝ) : I3 → ℝ :=
  fun i => stageR (fun s d => x (ix3 (i 0) s d)) (fun d q => wq (ix2 d q)) (fun d q => wk (ix2 d q)) (fun d q => wv (ix2 d q))
    (fun j v => w1 (ix2 j v)) (fun j => b1 (ix1 j)) (fun o j => w2 (ix2 o j)) (fun o => b2 (ix1 o)) (i 1) (i 2)

/-- The program: two stages, the second on the first's result. -/
def outR (x : I3 → ℝ) (q k v q1 k1 v1 : Iqq → ℝ) (W1 : Ihv → ℝ) (b1 : Ih → ℝ) (W2 : Ioh → ℝ) (b2 : Io → ℝ)
    (W11 : Ihv → ℝ) (b11 : Ih → ℝ) (W22 : Ioh → ℝ) (b22 : Io → ℝ) : I3 → ℝ :=
  stage3 (stage3 x q k v W1 b1 W2 b2) q1 k1 v1 W11 b11 W22 b22

/-- An array of extended reals whose every entry is a real is the coercion of an array of reals. -/
theorem exists_real {ι : Type} (a : ι → EReal) (h : ∀ i, ∃ r : ℝ, a i = (r : EReal)) :
    ∃ x : ι → ℝ, a = fun i => (x i : EReal) := by
  choose x hx using h
  exact ⟨x, funext hx⟩

end Cert.Model

end
-- ==== Proof.KernelSide.lean ====
/- The kernel program's result over the extended reals is the coercion of the real program. The region leaves in the
   output array, at entry (b, r, o), the kernel's two stages applied to the blocks staged at grid point b and read at
   (r, o). Each staged block is an argument array of the launch memory (the weights entry by entry, the key and value
   weights as the two halves of one block, each bias as one row), so when the fifteen arguments are coercions of real
   arrays both stages are stages at coerced reals, and a stage at coerced reals is the coercion of the real stage. -/
import proofs.«405560_j29480655519796_3_alg».proof.Proof.KI.Final
import proofs.«405560_j29480655519796_3_alg».proof.Proof.KI.BlockValue
import proofs.«405560_j29480655519796_3_alg».proof.Proof.KI.Host
import proofs.«405560_j29480655519796_3_alg».proof.Proof.Algebra
import proofs.«405560_j29480655519796_3_alg».proof.Proof.Model

noncomputable section

open Idealize.ShloMosaic Idealize.ShloMosaic.TcCoe Idealize.SL.Sem
open Idealize.ShloMosaic.ValueIdx

namespace Cert.KernelSide

open Cert.KernelIdeal Cert.KernelIdeal.Gen Cert.KernelIdeal.Val Cert.Spec

variable (m : (ℓ : Loc nD τ sig) → Buf (Elt Ideal) ℓ)

/-! ## A stage at coerced real arguments -/

/-- The kernel's stage at arguments that are coercions of real arrays is the coercion of the real stage. -/
theorem stageK_of_coe (X : Fin 4096 → Fin 64 → EReal) (Wq Wk Wv : Fin 64 → Fin 64 → EReal) (W1 : Fin 256 → Fin 64 → EReal)
    (b1 : Fin 256 → EReal) (W2 : Fin 64 → Fin 256 → EReal) (b2 : Fin 64 → EReal)
    (Xr : Fin 4096 → Fin 64 → ℝ) (Wqr Wkr Wvr : Fin 64 → Fin 64 → ℝ) (W1r : Fin 256 → Fin 64 → ℝ) (b1r : Fin 256 → ℝ)
    (W2r : Fin 64 → Fin 256 → ℝ) (b2r : Fin 64 → ℝ)
    (hX : X = fun s d => (Xr s d : EReal)) (hq : Wq = fun d q => (Wqr d q : EReal)) (hk : Wk = fun d q => (Wkr d q : EReal))
    (hv : Wv = fun d q => (Wvr d q : EReal)) (h1 : W1 = fun j v => (W1r j v : EReal)) (hb1 : b1 = fun j => (b1r j : EReal))
    (h2 : W2 = fun o j => (W2r o j : EReal)) (hb2 : b2 = fun o => (b2r o : EReal)) (s : Fin 4096) (o : Fin 64) :
    stageK X Wq Wk Wv W1 b1 W2 b2 s o = ((stageR Xr Wqr Wkr Wvr W1r b1r W2r b2r s o : ℝ) : EReal) := by
  subst hX hq hk hv h1 hb1 h2 hb2
  exact stageK_coe Xr Wqr Wkr Wvr W1r b1r W2r b2r s o

/-! ## The staged blocks as coercions of the real arguments -/

/-- The input's block at point `t` is the coercion of batch entry `t` of the real input. -/
theorem blk0_coe (c : Dev nD) (t : Fin cfg0.N) (x : Model.I3 → ℝ)
    (h0 : m ((c.tc : Thread nD τ).loc main_arg0) = fun i => (x i : EReal)) :
    (fun (s : Fin 4096) (d : Fin 64) => (iblk m c 0 t : S1x4096x64.Idx → EReal) (ix3 (0 : Fin 1) s d))
      = fun s d => ((x (ix3 ⟨t.val, t_lt t⟩ s d) : ℝ) : EReal) := by
  funext s d
  rw [iblk0_apply, h0]

/-- Window 1's block is the coercion of real argument 1. -/
theorem blk1_coe (c : Dev nD) (t : Fin cfg0.N) (w : (⟨2, ![64, 64]⟩ : Shape).Idx → ℝ)
    (h : m ((c.tc : Thread nD τ).loc main_arg1) = fun i => (w i : EReal)) :
    (fun (i : Fin 64) (j : Fin 64) => (iblk m c 1 t : S64x64.Idx → EReal) (ix2 i j)) = fun i j => ((w (ix2 i j) : ℝ) : EReal) := by
  funext i j
  rw [iblk1_apply, h]

/-- Window 3's block is the coercion of real argument 7. -/
theorem blk3_coe (c : Dev nD) (t : Fin cfg0.N) (w : (⟨2, ![256, 64]⟩ : Shape).Idx → ℝ)
    (h : m ((c.tc : Thread nD τ).loc main_arg7) = fun i => (w i : EReal)) :
    (fun (i : Fin 256) (j : Fin 64) => (iblk m c 3 t : S256x64.Idx → EReal) (ix2 i j)) = fun i j => ((w (ix2 i j) : ℝ) : EReal) := by
  funext i j
  rw [iblk3_apply, h]

/-- Window 5's block is the coercion of real argument 9. -/
theorem blk5_coe (c : Dev nD) (t : Fin cfg0.N) (w : (⟨2, ![64, 256]⟩ : Shape).Idx → ℝ)
    (h : m ((c.tc : Thread nD τ).loc main_arg9) = fun i => (w i : EReal)) :
    (fun (i : Fin 64) (j : Fin 256) => (iblk m c 5 t : S64x256.Idx → EReal) (ix2 i j)) = fun i j => ((w (ix2 i j) : ℝ) : EReal) := by
  funext i j
  rw [iblk5_apply, h]

/-- Window 7's block is the coercion of real argument 4. -/
theorem blk7_coe (c : Dev nD) (t : Fin cfg0.N) (w : (⟨2, ![64, 64]⟩ : Shape).Idx → ℝ)
    (h : m ((c.tc : Thread nD τ).loc main_arg4) = fun i => (w i : EReal)) :
    (fun (i : Fin 64) (j : Fin 64) => (iblk m c 7 t : S64x64.Idx → EReal) (ix2 i j)) = fun i j => ((w (ix2 i j) : ℝ) : EReal) := by
  funext i j
  rw [iblk7_apply, h]

/-- Window 9's block is the coercion of real argument 11. -/
theorem blk9_coe (c : Dev nD) (t : Fin cfg0.N) (w : (⟨2, ![256, 64]⟩ : Shape).Idx → ℝ)
    (h : m ((c.tc : Thread nD τ).loc main_arg11) = fun i => (w i : EReal)) :
    (fun (i : Fin 256) (j : Fin 64) => (iblk m c 9 t : S256x64.Idx → EReal) (ix2 i j)) = fun i j => ((w (ix2 i j) : ℝ) : EReal) := by
  funext i j
  rw [iblk9_apply, h]

/-- Window 11's block is the coercion of real argument 13. -/
theorem blk11_coe (c : Dev nD) (t : Fin cfg0.N) (w : (⟨2, ![64, 256]⟩ : Shape).Idx → ℝ)
    (h : m ((c.tc : Thread nD τ).loc main_arg13) = fun i => (w i : EReal)) :
    (fun (i : Fin 64) (j : Fin 256) => (iblk m c 11 t : S64x256.Idx → EReal) (ix2 i j)) = fun i j => ((w (ix2 i j) : ℝ) : EReal) := by
  funext i j
  rw [iblk11_apply, h]

/-- The first 64 columns of window 2's block are the coercion of real argument 2. -/
theorem blk2_left_coe (c : Dev nD) (t : Fin cfg0.N) (w : Model.Iqq → ℝ)
    (h : m ((c.tc : Thread nD τ).loc main_arg2) = fun i => (w i : EReal)) :
    (fun (d q : Fin 64) => (iblk m c 2 t : S64x128.Idx → EReal) (ix2 d ⟨q.val, by have := q.isLt; omega⟩)) = fun d q => ((w (ix2 d q) : ℝ) : EReal) := by
  funext d q
  rw [iblk2_apply, dif_pos (show (⟨q.val, by have := q.isLt; omega⟩ : Fin 128).val < 64 from q.isLt), h]

/-- The last 64 columns of window 2's block are the coercion of real argument 3. -/
theorem blk2_right_coe (c : Dev nD) (t : Fin cfg0.N) (w : Model.Iqq → ℝ)
    (h : m ((c.tc : Thread nD τ).loc main_arg3) = fun i => (w i : EReal)) :
    (fun (d v : Fin 64) => (iblk m c 2 t : S64x128.Idx → EReal) (ix2 d ⟨64 + v.val, by have := v.isLt; omega⟩)) = fun d v => ((w (ix2 d v) : ℝ) : EReal) := by
  funext d v
  rw [iblk2_apply, dif_neg (show ¬ (⟨64 + v.val, by have := v.isLt; omega⟩ : Fin 128).val < 64 from by show ¬ 64 + v.val < 64; omega), h]
  show ((w (ix2 d ⟨64 + v.val - 64, _⟩) : ℝ) : EReal) = _
  congr 3
  apply Fin.ext
  show 64 + v.val - 64 = v.val
  omega

/-- The first 64 columns of window 8's block are the coercion of real argument 5. -/
theorem blk8_left_coe (c : Dev nD) (t : Fin cfg0.N) (w : Model.Iqq → ℝ)
    (h : m ((c.tc : Thread nD τ).loc main_arg5) = fun i => (w i : EReal)) :
    (fun (d q : Fin 64) => (iblk m c 8 t : S64x128.Idx → EReal) (ix2 d ⟨q.val, by have := q.isLt; omega⟩)) = fun d q => ((w (ix2 d q) : ℝ) : EReal) := by
  funext d q
  rw [iblk8_apply, dif_pos (show (⟨q.val, by have := q.isLt; omega⟩ : Fin 128).val < 64 from q.isLt), h]

/-- The last 64 columns of window 8's block are the coercion of real argument 6. -/
theorem blk8_right_coe (c : Dev nD) (t : Fin cfg0.N) (w : Model.Iqq → ℝ)
    (h : m ((c.tc : Thread nD τ).loc main_arg6) = fun i => (w i : EReal)) :
    (fun (d v : Fin 64) => (iblk m c 8 t : S64x128.Idx → EReal) (ix2 d ⟨64 + v.val, by have := v.isLt; omega⟩)) = fun d v => ((w (ix2 d v) : ℝ) : EReal) := by
  funext d v
  rw [iblk8_apply, dif_neg (show ¬ (⟨64 + v.val, by have := v.isLt; omega⟩ : Fin 128).val < 64 from by show ¬ 64 + v.val < 64; omega), h]
  show ((w (ix2 d ⟨64 + v.val - 64, _⟩) : ℝ) : EReal) = _
  congr 3
  apply Fin.ext
  show 64 + v.val - 64 = v.val
  omega

/-- Window 4's one row is the coercion of real argument 8. -/
theorem blk4_coe (c : Dev nD) (t : Fin cfg0.N) (b : Model.Ih → ℝ)
    (h : m ((c.tc : Thread nD τ).loc main_arg8) = fun i => (b i : EReal)) :
    (fun (j : Fin 256) => (iblk m c 4 t : S1x256.Idx → EReal) (ix2 (0 : Fin 1) j)) = fun j => ((b (ix1 j) : ℝ) : EReal) := by
  funext j
  rw [iblk4_apply, h]

/-- Window 6's one row is the coercion of real argument 10. -/
theorem blk6_coe (c : Dev nD) (t : Fin cfg0.N) (b : Model.Io → ℝ)
    (h : m ((c.tc : Thread nD τ).loc main_arg10) = fun i => (b i : EReal)) :
    (fun (j : Fin 64) => (iblk m c 6 t : S1x64.Idx → EReal) (ix2 (0 : Fin 1) j)) = fun j => ((b (ix1 j) : ℝ) : EReal) := by
  funext j
  rw [iblk6_apply, h]

/-- Window 10's one row is the coercion of real argument 12. -/
theorem blk10_coe (c : Dev nD) (t : Fin cfg0.N) (b : Model.Ih → ℝ)
    (h : m ((c.tc : Thread nD τ).loc main_arg12) = fun i => (b i : EReal)) :
    (fun (j : Fin 256) => (iblk m c 10 t : S1x256.Idx → EReal) (ix2 (0 : Fin 1) j)) = fun j => ((b (ix1 j) : ℝ) : EReal) := by
  funext j
  rw [iblk10_apply, h]

/-- Window 12's one row is the coercion of real argument 14. -/
theorem blk12_coe (c : Dev nD) (t : Fin cfg0.N) (b : Model.Io → ℝ)
    (h : m ((c.tc : Thread nD τ).loc main_arg14) = fun i => (b i : EReal)) :
    (fun (j : Fin 64) => (iblk m c 12 t : S1x64.Idx → EReal) (ix2 (0 : Fin 1) j)) = fun j => ((b (ix1 j) : ℝ) : EReal) := by
  funext j
  rw [iblk12_apply, h]

/-! ## The two stages on the staged blocks -/

/-- The kernel's two stages on the blocks staged at point `t`, read at row `r`, column `o`, are the coercion of the real
    program's entry `(t, r, o)`. -/
theorem stages_coe (c : Dev nD) (t : Fin cfg0.N) (x : Model.I3 → ℝ) (q k v q1 k1 v1 : Model.Iqq → ℝ) (W1 : Model.Ihv → ℝ) (b1 : Model.Ih → ℝ) (W2 : Model.Ioh → ℝ) (b2 : Model.Io → ℝ)
    (W11 : Model.Ihv → ℝ) (b11 : Model.Ih → ℝ) (W22 : Model.Ioh → ℝ) (b22 : Model.Io → ℝ)
    (h0 : m ((c.tc : Thread nD τ).loc main_arg0) = fun i => (x i : EReal))
    (h1 : m ((c.tc : Thread nD τ).loc main_arg1) = fun i => (q i : EReal))
    (h2 : m ((c.tc : Thread nD τ).loc main_arg2) = fun i => (k i : EReal))
    (h3 : m ((c.tc : Thread nD τ).loc main_arg3) = fun i => (v i : EReal))
    (h4 : m ((c.tc : Thread nD τ).loc main_arg4) = fun i => (q1 i : EReal))
    (h5 : m ((c.tc : Thread nD τ).loc main_arg5) = fun i => (k1 i : EReal))
    (h6 : m ((c.tc : Thread nD τ).loc main_arg6) = fun i => (v1 i : EReal))
    (h7 : m ((c.tc : Thread nD τ).loc main_arg7) = fun i => (W1 i : EReal))
    (h8 : m ((c.tc : Thread nD τ).loc main_arg8) = fun i => (b1 i : EReal))
    (h9 : m ((c.tc : Thread nD τ).loc main_arg9) = fun i => (W2 i : EReal))
    (h10 : m ((c.tc : Thread nD τ).loc main_arg10) = fun i => (b2 i : EReal))
    (h11 : m ((c.tc : Thread nD τ).loc main_arg11) = fun i => (W11 i : EReal))
    (h12 : m ((c.tc : Thread nD τ).loc main_arg12) = fun i => (b11 i : EReal))
    (h13 : m ((c.tc : Thread nD τ).loc main_arg13) = fun i => (W22 i : EReal))
    (h14 : m ((c.tc : Thread nD τ).loc main_arg14) = fun i => (b22 i : EReal))
    (r : Fin 4096) (o : Fin 64) :
    stageK
      (stageK (fun s d => (iblk m c 0 t : S1x4096x64.Idx → EReal) (ix3 (0 : Fin 1) s d)) (fun d q => (iblk m c 1 t : S64x64.Idx → EReal) (ix2 d q)) (fun d q => (iblk m c 2 t : S64x128.Idx → EReal) (ix2 d (⟨q.val, by omega⟩ : Fin 128))) (fun d v => (iblk m c 2 t : S64x128.Idx → EReal) (ix2 d (⟨64 + v.val, by omega⟩ : Fin 128)))
        (fun j v => (iblk m c 3 t : S256x64.Idx → EReal) (ix2 j v)) (fun j => (iblk m c 4 t : S1x256.Idx → EReal) (ix2 (0 : Fin 1) j)) (fun o j => (iblk m c 5 t : S64x256.Idx → EReal) (ix2 o j)) (fun o => (iblk m c 6 t : S1x64.Idx → EReal) (ix2 (0 : Fin 1) o)))
      (fun d q => (iblk m c 7 t : S64x64.Idx → EReal) (ix2 d q)) (fun d q => (iblk m c 8 t : S64x128.Idx → EReal) (ix2 d (⟨q.val, by omega⟩ : Fin 128))) (fun d v => (iblk m c 8 t : S64x128.Idx → EReal) (ix2 d (⟨64 + v.val, by omega⟩ : Fin 128)))
        (fun j v => (iblk m c 9 t : S256x64.Idx → EReal) (ix2 j v)) (fun j => (iblk m c 10 t : S1x256.Idx → EReal) (ix2 (0 : Fin 1) j)) (fun o j => (iblk m c 11 t : S64x256.Idx → EReal) (ix2 o j)) (fun o => (iblk m c 12 t : S1x64.Idx → EReal) (ix2 (0 : Fin 1) o)) r o
      = ((Model.outR x q k v q1 k1 v1 W1 b1 W2 b2 W11 b11 W22 b22 (ix3 ⟨t.val, t_lt t⟩ r o) : ℝ) : EReal) := by
  refine (stageK_of_coe (Xr := fun s d => stageR (fun s d => x (ix3 ⟨t.val, t_lt t⟩ s d)) (fun d q' => q (ix2 d q'))
      (fun d q' => k (ix2 d q')) (fun d q' => v (ix2 d q')) (fun j v' => W1 (ix2 j v')) (fun j => b1 (ix1 j)) (fun o j => W2 (ix2 o j))
      (fun o => b2 (ix1 o)) s d) _ _ _ _ _ _ _ _ _ _ _ _ _ _ _ ?_ (blk7_coe m c t q1 h4) (blk8_left_coe m c t k1 h5) (blk8_right_coe m c t v1 h6)
    (blk9_coe m c t W11 h11) (blk10_coe m c t b11 h12) (blk11_coe m c t W22 h13) (blk12_coe m c t b22 h14) r o).trans ?_
  · exact funext fun s => funext fun d => stageK_of_coe _ _ _ _ _ _ _ _ _ _ _ _ _ _ _ _ (blk0_coe m c t x h0) (blk1_coe m c t q h1)
      (blk2_left_coe m c t k h2) (blk2_right_coe m c t v h3) (blk3_coe m c t W1 h7) (blk4_coe m c t b1 h8) (blk5_coe m c t W2 h9)
      (blk6_coe m c t b2 h10) s d
  · rfl

/-! ## The output array -/

/-- The array the kernel's region leaves in the output is, entry by entry, the coercion of the real program: entry
    `(b, r, o)` is the two stages on the blocks staged at point `b`, read at `(r, o)`. -/
theorem outArr_coe (c : Dev nD) (x : Model.I3 → ℝ) (q k v q1 k1 v1 : Model.Iqq → ℝ) (W1 : Model.Ihv → ℝ) (b1 : Model.Ih → ℝ) (W2 : Model.Ioh → ℝ) (b2 : Model.Io → ℝ)
    (W11 : Model.Ihv → ℝ) (b11 : Model.Ih → ℝ) (W22 : Model.Ioh → ℝ) (b22 : Model.Io → ℝ)
    (h0 : m ((c.tc : Thread nD τ).loc main_arg0) = fun i => (x i : EReal))
    (h1 : m ((c.tc : Thread nD τ).loc main_arg1) = fun i => (q i : EReal))
    (h2 : m ((c.tc : Thread nD τ).loc main_arg2) = fun i => (k i : EReal))
    (h3 : m ((c.tc : Thread nD τ).loc main_arg3) = fun i => (v i : EReal))
    (h4 : m ((c.tc : Thread nD τ).loc main_arg4) = fun i => (q1 i : EReal))
    (h5 : m ((c.tc : Thread nD τ).loc main_arg5) = fun i => (k1 i : EReal))
    (h6 : m ((c.tc : Thread nD τ).loc main_arg6) = fun i => (v1 i : EReal))
    (h7 : m ((c.tc : Thread nD τ).loc main_arg7) = fun i => (W1 i : EReal))
    (h8 : m ((c.tc : Thread nD τ).loc main_arg8) = fun i => (b1 i : EReal))
    (h9 : m ((c.tc : Thread nD τ).loc main_arg9) = fun i => (W2 i : EReal))
    (h10 : m ((c.tc : Thread nD τ).loc main_arg10) = fun i => (b2 i : EReal))
    (h11 : m ((c.tc : Thread nD τ).loc main_arg11) = fun i => (W11 i : EReal))
    (h12 : m ((c.tc : Thread nD τ).loc main_arg12) = fun i => (b11 i : EReal))
    (h13 : m ((c.tc : Thread nD τ).loc main_arg13) = fun i => (W22 i : EReal))
    (h14 : m ((c.tc : Thread nD τ).loc main_arg14) = fun i => (b22 i : EReal)) :
    Val.outArr m c = fun i => ((Model.outR x q k v q1 k1 v1 W1 b1 W2 b2 W11 b11 W22 b22 i : ℝ) : EReal) := by
  funext i
  unfold Val.outArr
  refine (bodyOut_apply _ _ _ _ _ _ _ _ _ _ _ _ _ (i 1) (i 2)).trans ?_
  refine (stages_coe m c ⟨(i 0).val, Val.i0_lt i⟩ x q k v q1 k1 v1 W1 b1 W2 b2 W11 b11 W22 b22 h0 h1 h2 h3 h4 h5 h6 h7 h8 h9 h10 h11 h12 h13 h14 (i 1) (i 2)).trans ?_
  exact congrArg (fun j => ((Model.outR x q k v q1 k1 v1 W1 b1 W2 b2 W11 b11 W22 b22 j : ℝ) : EReal)) (eq_ix3 i).symm

/-! ## The kernel program's run -/

/-- From a launch memory whose fifteen arguments are coercions of real arrays, the kernel program runs, leaves the
    arguments as they were and the result at the coercion of the real program of those arrays. -/
theorem kernel_value (ρ : Dev nD → PrngReg) (x : Dev nD → Model.I3 → ℝ) (q k v q1 k1 v1 : Dev nD → Model.Iqq → ℝ) (W1 : Dev nD → Model.Ihv → ℝ) (b1 : Dev nD → Model.Ih → ℝ)
    (W2 : Dev nD → Model.Ioh → ℝ) (b2 : Dev nD → Model.Io → ℝ) (W11 : Dev nD → Model.Ihv → ℝ) (b11 : Dev nD → Model.Ih → ℝ)
    (W22 : Dev nD → Model.Ioh → ℝ) (b22 : Dev nD → Model.Io → ℝ)
    (h0 : ∀ c : Dev nD, m ((c.tc : Thread nD τ).loc main_arg0) = fun i => (x c i : EReal))
    (h1 : ∀ c : Dev nD, m ((c.tc : Thread nD τ).loc main_arg1) = fun i => (q c i : EReal))
    (h2 : ∀ c : Dev nD, m ((c.tc : Thread nD τ).loc main_arg2) = fun i => (k c i : EReal))
    (h3 : ∀ c : Dev nD, m ((c.tc : Thread nD τ).loc main_arg3) = fun i => (v c i : EReal))
    (h4 : ∀ c : Dev nD, m ((c.tc : Thread nD τ).loc main_arg4) = fun i => (q1 c i : EReal))
    (h5 : ∀ c : Dev nD, m ((c.tc : Thread nD τ).loc main_arg5) = fun i => (k1 c i : EReal))
    (h6 : ∀ c : Dev nD, m ((c.tc : Thread nD τ).loc main_arg6) = fun i => (v1 c i : EReal))
    (h7 : ∀ c : Dev nD, m ((c.tc : Thread nD τ).loc main_arg7) = fun i => (W1 c i : EReal))
    (h8 : ∀ c : Dev nD, m ((c.tc : Thread nD τ).loc main_arg8) = fun i => (b1 c i : EReal))
    (h9 : ∀ c : Dev nD, m ((c.tc : Thread nD τ).loc main_arg9) = fun i => (W2 c i : EReal))
    (h10 : ∀ c : Dev nD, m ((c.tc : Thread nD τ).loc main_arg10) = fun i => (b2 c i : EReal))
    (h11 : ∀ c : Dev nD, m ((c.tc : Thread nD τ).loc main_arg11) = fun i => (W11 c i : EReal))
    (h12 : ∀ c : Dev nD, m ((c.tc : Thread nD τ).loc main_arg12) = fun i => (b11 c i : EReal))
    (h13 : ∀ c : Dev nD, m ((c.tc : Thread nD τ).loc main_arg13) = fun i => (W22 c i : EReal))
    (h14 : ∀ c : Dev nD, m ((c.tc : Thread nD τ).loc main_arg14) = fun i => (b22 c i : EReal)) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
      r.2.mem ((c.tc : Thread nD τ).loc main_v14)
        = (fun i => ((Model.outR (x c) (q c) (k c) (v c) (q1 c) (k1 c) (v1 c) (W1 c) (b1 c) (W2 c) (b2 c) (W11 c) (b11 c) (W22 c) (b22 c) i : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono
    (fun r h c => ⟨(h c).1.trans (outArr_coe m c (x c) (q c) (k c) (v c) (q1 c) (k1 c) (v1 c) (W1 c) (b1 c) (W2 c) (b2 c) (W11 c) (b11 c)
      (W22 c) (b22 c) (h0 c) (h1 c) (h2 c) (h3 c) (h4 c) (h5 c) (h6 c) (h7 c) (h8 c) (h9 c) (h10 c) (h11 c) (h12 c) (h13 c) (h14 c)), (h c).2⟩)
    (Val.run_value m ρ)

end Cert.KernelSide

end
-- ==== Proof.LibSsa.lean ====
/-
  Straight-line host programs read in single-assignment form.

  A host program is a list of operations, each of which overwrites one buffer with a function of the contents of
  other buffers; `after ops V` is the fold of those overwrites over starting contents `V`. When every buffer is
  written at most once, and only after the last time an earlier operation has read or written it, the final contents
  satisfy one EQUATION per operation: the buffer an operation writes ends at the operation's function of the FINAL
  contents of the buffers it reads. The lemmas below prove that equation for each kind of operation from two facts
  about the list that are decided by inspection of the buffers' names: the buffer written at position `k` is not
  written again later, and the buffers read at position `k` are not written at position `k` or later.
-/
import Idealize.ShloMosaic.Lib.StableHlo.Run

noncomputable section

namespace Idealize.ShloMosaic.StableHlo.Ssa

open Idealize.ShloMosaic Idealize.ShloMosaic.StableHlo

variable {τ : Topo} {sig : RefSig} {Val : EltTy → Type}

/-- Running two lines one after the other folds the second over what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- `W` names, operation by operation, the one buffer each operation of the line writes. -/
def WritesOnly : List (HloOp τ sig Val) → List (Ref sig .tc) → Prop
  | [], [] => True
  | op :: ops, w :: W => op.writes = {Proc.devRef .tc w} ∧ WritesOnly ops W
  | [], _ :: _ => False
  | _ :: _, [] => False

theorem WritesOnly.drop : ∀ (k : Nat) (ops : List (HloOp τ sig Val)) (W : List (Ref sig .tc)),
    WritesOnly ops W → WritesOnly (ops.drop k) (W.drop k)
  | 0, _, _, h => h
  | _ + 1, [], [], _ => trivial
  | k + 1, _ :: ops, _ :: W, h => WritesOnly.drop k ops W h.2
  | _ + 1, [], _ :: _, h => h.elim
  | _ + 1, _ :: _, [], h => h.elim

/-- A buffer whose name is not among the written ones keeps its contents through the line. -/
theorem after_of_not_written : ∀ (ops : List (HloOp τ sig Val)) (W : List (Ref sig .tc)) (V : Valuation τ sig Val)
    (r : Ref sig .tc), WritesOnly ops W → r ∉ W → after ops V (Proc.devRef .tc r) = V (Proc.devRef .tc r)
  | [], [], _, _, _, _ => rfl
  | op :: ops, w :: W, V, r, h, hr => by
    have hrw : r ≠ w := fun e => hr (e ▸ List.mem_cons_self)
    have hrW : r ∉ W := fun e => hr (List.mem_cons_of_mem _ e)
    rw [after_cons, after_of_not_written ops W _ r h.2 hrW, op.result_of_not_mem V]
    rw [h.1, Finset.mem_singleton]
    exact devRef_ne_of_ne hrw
  | [], _ :: _, _, _, h, _ => h.elim
  | _ :: _, [], _, _, h, _ => h.elim

variable (ops : List (HloOp τ sig Val)) (W : List (Ref sig .tc)) (hW : WritesOnly ops W) (V : Valuation τ sig Val)
include hW

/-- The buffer written at position `k` and never again ends at that operation's result over the contents the
    first `k` operations leave. -/
theorem after_at (k : Nat) (op : HloOp τ sig Val) (y : Ref sig .tc)
    (hop : ops.drop k = op :: ops.drop (k + 1)) (hy : y ∉ W.drop (k + 1)) :
    after ops V (Proc.devRef .tc y) = op.result (after (ops.take k) V) (Proc.devRef .tc y) := by
  conv_lhs => rw [← List.take_append_drop k ops, after_append, hop, after_cons]
  exact after_of_not_written _ _ _ y (hW.drop (k + 1)) hy

/-- A buffer not written at position `k` or later already has its final contents after the first `k` operations. -/
theorem after_take (k : Nat) (x : Ref sig .tc) (hx : x ∉ W.drop k) :
    after (ops.take k) V (Proc.devRef .tc x) = after ops V (Proc.devRef .tc x) := by
  conv_rhs => rw [← List.take_append_drop k ops, after_append]
  exact (after_of_not_written _ _ _ x (hW.drop k) hx).symm

/-- A buffer no operation writes keeps its starting contents. -/
theorem after_arg (x : Ref sig .tc) (hx : x ∉ W) : after ops V (Proc.devRef .tc x) = V (Proc.devRef .tc x) :=
  after_of_not_written ops W V x hW hx

theorem ssa_nullary (k : Nat) (y : Ref sig .tc) (v : y.ty.Contents Val) (hy)
    (hop : ops.drop k = nullary y v hy :: ops.drop (k + 1)) (hy' : y ∉ W.drop (k + 1)) :
    after ops V (Proc.devRef .tc y) = v := by
  rw [after_at ops W hW V k _ y hop hy']; exact nullary_result y v hy _

theorem ssa_unary (k : Nat) (x y : Ref sig .tc) (f : x.ty.Contents Val → y.ty.Contents Val) (hx hy)
    (hop : ops.drop k = unary x y f hx hy :: ops.drop (k + 1)) (hy' : y ∉ W.drop (k + 1)) (hx' : x ∉ W.drop k) :
    after ops V (Proc.devRef .tc y) = f (after ops V (Proc.devRef .tc x)) := by
  rw [after_at ops W hW V k _ y hop hy', ← after_take ops W hW V k x hx']; exact unary_result x y f hx hy _

theorem ssa_binary (k : Nat) (a b y : Ref sig .tc) (f : a.ty.Contents Val → b.ty.Contents Val → y.ty.Contents Val) (ha hb hy)
    (hop : ops.drop k = binary a b y f ha hb hy :: ops.drop (k + 1)) (hy' : y ∉ W.drop (k + 1))
    (ha' : a ∉ W.drop k) (hb' : b ∉ W.drop k) :
    after ops V (Proc.devRef .tc y) = f (after ops V (Proc.devRef .tc a)) (after ops V (Proc.devRef .tc b)) := by
  rw [after_at ops W hW V k _ y hop hy', ← after_take ops W hW V k a ha', ← after_take ops W hW V k b hb']
  exact binary_result a b y f ha hb hy _

theorem ssa_ternary (k : Nat) (c a b y : Ref sig .tc)
    (f : c.ty.Contents Val → a.ty.Contents Val → b.ty.Contents Val → y.ty.Contents Val) (hc ha hb hy)
    (hop : ops.drop k = ternary c a b y f hc ha hb hy :: ops.drop (k + 1)) (hy' : y ∉ W.drop (k + 1))
    (hc' : c ∉ W.drop k) (ha' : a ∉ W.drop k) (hb' : b ∉ W.drop k) :
    after ops V (Proc.devRef .tc y)
      = f (after ops V (Proc.devRef .tc c)) (after ops V (Proc.devRef .tc a)) (after ops V (Proc.devRef .tc b)) := by
  rw [after_at ops W hW V k _ y hop hy', ← after_take ops W hW V k c hc', ← after_take ops W hW V k a ha',
    ← after_take ops W hW V k b hb']
  exact ternary_result c a b y f hc ha hb hy _

theorem ssa_reshape (k : Nat) (x y : Ref sig .tc) (he : x.ty.elt = y.ty.elt) (hn : x.ty.shape.ShapeCasts y.ty.shape) (hx hy)
    (hop : ops.drop k = reshape (Val := Val) x y he hn hx hy :: ops.drop (k + 1)) (hy' : y ∉ W.drop (k + 1))
    (hx' : x ∉ W.drop k) :
    after ops V (Proc.devRef .tc y) = fun i => he ▸ shapeCast y.ty.shape (after ops V (Proc.devRef .tc x)) hn i := by
  rw [after_at ops W hW V k _ y hop hy', ← after_take ops W hW V k x hx']; exact reshape_result x y he hn hx hy _

theorem ssa_nary (k : Nat) {n : Nat} (xs : Fin n → Ref sig .tc) (y : Ref sig .tc)
    (f : ((j : Fin n) → (xs j).ty.Contents Val) → y.ty.Contents Val) (hxs hy)
    (hop : ops.drop k = nary xs y f hxs hy :: ops.drop (k + 1)) (hy' : y ∉ W.drop (k + 1))
    (hxs' : ∀ j, xs j ∉ W.drop k) :
    after ops V (Proc.devRef .tc y) = f (fun j => after ops V (Proc.devRef .tc (xs j))) := by
  rw [after_at ops W hW V k _ y hop hy', nary_result]
  exact congrArg f (funext fun j => after_take ops W hW V k (xs j) (hxs' j))

end Idealize.ShloMosaic.StableHlo.Ssa

end
-- ==== Proof.Ref.Stage.lean ====
/-
  One attention-and-MLP stage of the reference, as the composed term of its host operations, and that term read at
  an index.

  The reference runs two identical stages. Each is the chain

    Q = X·Wq,  K = X·Wk,  V = X·Wv,   S = (Q·Kᵀ) / √64,   m = max ⊥ (max_t S),   P = exp (S − m),
    D = 0 + Σ_t P,   A = (P / D)·V,   H = A·W1ᵀ + b1,   E = elu H,   out = E·W2ᵀ + b2,

  with ELU spelt as  select (H > 0) H (1 · expm1 (select (H > 0) 0 H)).  `refStage` is that chain over any float
  instance; at the extended reals, read at row `s` of batch `b`, it is the stage `Cert.Spec.stageH` of that batch.
-/
import proofs.«405560_j29480655519796_3_alg».proof.ReferenceIdeal
import proofs.«405560_j29480655519796_3_alg».proof.Proof.Spec
import proofs.«405560_j29480655519796_3_alg».proof.Proof.Consts
import Idealize.ShloMosaic.PureOps.Ideal.Laws
import Idealize.ShloMosaic.PureOps.Reduce
import Idealize.ShloMosaic.Lib.ValueIdx
import Idealize.ShloMosaic.Lib.IdealHost
import Idealize.ShloMosaic.Lib.Pipeline.Value

noncomputable section

namespace Cert.ReferenceIdeal.RefValue

open Idealize.ShloMosaic Idealize.ShloMosaic.ValueIdx
open Cert.ReferenceIdeal.Facts₀ Cert.ReferenceIdeal.Facts
open scoped BigOperators

section Term

variable {F : FTy → Type} [FloatOps F] [Facts]

/-- ELU of a block of pre-activations, as the reference spells it: `h` where `h > 0`, elsewhere
    `1 · expm1 (select (h > 0) 0 h)`. -/
def refElu (h : FVec F S4x4096x256 .f32) : FVec F S4x4096x256 .f32 :=
  let cst : FVec F S_ .f32 := constant S_ .f32 0x00000000#32
  let e0 : FVec F S4x4096x256 .f32 := broadcastInDim S4x4096x256 ![] bcast_S_S4x4096x256 cst
  let e1 : IVec S4x4096x256 1 := cmpf .ogt h e0
  let cst_0 : FVec F S_ .f32 := constant S_ .f32 0x00000000#32
  let e2 : FVec F S4x4096x256 .f32 := broadcastInDim S4x4096x256 ![] bcast_S_S4x4096x256 cst_0
  let e3 : IVec S4x4096x256 1 := cmpf .ogt h e2
  let cst_1 : FVec F S_ .f32 := constant S_ .f32 0x00000000#32
  let w0 : FVec F S_ .f32 := id cst_1
  let w1 : FVec F S4x4096x256 .f32 := broadcastInDim S4x4096x256 ![] bcast_S_S4x4096x256 w0
  let e4 : FVec F S4x4096x256 .f32 := select e3 w1 h
  let e5 : FVec F S4x4096x256 .f32 := Host.expm1 e4
  let cst_2 : FVec F S_ .f32 := constant S_ .f32 0x3F800000#32
  let e6 : FVec F S4x4096x256 .f32 := broadcastInDim S4x4096x256 ![] bcast_S_S4x4096x256 cst_2
  let e7 : FVec F S4x4096x256 .f32 := mulf e6 e5
  select e1 h e7

/-- One stage: the host operations in program order. -/
def refStage (x : FVec F S4x4096x64 .f32) (wq wk wv : FVec F S64x64 .f32) (w1 : FVec F S256x64 .f32)
    (b1 : FVec F S256 .f32) (w2 : FVec F S64x256 .f32) (b2 : FVec F S64 .f32) : FVec F S4x4096x64 .f32 :=
  let v0 : FVec F S4x4096x64 .f32 := Host.dotGeneral dot_S4x4096x64_S64x64_S4x4096x64_2_0_01_1_n_n none x wq
  let v1 : FVec F S4x4096x64 .f32 := Host.dotGeneral dot_S4x4096x64_S64x64_S4x4096x64_2_0_01_1_n_n none x wk
  let v2 : FVec F S4x4096x64 .f32 := Host.dotGeneral dot_S4x4096x64_S64x64_S4x4096x64_2_0_01_1_n_n none x wv
  let v3 : FVec F S4x4096x4096 .f32 := Host.dotGeneral dot_S4x4096x64_S4x4096x64_S4x4096x4096_2_2_1_1_0_0 none v0 v1
  let cst : FVec F S_ .f32 := constant S_ .f32 0x42800000#32
  let v4 : FVec F S_ .f32 := Host.sqrt cst
  let v5 : FVec F S4x4096x4096 .f32 := broadcastInDim S4x4096x4096 ![] bcast_S_S4x4096x4096 v4
  let v6 : FVec F S4x4096x4096 .f32 := Host.divf v3 v5
  let cst_0 : FVec F S_ .f32 := constant S_ .f32 0xFF800000#32
  let v7 : FVec F S4x4096 .f32 := Host.reduce FloatOps.maximumf v6 cst_0 reducesTo_S4x4096x4096_S4x4096_d2 h_S_
  let cst_1 : FVec F S_ .f32 := constant S_ .f32 0xFF800000#32
  let v8 : FVec F S4x4096 .f32 := broadcastInDim S4x4096 ![] bcast_S_S4x4096 cst_1
  let v9 : FVec F S4x4096 .f32 := maximumf v8 v7
  let v10 : FVec F S4x4096x1 .f32 := broadcastInDim S4x4096x1 ![0, 1] bcast_S4x4096_S4x4096x1_0_1 v9
  let v11 : FVec F S4x4096x4096 .f32 := broadcastInDim S4x4096x4096 ![0, 1, 2] bcast_S4x4096x1_S4x4096x4096_0_1_2 v10
  let v12 : FVec F S4x4096x4096 .f32 := subf v6 v11
  let v13 : FVec F S4x4096x4096 .f32 := Host.exp v12
  let cst_2 : FVec F S_ .f32 := constant S_ .f32 0x00000000#32
  let v14 : FVec F S4x4096 .f32 := Host.reduceAdd v13 cst_2 reducesTo_S4x4096x4096_S4x4096_d2 h_S_
  let v15 : FVec F S4x4096x1 .f32 := broadcastInDim S4x4096x1 ![0, 1] bcast_S4x4096_S4x4096x1_0_1 v14
  let v16 : FVec F S4x4096x4096 .f32 := broadcastInDim S4x4096x4096 ![0, 1, 2] bcast_S4x4096x1_S4x4096x4096_0_1_2 v15
  let v17 : FVec F S4x4096x4096 .f32 := Host.divf v13 v16
  let v18 : FVec F S4x4096x64 .f32 := Host.dotGeneral dot_S4x4096x4096_S4x4096x64_S4x4096x64_2_1_1_2_0_0 none v17 v2
  let v19 : FVec F S4x4096x256 .f32 := Host.dotGeneral dot_S4x4096x64_S256x64_S4x4096x256_2_1_01_0_n_n none v18 w1
  let v20 : FVec F S1x1x256 .f32 := broadcastInDim S1x1x256 ![2] bcast_S256_S1x1x256_2 b1
  let v21 : FVec F S4x4096x256 .f32 := broadcastInDim S4x4096x256 ![0, 1, 2] bcast_S1x1x256_S4x4096x256_0_1_2 v20
  let v22 : FVec F S4x4096x256 .f32 := addf v19 v21
  let v23 : FVec F S4x4096x256 .f32 := refElu v22
  let v24 : FVec F S4x4096x64 .f32 := Host.dotGeneral dot_S4x4096x256_S64x256_S4x4096x64_2_1_01_0_n_n none v23 w2
  let v25 : FVec F S1x1x64 .f32 := broadcastInDim S1x1x64 ![2] bcast_S64_S1x1x64_2 b2
  let v26 : FVec F S4x4096x64 .f32 := broadcastInDim S4x4096x64 ![0, 1, 2] bcast_S1x1x64_S4x4096x64_0_1_2 v25
  addf v24 v26

end Term

section Composition
variable {F : FTy → Type} [FloatOps F] [Facts]

/-- The ELU's operations as the program states them, composed in order over its operand, are `refElu`. -/
example (h : FVec F S4x4096x256 .f32) :
    (
  let c_cst : (⟨S_, .f32⟩ : BufTy).Contents (Elt F) := ((constant S_ .f32 0x00000000#32))
  let c_v0 : (⟨S4x4096x256, .f32⟩ : BufTy).Contents (Elt F) := ((broadcastInDim S4x4096x256 ![] bcast_S_S4x4096x256)) c_cst
  let c_v1 : (⟨S4x4096x256, .i1⟩ : BufTy).Contents (Elt F) := ((cmpf .ogt)) h c_v0
  let c_cst_0 : (⟨S_, .f32⟩ : BufTy).Contents (Elt F) := ((constant S_ .f32 0x00000000#32))
  let c_v2 : (⟨S4x4096x256, .f32⟩ : BufTy).Contents (Elt F) := ((broadcastInDim S4x4096x256 ![] bcast_S_S4x4096x256)) c_cst_0
  let c_v3 : (⟨S4x4096x256, .i1⟩ : BufTy).Contents (Elt F) := ((cmpf .ogt)) h c_v2
  let c_cst_1 : (⟨S_, .f32⟩ : BufTy).Contents (Elt F) := ((constant S_ .f32 0x00000000#32))
  let c_call0_v0 : (⟨S_, .f32⟩ : BufTy).Contents (Elt F) := (id) c_cst_1
  let c_call0_v1 : (⟨S4x4096x256, .f32⟩ : BufTy).Contents (Elt F) := ((broadcastInDim S4x4096x256 ![] bcast_S_S4x4096x256)) c_call0_v0
  let c_call0_v2 : (⟨S4x4096x256, .f32⟩ : BufTy).Contents (Elt F) := (select) c_v3 c_call0_v1 h
  let c_v5 : (⟨S4x4096x256, .f32⟩ : BufTy).Contents (Elt F) := (Host.expm1) c_call0_v2
  let c_cst_2 : (⟨S_, .f32⟩ : BufTy).Contents (Elt F) := ((constant S_ .f32 0x3F800000#32))
  let c_v6 : (⟨S4x4096x256, .f32⟩ : BufTy).Contents (Elt F) := ((broadcastInDim S4x4096x256 ![] bcast_S_S4x4096x256)) c_cst_2
  let c_v7 : (⟨S4x4096x256, .f32⟩ : BufTy).Contents (Elt F) := (mulf) c_v6 c_v5
  let c_call1_v0 : (⟨S4x4096x256, .f32⟩ : BufTy).Contents (Elt F) := (select) c_v1 h c_v7
  c_call1_v0) = refElu h := rfl

/-- One stage's operations as the program states them, the ELU's inlined, composed in order, are `refStage`. -/
example (x : FVec F S4x4096x64 .f32) (wq wk wv : FVec F S64x64 .f32) (w1 : FVec F S256x64 .f32)
    (b1 : FVec F S256 .f32) (w2 : FVec F S64x256 .f32) (b2 : FVec F S64 .f32) :
    (
  let t_v0 := (((fun l r => Host.dotGeneral dot_S4x4096x64_S64x64_S4x4096x64_2_0_01_1_n_n none l r) : (⟨S4x4096x64, .f32⟩ : BufTy).Contents (Elt F) → (⟨S64x64, .f32⟩ : BufTy).Contents (Elt F) → (⟨S4x4096x64, .f32⟩ : BufTy).Contents (Elt F))) x wq
  let t_v1 := (((fun l r => Host.dotGeneral dot_S4x4096x64_S64x64_S4x4096x64_2_0_01_1_n_n none l r) : (⟨S4x4096x64, .f32⟩ : BufTy).Contents (Elt F) → (⟨S64x64, .f32⟩ : BufTy).Contents (Elt F) → (⟨S4x4096x64, .f32⟩ : BufTy).Contents (Elt F))) x wk
  let t_v2 := (((fun l r => Host.dotGeneral dot_S4x4096x64_S64x64_S4x4096x64_2_0_01_1_n_n none l r) : (⟨S4x4096x64, .f32⟩ : BufTy).Contents (Elt F) → (⟨S64x64, .f32⟩ : BufTy).Contents (Elt F) → (⟨S4x4096x64, .f32⟩ : BufTy).Contents (Elt F))) x wv
  let t_v3 := (((fun l r => Host.dotGeneral dot_S4x4096x64_S4x4096x64_S4x4096x4096_2_2_1_1_0_0 none l r) : (⟨S4x4096x64, .f32⟩ : BufTy).Contents (Elt F) → (⟨S4x4096x64, .f32⟩ : BufTy).Contents (Elt F) → (⟨S4x4096x4096, .f32⟩ : BufTy).Contents (Elt F))) t_v0 t_v1
  let t_cst : (⟨S_, .f32⟩ : BufTy).Contents (Elt F) := ((constant S_ .f32 0x42800000#32))
  let t_v4 := ((Host.sqrt : (⟨S_, .f32⟩ : BufTy).Contents (Elt F) → (⟨S_, .f32⟩ : BufTy).Contents (Elt F))) t_cst
  let t_v5 := ((broadcastInDim S4x4096x4096 ![] bcast_S_S4x4096x4096 : (⟨S_, .f32⟩ : BufTy).Contents (Elt F) → (⟨S4x4096x4096, .f32⟩ : BufTy).Contents (Elt F))) t_v4
  let t_v6 := ((Host.divf : (⟨S4x4096x4096, .f32⟩ : BufTy).Contents (Elt F) → (⟨S4x4096x4096, .f32⟩ : BufTy).Contents (Elt F) → (⟨S4x4096x4096, .f32⟩ : BufTy).Contents (Elt F))) t_v3 t_v5
  let t_cst_0 : (⟨S_, .f32⟩ : BufTy).Contents (Elt F) := ((constant S_ .f32 0xFF800000#32))
  let t_v7 := (((fun x v => Host.reduce FloatOps.maximumf x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F))) t_v6 t_cst_0
  let t_cst_1 : (⟨S_, .f32⟩ : BufTy).Contents (Elt F) := ((constant S_ .f32 0xFF800000#32))
  let t_v8 := ((broadcastInDim S4x4096 ![] bcast_S_S4x4096 : (⟨S_, .f32⟩ : BufTy).Contents (Elt F) → (⟨S4x4096, .f32⟩ : BufTy).Contents (Elt F))) t_cst_1
  let t_v9 := ((maximumf : (⟨S4x4096, .f32⟩ : BufTy).Contents (Elt F) → (⟨S4x4096, .f32⟩ : BufTy).Contents (Elt F) → (⟨S4x4096, .f32⟩ : BufTy).Contents (Elt F))) t_v8 t_v7
  let t_v10 := ((broadcastInDim S4x4096x1 ![0, 1] bcast_S4x4096_S4x4096x1_0_1 : (⟨S4x4096, .f32⟩ : BufTy).Contents (Elt F) → (⟨S4x4096x1, .f32⟩ : BufTy).Contents (Elt F))) t_v9
  let t_v11 := ((broadcastInDim S4x4096x4096 ![0, 1, 2] bcast_S4x4096x1_S4x4096x4096_0_1_2 : (⟨S4x4096x1, .f32⟩ : BufTy).Contents (Elt F) → (⟨S4x4096x4096, .f32⟩ : BufTy).Contents (Elt F))) t_v10
  let t_v12 := ((subf : (⟨S4x4096x4096, .f32⟩ : BufTy).Contents (Elt F) → (⟨S4x4096x4096, .f32⟩ : BufTy).Contents (Elt F) → (⟨S4x4096x4096, .f32⟩ : BufTy).Contents (Elt F))) t_v6 t_v11
  let t_v13 := ((Host.exp : (⟨S4x4096x4096, .f32⟩ : BufTy).Contents (Elt F) → (⟨S4x4096x4096, .f32⟩ : BufTy).Contents (Elt F))) t_v12
  let t_cst_2 : (⟨S_, .f32⟩ : BufTy).Contents (Elt F) := ((constant S_ .f32 0x00000000#32))
  let t_v14 := (((fun x v => Host.reduceAdd x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F))) t_v13 t_cst_2
  let t_v15 := ((broadcastInDim S4x4096x1 ![0, 1] bcast_S4x4096_S4x4096x1_0_1 : (⟨S4x4096, .f32⟩ : BufTy).Contents (Elt F) → (⟨S4x4096x1, .f32⟩ : BufTy).Contents (Elt F))) t_v14
  let t_v16 := ((broadcastInDim S4x4096x4096 ![0, 1, 2] bcast_S4x4096x1_S4x4096x4096_0_1_2 : (⟨S4x4096x1, .f32⟩ : BufTy).Contents (Elt F) → (⟨S4x4096x4096, .f32⟩ : BufTy).Contents (Elt F))) t_v15
  let t_v17 := ((Host.divf : (⟨S4x4096x4096, .f32⟩ : BufTy).Contents (Elt F) → (⟨S4x4096x4096, .f32⟩ : BufTy).Contents (Elt F) → (⟨S4x4096x4096, .f32⟩ : BufTy).Contents (Elt F))) t_v13 t_v16
  let t_v18 := (((fun l r => Host.dotGeneral dot_S4x4096x4096_S4x4096x64_S4x4096x64_2_1_1_2_0_0 none l r) : (⟨S4x4096x4096, .f32⟩ : BufTy).Contents (Elt F) → (⟨S4x4096x64, .f32⟩ : BufTy).Contents (Elt F) → (⟨S4x4096x64, .f32⟩ : BufTy).Contents (Elt F))) t_v17 t_v2
  let t_v19 := (((fun l r => Host.dotGeneral dot_S4x4096x64_S256x64_S4x4096x256_2_1_01_0_n_n none l r) : (⟨S4x4096x64, .f32⟩ : BufTy).Contents (Elt F) → (⟨S256x64, .f32⟩ : BufTy).Contents (Elt F) → (⟨S4x4096x256, .f32⟩ : BufTy).Contents (Elt F))) t_v18 w1
  let t_v20 := ((broadcastInDim S1x1x256 ![2] bcast_S256_S1x1x256_2 : (⟨S256, .f32⟩ : BufTy).Contents (Elt F) → (⟨S1x1x256, .f32⟩ : BufTy).Contents (Elt F))) b1
  let t_v21 := ((broadcastInDim S4x4096x256 ![0, 1, 2] bcast_S1x1x256_S4x4096x256_0_1_2 : (⟨S1x1x256, .f32⟩ : BufTy).Contents (Elt F) → (⟨S4x4096x256, .f32⟩ : BufTy).Contents (Elt F))) t_v20
  let t_v22 := ((addf : (⟨S4x4096x256, .f32⟩ : BufTy).Contents (Elt F) → (⟨S4x4096x256, .f32⟩ : BufTy).Contents (Elt F) → (⟨S4x4096x256, .f32⟩ : BufTy).Contents (Elt F))) t_v19 t_v21
  let c_cst : (⟨S_, .f32⟩ : BufTy).Contents (Elt F) := ((constant S_ .f32 0x00000000#32))
  let c_v0 : (⟨S4x4096x256, .f32⟩ : BufTy).Contents (Elt F) := ((broadcastInDim S4x4096x256 ![] bcast_S_S4x4096x256)) c_cst
  let c_v1 : (⟨S4x4096x256, .i1⟩ : BufTy).Contents (Elt F) := ((cmpf .ogt)) t_v22 c_v0
  let c_cst_0 : (⟨S_, .f32⟩ : BufTy).Contents (Elt F) := ((constant S_ .f32 0x00000000#32))
  let c_v2 : (⟨S4x4096x256, .f32⟩ : BufTy).Contents (Elt F) := ((broadcastInDim S4x4096x256 ![] bcast_S_S4x4096x256)) c_cst_0
  let c_v3 : (⟨S4x4096x256, .i1⟩ : BufTy).Contents (Elt F) := ((cmpf .ogt)) t_v22 c_v2
  let c_cst_1 : (⟨S_, .f32⟩ : BufTy).Contents (Elt F) := ((constant S_ .f32 0x00000000#32))
  let c_call0_v0 : (⟨S_, .f32⟩ : BufTy).Contents (Elt F) := (id) c_cst_1
  let c_call0_v1 : (⟨S4x4096x256, .f32⟩ : BufTy).Contents (Elt F) := ((broadcastInDim S4x4096x256 ![] bcast_S_S4x4096x256)) c_call0_v0
  let c_call0_v2 : (⟨S4x4096x256, .f32⟩ : BufTy).Contents (Elt F) := (select) c_v3 c_call0_v1 t_v22
  let c_v5 : (⟨S4x4096x256, .f32⟩ : BufTy).Contents (Elt F) := (Host.expm1) c_call0_v2
  let c_cst_2 : (⟨S_, .f32⟩ : BufTy).Contents (Elt F) := ((constant S_ .f32 0x3F800000#32))
  let c_v6 : (⟨S4x4096x256, .f32⟩ : BufTy).Contents (Elt F) := ((broadcastInDim S4x4096x256 ![] bcast_S_S4x4096x256)) c_cst_2
  let c_v7 : (⟨S4x4096x256, .f32⟩ : BufTy).Contents (Elt F) := (mulf) c_v6 c_v5
  let c_call1_v0 : (⟨S4x4096x256, .f32⟩ : BufTy).Contents (Elt F) := (select) c_v1 t_v22 c_v7
  let t_v24 := (((fun l r => Host.dotGeneral dot_S4x4096x256_S64x256_S4x4096x64_2_1_01_0_n_n none l r) : (⟨S4x4096x256, .f32⟩ : BufTy).Contents (Elt F) → (⟨S64x256, .f32⟩ : BufTy).Contents (Elt F) → (⟨S4x4096x64, .f32⟩ : BufTy).Contents (Elt F))) c_call1_v0 w2
  let t_v25 := ((broadcastInDim S1x1x64 ![2] bcast_S64_S1x1x64_2 : (⟨S64, .f32⟩ : BufTy).Contents (Elt F) → (⟨S1x1x64, .f32⟩ : BufTy).Contents (Elt F))) b2
  let t_v26 := ((broadcastInDim S4x4096x64 ![0, 1, 2] bcast_S1x1x64_S4x4096x64_0_1_2 : (⟨S1x1x64, .f32⟩ : BufTy).Contents (Elt F) → (⟨S4x4096x64, .f32⟩ : BufTy).Contents (Elt F))) t_v25
  let t_v27 := ((addf : (⟨S4x4096x64, .f32⟩ : BufTy).Contents (Elt F) → (⟨S4x4096x64, .f32⟩ : BufTy).Contents (Elt F) → (⟨S4x4096x64, .f32⟩ : BufTy).Contents (Elt F))) t_v24 t_v26
  t_v27) = refStage x wq wk wv w1 b1 w2 b2 := rfl

end Composition

/-! ## Each kind of operation read at an index, at the extended reals -/

section Read

variable [Facts]

/-- The dropped-axis witness at the shapes of the two row reductions. -/
theorem reduces_row : S4x4096x4096.Reduces [2] S4x4096 := by decide

/-- Row `(b, s)` with the coordinate `t` inserted on the reduced axis is `(b, s, t)`. -/
theorem lift_row (b : Fin 4) (s : Fin 4096) (t : Fin 4096) :
    reduces_row.lift (ix2 b s) t = ix3 b s t := by
  funext a; apply Fin.ext
  match a with
  | ⟨0, _⟩ => rfl
  | ⟨1, _⟩ => rfl
  | ⟨2, _⟩ => rfl

/-- `X·W` for a 64 × 64 matrix `W`: the sum over the contracted coordinate. -/
theorem dotProj_apply (x : FVec Ideal S4x4096x64 .f32) (w : FVec Ideal S64x64 .f32) (b : Fin 4) (s : Fin 4096) (q : Fin 64) :
    Host.dotGeneral dot_S4x4096x64_S64x64_S4x4096x64_2_0_01_1_n_n none x w (ix3 b s q)
      = ∑ d : Fin 64, x (ix3 b s d) * w (ix2 d q) := by
  show FloatOps.dotGeneral _ none _ x w (ix3 b s q) = _
  rw [Ideal.dotGeneral_apply, ← Equiv.sum_comp (contrEquiv1 dot_S4x4096x64_S64x64_S4x4096x64_2_0_01_1_n_n 64 rfl rfl).symm]
  refine Finset.sum_congr rfl fun d _ => ?_
  have cv := contrEquiv1_symm_val dot_S4x4096x64_S64x64_S4x4096x64_2_0_01_1_n_n 64 rfl rfl d
  have hl : dot_S4x4096x64_S64x64_S4x4096x64_2_0_01_1_n_n.lhsIdx (ix3 b s q) ((contrEquiv1 _ 64 rfl rfl).symm d) = ix3 b s d := by
    funext a; apply Fin.ext
    match a with
    | ⟨0, _⟩ => simp [DotDims.lhsIdx, dot_S4x4096x64_S64x64_S4x4096x64_2_0_01_1_n_n]; rfl
    | ⟨1, _⟩ => simp [DotDims.lhsIdx, dot_S4x4096x64_S64x64_S4x4096x64_2_0_01_1_n_n]; rfl
    | ⟨2, _⟩ => simp [DotDims.lhsIdx, dot_S4x4096x64_S64x64_S4x4096x64_2_0_01_1_n_n]; exact cv
  have hr : dot_S4x4096x64_S64x64_S4x4096x64_2_0_01_1_n_n.rhsIdx (ix3 b s q) ((contrEquiv1 _ 64 rfl rfl).symm d) = ix2 d q := by
    funext a; apply Fin.ext
    match a with
    | ⟨0, _⟩ => simp [DotDims.rhsIdx, dot_S4x4096x64_S64x64_S4x4096x64_2_0_01_1_n_n]; exact cv
    | ⟨1, _⟩ => simp [DotDims.rhsIdx, dot_S4x4096x64_S64x64_S4x4096x64_2_0_01_1_n_n]; rfl
  rw [hl, hr]

/-- `Q·Kᵀ` within a batch: row `s` of `Q` against row `t` of `K`. -/
theorem dotScore_apply (q : FVec Ideal S4x4096x64 .f32) (k : FVec Ideal S4x4096x64 .f32) (b : Fin 4) (s t : Fin 4096) :
    Host.dotGeneral dot_S4x4096x64_S4x4096x64_S4x4096x4096_2_2_1_1_0_0 none q k (ix3 b s t)
      = ∑ c : Fin 64, q (ix3 b s c) * k (ix3 b t c) := by
  show FloatOps.dotGeneral _ none _ q k (ix3 b s t) = _
  rw [Ideal.dotGeneral_apply, ← Equiv.sum_comp (contrEquiv1 dot_S4x4096x64_S4x4096x64_S4x4096x4096_2_2_1_1_0_0 64 rfl rfl).symm]
  refine Finset.sum_congr rfl fun c _ => ?_
  have cv := contrEquiv1_symm_val dot_S4x4096x64_S4x4096x64_S4x4096x4096_2_2_1_1_0_0 64 rfl rfl c
  have hl : dot_S4x4096x64_S4x4096x64_S4x4096x4096_2_2_1_1_0_0.lhsIdx (ix3 b s t) ((contrEquiv1 _ 64 rfl rfl).symm c) = ix3 b s c := by
    funext a; apply Fin.ext
    match a with
    | ⟨0, _⟩ => simp [DotDims.lhsIdx, dot_S4x4096x64_S4x4096x64_S4x4096x4096_2_2_1_1_0_0]; rfl
    | ⟨1, _⟩ => simp [DotDims.lhsIdx, dot_S4x4096x64_S4x4096x64_S4x4096x4096_2_2_1_1_0_0]; rfl
    | ⟨2, _⟩ => simp [DotDims.lhsIdx, dot_S4x4096x64_S4x4096x64_S4x4096x4096_2_2_1_1_0_0]; exact cv
  have hr : dot_S4x4096x64_S4x4096x64_S4x4096x4096_2_2_1_1_0_0.rhsIdx (ix3 b s t) ((contrEquiv1 _ 64 rfl rfl).symm c) = ix3 b t c := by
    funext a; apply Fin.ext
    match a with
    | ⟨0, _⟩ => simp [DotDims.rhsIdx, dot_S4x4096x64_S4x4096x64_S4x4096x4096_2_2_1_1_0_0]; rfl
    | ⟨1, _⟩ => simp [DotDims.rhsIdx, dot_S4x4096x64_S4x4096x64_S4x4096x4096_2_2_1_1_0_0]; rfl
    | ⟨2, _⟩ => simp [DotDims.rhsIdx, dot_S4x4096x64_S4x4096x64_S4x4096x4096_2_2_1_1_0_0]; exact cv
  rw [hl, hr]

/-- `P·V` within a batch: row `s` of the weights against column `o` of `V`. -/
theorem dotAtt_apply (p : FVec Ideal S4x4096x4096 .f32) (v : FVec Ideal S4x4096x64 .f32) (b : Fin 4) (s : Fin 4096) (o : Fin 64) :
    Host.dotGeneral dot_S4x4096x4096_S4x4096x64_S4x4096x64_2_1_1_2_0_0 none p v (ix3 b s o)
      = ∑ t : Fin 4096, p (ix3 b s t) * v (ix3 b t o) := by
  show FloatOps.dotGeneral _ none _ p v (ix3 b s o) = _
  rw [Ideal.dotGeneral_apply, ← Equiv.sum_comp (contrEquiv1 dot_S4x4096x4096_S4x4096x64_S4x4096x64_2_1_1_2_0_0 4096 rfl rfl).symm]
  refine Finset.sum_congr rfl fun t _ => ?_
  have cv := contrEquiv1_symm_val dot_S4x4096x4096_S4x4096x64_S4x4096x64_2_1_1_2_0_0 4096 rfl rfl t
  have hl : dot_S4x4096x4096_S4x4096x64_S4x4096x64_2_1_1_2_0_0.lhsIdx (ix3 b s o) ((contrEquiv1 _ 4096 rfl rfl).symm t) = ix3 b s t := by
    funext a; apply Fin.ext
    match a with
    | ⟨0, _⟩ => simp [DotDims.lhsIdx, dot_S4x4096x4096_S4x4096x64_S4x4096x64_2_1_1_2_0_0]; rfl
    | ⟨1, _⟩ => simp [DotDims.lhsIdx, dot_S4x4096x4096_S4x4096x64_S4x4096x64_2_1_1_2_0_0]; rfl
    | ⟨2, _⟩ => simp [DotDims.lhsIdx, dot_S4x4096x4096_S4x4096x64_S4x4096x64_2_1_1_2_0_0]; exact cv
  have hr : dot_S4x4096x4096_S4x4096x64_S4x4096x64_2_1_1_2_0_0.rhsIdx (ix3 b s o) ((contrEquiv1 _ 4096 rfl rfl).symm t) = ix3 b t o := by
    funext a; apply Fin.ext
    match a with
    | ⟨0, _⟩ => simp [DotDims.rhsIdx, dot_S4x4096x4096_S4x4096x64_S4x4096x64_2_1_1_2_0_0]; rfl
    | ⟨1, _⟩ => simp [DotDims.rhsIdx, dot_S4x4096x4096_S4x4096x64_S4x4096x64_2_1_1_2_0_0]; exact cv
    | ⟨2, _⟩ => simp [DotDims.rhsIdx, dot_S4x4096x4096_S4x4096x64_S4x4096x64_2_1_1_2_0_0]; rfl
  rw [hl, hr]

/-- `A·W1ᵀ`: row `(b, s)` of `A` against row `j` of `W1`. -/
theorem dotHid_apply (a : FVec Ideal S4x4096x64 .f32) (w : FVec Ideal S256x64 .f32) (b : Fin 4) (s : Fin 4096) (j : Fin 256) :
    Host.dotGeneral dot_S4x4096x64_S256x64_S4x4096x256_2_1_01_0_n_n none a w (ix3 b s j)
      = ∑ v : Fin 64, a (ix3 b s v) * w (ix2 j v) := by
  show FloatOps.dotGeneral _ none _ a w (ix3 b s j) = _
  rw [Ideal.dotGeneral_apply, ← Equiv.sum_comp (contrEquiv1 dot_S4x4096x64_S256x64_S4x4096x256_2_1_01_0_n_n 64 rfl rfl).symm]
  refine Finset.sum_congr rfl fun v _ => ?_
  have cv := contrEquiv1_symm_val dot_S4x4096x64_S256x64_S4x4096x256_2_1_01_0_n_n 64 rfl rfl v
  have hl : dot_S4x4096x64_S256x64_S4x4096x256_2_1_01_0_n_n.lhsIdx (ix3 b s j) ((contrEquiv1 _ 64 rfl rfl).symm v) = ix3 b s v := by
    funext a; apply Fin.ext
    match a with
    | ⟨0, _⟩ => simp [DotDims.lhsIdx, dot_S4x4096x64_S256x64_S4x4096x256_2_1_01_0_n_n]; rfl
    | ⟨1, _⟩ => simp [DotDims.lhsIdx, dot_S4x4096x64_S256x64_S4x4096x256_2_1_01_0_n_n]; rfl
    | ⟨2, _⟩ => simp [DotDims.lhsIdx, dot_S4x4096x64_S256x64_S4x4096x256_2_1_01_0_n_n]; exact cv
  have hr : dot_S4x4096x64_S256x64_S4x4096x256_2_1_01_0_n_n.rhsIdx (ix3 b s j) ((contrEquiv1 _ 64 rfl rfl).symm v) = ix2 j v := by
    funext a; apply Fin.ext
    match a with
    | ⟨0, _⟩ => simp [DotDims.rhsIdx, dot_S4x4096x64_S256x64_S4x4096x256_2_1_01_0_n_n]; rfl
    | ⟨1, _⟩ => simp [DotDims.rhsIdx, dot_S4x4096x64_S256x64_S4x4096x256_2_1_01_0_n_n]; exact cv
  rw [hl, hr]

/-- `E·W2ᵀ`: row `(b, s)` of `E` against row `o` of `W2`. -/
theorem dotOut_apply (e : FVec Ideal S4x4096x256 .f32) (w : FVec Ideal S64x256 .f32) (b : Fin 4) (s : Fin 4096) (o : Fin 64) :
    Host.dotGeneral dot_S4x4096x256_S64x256_S4x4096x64_2_1_01_0_n_n none e w (ix3 b s o)
      = ∑ j : Fin 256, e (ix3 b s j) * w (ix2 o j) := by
  show FloatOps.dotGeneral _ none _ e w (ix3 b s o) = _
  rw [Ideal.dotGeneral_apply, ← Equiv.sum_comp (contrEquiv1 dot_S4x4096x256_S64x256_S4x4096x64_2_1_01_0_n_n 256 rfl rfl).symm]
  refine Finset.sum_congr rfl fun j _ => ?_
  have cv := contrEquiv1_symm_val dot_S4x4096x256_S64x256_S4x4096x64_2_1_01_0_n_n 256 rfl rfl j
  have hl : dot_S4x4096x256_S64x256_S4x4096x64_2_1_01_0_n_n.lhsIdx (ix3 b s o) ((contrEquiv1 _ 256 rfl rfl).symm j) = ix3 b s j := by
    funext a; apply Fin.ext
    match a with
    | ⟨0, _⟩ => simp [DotDims.lhsIdx, dot_S4x4096x256_S64x256_S4x4096x64_2_1_01_0_n_n]; rfl
    | ⟨1, _⟩ => simp [DotDims.lhsIdx, dot_S4x4096x256_S64x256_S4x4096x64_2_1_01_0_n_n]; rfl
    | ⟨2, _⟩ => simp [DotDims.lhsIdx, dot_S4x4096x256_S64x256_S4x4096x64_2_1_01_0_n_n]; exact cv
  have hr : dot_S4x4096x256_S64x256_S4x4096x64_2_1_01_0_n_n.rhsIdx (ix3 b s o) ((contrEquiv1 _ 256 rfl rfl).symm j) = ix2 o j := by
    funext a; apply Fin.ext
    match a with
    | ⟨0, _⟩ => simp [DotDims.rhsIdx, dot_S4x4096x256_S64x256_S4x4096x64_2_1_01_0_n_n]; rfl
    | ⟨1, _⟩ => simp [DotDims.rhsIdx, dot_S4x4096x256_S64x256_S4x4096x64_2_1_01_0_n_n]; exact cv
  rw [hl, hr]

/-- A row quantity broadcast back over the reduced axis reads the row's value. -/
theorem bcastRow_apply (m : FVec Ideal S4x4096 .f32) (b : Fin 4) (s t : Fin 4096) :
    broadcastInDim S4x4096x4096 ![0, 1, 2] bcast_S4x4096x1_S4x4096x4096_0_1_2
        (broadcastInDim S4x4096x1 ![0, 1] bcast_S4x4096_S4x4096x1_0_1 m) (ix3 b s t) = m (ix2 b s) := by
  rw [broadcastInDim_apply ![0, 1, 2] bcast_S4x4096x1_S4x4096x4096_0_1_2 _ (ix3 b s t) (ix3 b s (0 : Fin 1))
      (fun a => by match a with | ⟨0, _⟩ => rfl | ⟨1, _⟩ => rfl | ⟨2, _⟩ => rfl),
    broadcastInDim_apply ![0, 1] bcast_S4x4096_S4x4096x1_0_1 m (ix3 b s (0 : Fin 1)) (ix2 b s)
      (fun a => by match a with | ⟨0, _⟩ => rfl | ⟨1, _⟩ => rfl)]

/-- The hidden layer's bias broadcast over batch and row reads `b1 j`. -/
theorem bcastBias256_apply (c : FVec Ideal S256 .f32) (b : Fin 4) (s : Fin 4096) (j : Fin 256) :
    broadcastInDim S4x4096x256 ![0, 1, 2] bcast_S1x1x256_S4x4096x256_0_1_2
        (broadcastInDim S1x1x256 ![2] bcast_S256_S1x1x256_2 c) (ix3 b s j) = c (ix1 j) := by
  rw [broadcastInDim_apply ![0, 1, 2] bcast_S1x1x256_S4x4096x256_0_1_2 _ (ix3 b s j) (ix3 (0 : Fin 1) (0 : Fin 1) j)
      (fun a => by match a with | ⟨0, _⟩ => rfl | ⟨1, _⟩ => rfl | ⟨2, _⟩ => rfl),
    broadcastInDim_apply ![2] bcast_S256_S1x1x256_2 c (ix3 (0 : Fin 1) (0 : Fin 1) j) (ix1 j)
      (fun a => by match a with | ⟨0, _⟩ => rfl)]

/-- The output layer's bias broadcast over batch and row reads `b2 o`. -/
theorem bcastBias64_apply (c : FVec Ideal S64 .f32) (b : Fin 4) (s : Fin 4096) (o : Fin 64) :
    broadcastInDim S4x4096x64 ![0, 1, 2] bcast_S1x1x64_S4x4096x64_0_1_2
        (broadcastInDim S1x1x64 ![2] bcast_S64_S1x1x64_2 c) (ix3 b s o) = c (ix1 o) := by
  rw [broadcastInDim_apply ![0, 1, 2] bcast_S1x1x64_S4x4096x64_0_1_2 _ (ix3 b s o) (ix3 (0 : Fin 1) (0 : Fin 1) o)
      (fun a => by match a with | ⟨0, _⟩ => rfl | ⟨1, _⟩ => rfl | ⟨2, _⟩ => rfl),
    broadcastInDim_apply ![2] bcast_S64_S1x1x64_2 c (ix3 (0 : Fin 1) (0 : Fin 1) o) (ix1 o)
      (fun a => by match a with | ⟨0, _⟩ => rfl)]

/-- The row maximum: the running `max` from the initial scalar over the row's entries. -/
theorem reduceMax_apply (x : FVec Ideal S4x4096x4096 .f32) (init : FVec Ideal S_ .f32) (b : Fin 4) (s : Fin 4096) :
    Host.reduce FloatOps.maximumf x init reducesTo_S4x4096x4096_S4x4096_d2 h_S_ (ix2 b s)
      = Finset.univ.fold max (init ix0) (fun t : Fin 4096 => x (ix3 b s t)) := by
  rw [Host.reduce_eq_fold_single FloatOps.maximumf x init reducesTo_S4x4096x4096_S4x4096_d2 reduces_row h_S_ (ix2 b s),
    eq_ix0 (Shape.Idx.first h_S_)]
  have hf : x ∘ reduces_row.lift (ix2 b s) = fun t : Fin 4096 => x (ix3 b s t) :=
    funext fun t => congrArg x (lift_row b s t)
  rw [hf]
  rfl

/-- The row sum: the initial scalar plus the sum of the row's entries. -/
theorem reduceAdd_apply (x : FVec Ideal S4x4096x4096 .f32) (init : FVec Ideal S_ .f32) (b : Fin 4) (s : Fin 4096) :
    Host.reduceAdd x init reducesTo_S4x4096x4096_S4x4096_d2 h_S_ (ix2 b s)
      = init ix0 + ∑ t : Fin 4096, x (ix3 b s t) := by
  rw [hostReduceAdd_apply, Ideal.hostReduceAdd_single reducesTo_S4x4096x4096_S4x4096_d2 reduces_row x _ (ix2 b s),
    eq_ix0 (Shape.Idx.first h_S_)]
  exact congrArg (init ix0 + ·) (Finset.sum_congr rfl fun t _ => congrArg x (lift_row b s t))

end Read

/-! ## The stage as a composition of named parts -/

section Parts

variable {F : FTy → Type} [FloatOps F] [Facts]

/-- The scores `(Q·Kᵀ) / √64`. -/
def refScore (x : FVec F S4x4096x64 .f32) (wq wk : FVec F S64x64 .f32) : FVec F S4x4096x4096 .f32 :=
  Host.divf
    (Host.dotGeneral dot_S4x4096x64_S4x4096x64_S4x4096x4096_2_2_1_1_0_0 none
      (Host.dotGeneral dot_S4x4096x64_S64x64_S4x4096x64_2_0_01_1_n_n none x wq) (Host.dotGeneral dot_S4x4096x64_S64x64_S4x4096x64_2_0_01_1_n_n none x wk))
    (broadcastInDim S4x4096x4096 ![] bcast_S_S4x4096x4096 (Host.sqrt (constant S_ .f32 0x42800000#32)))

/-- Each row's maximum, against `-∞` once more. -/
def refRowMax (sc : FVec F S4x4096x4096 .f32) : FVec F S4x4096 .f32 :=
  maximumf (broadcastInDim S4x4096 ![] bcast_S_S4x4096 (constant S_ .f32 0xFF800000#32))
    (Host.reduce FloatOps.maximumf sc (constant S_ .f32 0xFF800000#32) reducesTo_S4x4096x4096_S4x4096_d2 h_S_)

/-- The unnormalised weights `exp (score − row maximum)`. -/
def refWeights (sc : FVec F S4x4096x4096 .f32) : FVec F S4x4096x4096 .f32 :=
  Host.exp (subf sc (broadcastInDim S4x4096x4096 ![0, 1, 2] bcast_S4x4096x1_S4x4096x4096_0_1_2 (broadcastInDim S4x4096x1 ![0, 1] bcast_S4x4096_S4x4096x1_0_1 (refRowMax sc))))

/-- Each row's normaliser `0 + Σ_t` of the weights. -/
def refDen (sc : FVec F S4x4096x4096 .f32) : FVec F S4x4096 .f32 :=
  Host.reduceAdd (refWeights sc) (constant S_ .f32 0x00000000#32) reducesTo_S4x4096x4096_S4x4096_d2 h_S_

/-- The normalised weights against `V`. -/
def refSoftmaxV (sc : FVec F S4x4096x4096 .f32) (vv : FVec F S4x4096x64 .f32) : FVec F S4x4096x64 .f32 :=
  Host.dotGeneral dot_S4x4096x4096_S4x4096x64_S4x4096x64_2_1_1_2_0_0 none (Host.divf (refWeights sc) (broadcastInDim S4x4096x4096 ![0, 1, 2] bcast_S4x4096x1_S4x4096x4096_0_1_2 (broadcastInDim S4x4096x1 ![0, 1] bcast_S4x4096_S4x4096x1_0_1 (refDen sc)))) vv

/-- The hidden pre-activation `A·W1ᵀ + b1`. -/
def refHid (a : FVec F S4x4096x64 .f32) (w1 : FVec F S256x64 .f32) (b1 : FVec F S256 .f32) : FVec F S4x4096x256 .f32 :=
  addf (Host.dotGeneral dot_S4x4096x64_S256x64_S4x4096x256_2_1_01_0_n_n none a w1)
    (broadcastInDim S4x4096x256 ![0, 1, 2] bcast_S1x1x256_S4x4096x256_0_1_2 (broadcastInDim S1x1x256 ![2] bcast_S256_S1x1x256_2 b1))

/-- The output `E·W2ᵀ + b2`. -/
def refOut (e : FVec F S4x4096x256 .f32) (w2 : FVec F S64x256 .f32) (b2 : FVec F S64 .f32) : FVec F S4x4096x64 .f32 :=
  addf (Host.dotGeneral dot_S4x4096x256_S64x256_S4x4096x64_2_1_01_0_n_n none e w2)
    (broadcastInDim S4x4096x64 ![0, 1, 2] bcast_S1x1x64_S4x4096x64_0_1_2 (broadcastInDim S1x1x64 ![2] bcast_S64_S1x1x64_2 b2))

/-- The stage is the composition of its parts. -/
theorem refStage_eq (x : FVec F S4x4096x64 .f32) (wq wk wv : FVec F S64x64 .f32) (w1 : FVec F S256x64 .f32)
    (b1 : FVec F S256 .f32) (w2 : FVec F S64x256 .f32) (b2 : FVec F S64 .f32) :
    refStage x wq wk wv w1 b1 w2 b2
      = refOut (refElu (refHid (refSoftmaxV (refScore x wq wk) (Host.dotGeneral dot_S4x4096x64_S64x64_S4x4096x64_2_0_01_1_n_n none x wv)) w1 b1)) w2 b2 := rfl

end Parts

/-! ## The parts read at an index -/

section Chain

variable [Facts]

/-- The score of row `s` against row `t` within batch `b`. -/
theorem refScore_apply (x : FVec Ideal S4x4096x64 .f32) (wq wk : FVec Ideal S64x64 .f32) (b : Fin 4) (s t : Fin 4096) :
    refScore x wq wk (ix3 b s t) = Cert.Spec.scoreH (fun s d => x (ix3 b s d)) (fun d q => wq (ix2 d q)) (fun d q => wk (ix2 d q)) s t := by
  unfold refScore
  rw [hostDivf_apply, dotScore_apply, broadcastInDim_scalar_apply]
  simp only [dotProj_apply]
  show Ideal.div _ (Ideal.sqrt (Ideal.ofBits .f32 0x42800000#32)) = _
  rw [Cert.Consts.ofBits_64]
  rfl

/-- The row maximum is the running maximum from `⊥`: a further `max` with `⊥` changes nothing. -/
theorem refRowMax_apply (sc : FVec Ideal S4x4096x4096 .f32) (b : Fin 4) (s : Fin 4096) :
    refRowMax sc (ix2 b s) = Finset.univ.fold max (⊥ : EReal) (fun t : Fin 4096 => sc (ix3 b s t)) := by
  unfold refRowMax
  rw [maximumf_apply, reduceMax_apply, broadcastInDim_scalar_apply]
  show max (Ideal.ofBits .f32 0xFF800000#32) (Finset.univ.fold max (Ideal.ofBits .f32 0xFF800000#32) _) = _
  rw [Cert.Consts.ofBits_neg_inf]
  exact max_eq_right bot_le

/-- A weight is `exp` of its score less the row's maximum. -/
theorem refWeights_apply (sc : FVec Ideal S4x4096x4096 .f32) (b : Fin 4) (s t : Fin 4096) :
    refWeights sc (ix3 b s t) = Cert.Spec.wtE (fun t : Fin 4096 => sc (ix3 b s t)) t := by
  unfold refWeights Cert.Spec.wtE
  show Ideal.exp (sc (ix3 b s t) - _) = _
  rw [bcastRow_apply, refRowMax_apply]

/-- The normaliser is the sum of the row's weights. -/
theorem refDen_apply (sc : FVec Ideal S4x4096x4096 .f32) (b : Fin 4) (s : Fin 4096) :
    refDen sc (ix2 b s) = ∑ t : Fin 4096, Cert.Spec.wtE (fun t : Fin 4096 => sc (ix3 b s t)) t := by
  unfold refDen
  rw [reduceAdd_apply]
  show Ideal.ofBits .f32 0x00000000#32 + _ = _
  rw [Cert.Consts.ofBits_zero, zero_add]
  exact Finset.sum_congr rfl fun t _ => refWeights_apply sc b s t

/-- Each weight is normalised before the sum against `V`. -/
theorem refSoftmaxV_apply (sc : FVec Ideal S4x4096x4096 .f32) (vv : FVec Ideal S4x4096x64 .f32) (b : Fin 4) (s : Fin 4096)
    (o : Fin 64) :
    refSoftmaxV sc vv (ix3 b s o)
      = ∑ t : Fin 4096, Ideal.div (Cert.Spec.wtE (fun t : Fin 4096 => sc (ix3 b s t)) t)
          (∑ t' : Fin 4096, Cert.Spec.wtE (fun t : Fin 4096 => sc (ix3 b s t)) t') * vv (ix3 b t o) := by
  unfold refSoftmaxV
  rw [dotAtt_apply]
  refine Finset.sum_congr rfl fun t _ => ?_
  rw [hostDivf_apply, bcastRow_apply, refDen_apply, refWeights_apply]

/-- The attention output of row `s` within batch `b`. -/
theorem refAtt_apply (x : FVec Ideal S4x4096x64 .f32) (wq wk wv : FVec Ideal S64x64 .f32) (b : Fin 4) (s : Fin 4096) (v : Fin 64) :
    refSoftmaxV (refScore x wq wk) (Host.dotGeneral dot_S4x4096x64_S64x64_S4x4096x64_2_0_01_1_n_n none x wv) (ix3 b s v)
      = Cert.Spec.attH (fun s d => x (ix3 b s d)) (fun d q => wq (ix2 d q)) (fun d q => wk (ix2 d q)) (fun d q => wv (ix2 d q)) s v := by
  rw [refSoftmaxV_apply]
  have hrow : (fun t : Fin 4096 => refScore x wq wk (ix3 b s t)) = Cert.Spec.scoreH (fun s d => x (ix3 b s d)) (fun d q => wq (ix2 d q)) (fun d q => wk (ix2 d q)) s :=
    funext fun t => refScore_apply x wq wk b s t
  rw [hrow]
  unfold Cert.Spec.attH
  refine Finset.sum_congr rfl fun t _ => ?_
  rw [dotProj_apply]
  rfl

theorem refHid_apply (a : FVec Ideal S4x4096x64 .f32) (w1 : FVec Ideal S256x64 .f32) (b1 : FVec Ideal S256 .f32) (b : Fin 4)
    (s : Fin 4096) (j : Fin 256) :
    refHid a w1 b1 (ix3 b s j) = (∑ v : Fin 64, a (ix3 b s v) * w1 (ix2 j v)) + b1 (ix1 j) := by
  unfold refHid
  rw [addf_apply, dotHid_apply, bcastBias256_apply]

theorem refOut_apply (e : FVec Ideal S4x4096x256 .f32) (w2 : FVec Ideal S64x256 .f32) (b2 : FVec Ideal S64 .f32) (b : Fin 4)
    (s : Fin 4096) (o : Fin 64) :
    refOut e w2 b2 (ix3 b s o) = (∑ j : Fin 256, e (ix3 b s j) * w2 (ix2 o j)) + b2 (ix1 o) := by
  unfold refOut
  rw [addf_apply, dotOut_apply, bcastBias64_apply]

/-- ELU as the reference spells it is ELU: where `0 < h` both selects take `h`'s branch, elsewhere the inner select
    returns `h` and the product with `1` is `exp h − 1`. -/
theorem refElu_apply (h : FVec Ideal S4x4096x256 .f32) (i : S4x4096x256.Idx) : refElu h i = Cert.Spec.eluE (h i) := by
  show Scalar.select (Ideal.cmp .ogt (h i) (Ideal.ofBits .f32 0x00000000#32)) (h i)
      (Ideal.ofBits .f32 0x3F800000#32
        * (Ideal.exp (Scalar.select (Ideal.cmp .ogt (h i) (Ideal.ofBits .f32 0x00000000#32))
            (Ideal.ofBits .f32 0x00000000#32) (h i)) - 1)) = _
  rw [Cert.Consts.ofBits_zero, Cert.Consts.ofBits_one, one_mul]
  unfold Scalar.select Ideal.cmp Cert.Spec.eluE
  by_cases hp : 0 < h i
  · simp [hp]
  · simp [hp]

/-- One stage of the reference, read at row `s` of batch `b`, is the stage of that batch. -/
theorem refStage_apply (x : FVec Ideal S4x4096x64 .f32) (wq wk wv : FVec Ideal S64x64 .f32) (w1 : FVec Ideal S256x64 .f32)
    (b1 : FVec Ideal S256 .f32) (w2 : FVec Ideal S64x256 .f32) (b2 : FVec Ideal S64 .f32) (b : Fin 4) (s : Fin 4096) (o : Fin 64) :
    refStage (F := Ideal) x wq wk wv w1 b1 w2 b2 (ValueIdx.ix3 b s o)
      = Cert.Spec.stageH (fun s d => x (ValueIdx.ix3 b s d)) (fun d q => wq (ValueIdx.ix2 d q)) (fun d q => wk (ValueIdx.ix2 d q))
          (fun d q => wv (ValueIdx.ix2 d q)) (fun j v => w1 (ValueIdx.ix2 j v)) (fun j => b1 (ValueIdx.ix1 j))
          (fun o j => w2 (ValueIdx.ix2 o j)) (fun o => b2 (ValueIdx.ix1 o)) s o := by
  rw [refStage_eq, refOut_apply]
  unfold Cert.Spec.stageH Cert.Spec.mlpE
  refine congrArg (· + b2 (ix1 o)) (Finset.sum_congr rfl fun j _ => ?_)
  rw [refElu_apply, refHid_apply]
  refine congrArg (fun z => Cert.Spec.eluE (z + b1 (ix1 j)) * w2 (ix2 o j)) (Finset.sum_congr rfl fun v _ => ?_)
  rw [refAtt_apply]

end Chain

end Cert.ReferenceIdeal.RefValue

end
-- ==== Proof.Ref.Run.lean ====
/-
  The reference program as a straight line of host operations, and that line read in single-assignment form.

  The program is two attention-and-MLP stages, one after the other. Each stage is 46 operations: three projections
  of the input, the scores and their division by the square root of 64, the row maximum, the exponential of the
  difference, the row sum, the division by it, the sum against the values, the first affine layer, the exponential
  linear unit (15 operations: a called function whose body, and the bodies of the two selections it calls, stand
  inline here over that call's buffers), and the second affine layer. The second stage reads the first stage's
  result where the first reads the input, and its own parameters.

  Every operation writes a buffer no other operation writes, and reads only buffers written before it or never
  written. So the contents the whole line leaves satisfy one equation per operation, and the result buffer is the
  composition of those equations: the stage function applied twice.
-/
import proofs.«405560_j29480655519796_3_alg».proof.Proof.Gen.ReferenceIdeal
import proofs.«405560_j29480655519796_3_alg».proof.Proof.LibSsa
import proofs.«405560_j29480655519796_3_alg».proof.Proof.Ref.Stage
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-! ## The line -/

/-- The program's 92 operations in order, each called function's operations inline at its call over the call's
    buffers: positions 0 … 45 are the first stage (27 … 41 its exponential linear unit), 46 … 91 the second
    (73 … 87 its exponential linear unit). -/
abbrev ops : List (HloOp τ sig (Elt F)) :=
  [ -- first stage: the three projections of the input
    binary main_arg0 main_arg1 main_v0 (fun l r => Host.dotGeneral dot_S4x4096x64_S64x64_S4x4096x64_2_0_01_1_n_n none l r),
    binary main_arg0 main_arg2 main_v1 (fun l r => Host.dotGeneral dot_S4x4096x64_S64x64_S4x4096x64_2_0_01_1_n_n none l r),
    binary main_arg0 main_arg3 main_v2 (fun l r => Host.dotGeneral dot_S4x4096x64_S64x64_S4x4096x64_2_0_01_1_n_n none l r),
    -- the scores, divided by the square root of 64
    binary main_v0 main_v1 main_v3 (fun l r => Host.dotGeneral dot_S4x4096x64_S4x4096x64_S4x4096x4096_2_2_1_1_0_0 none l r),
    nullary main_cst (constant S_ .f32 0x42800000#32),
    unary main_cst main_v4 Host.sqrt,
    unary main_v4 main_v5 (broadcastInDim S4x4096x4096 ![] bcast_S_S4x4096x4096),
    binary main_v3 main_v5 main_v6 Host.divf,
    -- the row maximum, and the exponential of the score less it
    nullary main_cst_0 (constant S_ .f32 0xFF800000#32),
    binary main_v6 main_cst_0 main_v7 (fun x v => Host.reduce FloatOps.maximumf x v reducesTo_S4x4096x4096_S4x4096_d2 h_S_),
    nullary main_cst_1 (constant S_ .f32 0xFF800000#32),
    unary main_cst_1 main_v8 (broadcastInDim S4x4096 ![] bcast_S_S4x4096),
    binary main_v8 main_v7 main_v9 maximumf,
    unary main_v9 main_v10 (broadcastInDim S4x4096x1 ![0, 1] bcast_S4x4096_S4x4096x1_0_1),
    unary main_v10 main_v11 (broadcastInDim S4x4096x4096 ![0, 1, 2] bcast_S4x4096x1_S4x4096x4096_0_1_2),
    binary main_v6 main_v11 main_v12 subf,
    unary main_v12 main_v13 Host.exp,
    -- the row sum, and the weights divided by it
    nullary main_cst_2 (constant S_ .f32 0x00000000#32),
    binary main_v13 main_cst_2 main_v14 (fun x v => Host.reduceAdd x v reducesTo_S4x4096x4096_S4x4096_d2 h_S_),
    unary main_v14 main_v15 (broadcastInDim S4x4096x1 ![0, 1] bcast_S4x4096_S4x4096x1_0_1),
    unary main_v15 main_v16 (broadcastInDim S4x4096x4096 ![0, 1, 2] bcast_S4x4096x1_S4x4096x4096_0_1_2),
    binary main_v13 main_v16 main_v17 Host.divf,
    -- the sum against the values, and the first affine layer
    binary main_v17 main_v2 main_v18 (fun l r => Host.dotGeneral dot_S4x4096x4096_S4x4096x64_S4x4096x64_2_1_1_2_0_0 none l r),
    binary main_v18 main_arg7 main_v19 (fun l r => Host.dotGeneral dot_S4x4096x64_S256x64_S4x4096x256_2_1_01_0_n_n none l r),
    unary main_arg8 main_v20 (broadcastInDim S1x1x256 ![2] bcast_S256_S1x1x256_2),
    unary main_v20 main_v21 (broadcastInDim S4x4096x256 ![0, 1, 2] bcast_S1x1x256_S4x4096x256_0_1_2),
    binary main_v19 main_v21 main_v22 addf,
    -- the exponential linear unit of the first stage: two comparisons with zero, the selection of zero where the
    -- argument is positive, its exponential less one, times one, and the selection between the argument and that
    TRef.nullary main_call0.cst (constant S_ .f32 0x00000000#32),
    TRef.unary main_call0.cst main_call0.v0 (broadcastInDim S4x4096x256 ![] bcast_S_S4x4096x256),
    TRef.binary (.of main_v22 : TRef sig ⟨S4x4096x256, .f32⟩) main_call0.v0 main_call0.v1 (cmpf .ogt),
    TRef.nullary main_call0.cst_0 (constant S_ .f32 0x00000000#32),
    TRef.unary main_call0.cst_0 main_call0.v2 (broadcastInDim S4x4096x256 ![] bcast_S_S4x4096x256),
    TRef.binary (.of main_v22 : TRef sig ⟨S4x4096x256, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S4x4096x256 ![] bcast_S_S4x4096x256),
    TRef.ternary main_call0.v3 main_call0.call0.v1 (.of main_v22 : TRef sig ⟨S4x4096x256, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S4x4096x256 ![] bcast_S_S4x4096x256),
    TRef.binary main_call0.v6 main_call0.v5 main_call0.v7 mulf,
    TRef.ternary main_call0.v1 (.of main_v22 : TRef sig ⟨S4x4096x256, .f32⟩) main_call0.v7 main_call0.call1.v0 select,
    -- the second affine layer
    binary main_v23 main_arg9 main_v24 (fun l r => Host.dotGeneral dot_S4x4096x256_S64x256_S4x4096x64_2_1_01_0_n_n none l r),
    unary main_arg10 main_v25 (broadcastInDim S1x1x64 ![2] bcast_S64_S1x1x64_2),
    unary main_v25 main_v26 (broadcastInDim S4x4096x64 ![0, 1, 2] bcast_S1x1x64_S4x4096x64_0_1_2),
    binary main_v24 main_v26 main_v27 addf,
    -- second stage: the three projections of the first stage's result
    binary main_v27 main_arg4 main_v28 (fun l r => Host.dotGeneral dot_S4x4096x64_S64x64_S4x4096x64_2_0_01_1_n_n none l r),
    binary main_v27 main_arg5 main_v29 (fun l r => Host.dotGeneral dot_S4x4096x64_S64x64_S4x4096x64_2_0_01_1_n_n none l r),
    binary main_v27 main_arg6 main_v30 (fun l r => Host.dotGeneral dot_S4x4096x64_S64x64_S4x4096x64_2_0_01_1_n_n none l r),
    -- the scores, divided by the square root of 64
    binary main_v28 main_v29 main_v31 (fun l r => Host.dotGeneral dot_S4x4096x64_S4x4096x64_S4x4096x4096_2_2_1_1_0_0 none l r),
    nullary main_cst_3 (constant S_ .f32 0x42800000#32),
    unary main_cst_3 main_v32 Host.sqrt,
    unary main_v32 main_v33 (broadcastInDim S4x4096x4096 ![] bcast_S_S4x4096x4096),
    binary main_v31 main_v33 main_v34 Host.divf,
    -- the row maximum, and the exponential of the score less it
    nullary main_cst_4 (constant S_ .f32 0xFF800000#32),
    binary main_v34 main_cst_4 main_v35 (fun x v => Host.reduce FloatOps.maximumf x v reducesTo_S4x4096x4096_S4x4096_d2 h_S_),
    nullary main_cst_5 (constant S_ .f32 0xFF800000#32),
    unary main_cst_5 main_v36 (broadcastInDim S4x4096 ![] bcast_S_S4x4096),
    binary main_v36 main_v35 main_v37 maximumf,
    unary main_v37 main_v38 (broadcastInDim S4x4096x1 ![0, 1] bcast_S4x4096_S4x4096x1_0_1),
    unary main_v38 main_v39 (broadcastInDim S4x4096x4096 ![0, 1, 2] bcast_S4x4096x1_S4x4096x4096_0_1_2),
    binary main_v34 main_v39 main_v40 subf,
    unary main_v40 main_v41 Host.exp,
    -- the row sum, and the weights divided by it
    nullary main_cst_6 (constant S_ .f32 0x00000000#32),
    binary main_v41 main_cst_6 main_v42 (fun x v => Host.reduceAdd x v reducesTo_S4x4096x4096_S4x4096_d2 h_S_),
    unary main_v42 main_v43 (broadcastInDim S4x4096x1 ![0, 1] bcast_S4x4096_S4x4096x1_0_1),
    unary main_v43 main_v44 (broadcastInDim S4x4096x4096 ![0, 1, 2] bcast_S4x4096x1_S4x4096x4096_0_1_2),
    binary main_v41 main_v44 main_v45 Host.divf,
    -- the sum against the values, and the first affine layer
    binary main_v45 main_v30 main_v46 (fun l r => Host.dotGeneral dot_S4x4096x4096_S4x4096x64_S4x4096x64_2_1_1_2_0_0 none l r),
    binary main_v46 main_arg11 main_v47 (fun l r => Host.dotGeneral dot_S4x4096x64_S256x64_S4x4096x256_2_1_01_0_n_n none l r),
    unary main_arg12 main_v48 (broadcastInDim S1x1x256 ![2] bcast_S256_S1x1x256_2),
    unary main_v48 main_v49 (broadcastInDim S4x4096x256 ![0, 1, 2] bcast_S1x1x256_S4x4096x256_0_1_2),
    binary main_v47 main_v49 main_v50 addf,
    -- the exponential linear unit of the second stage
    TRef.nullary main_call1.cst (constant S_ .f32 0x00000000#32),
    TRef.unary main_call1.cst main_call1.v0 (broadcastInDim S4x4096x256 ![] bcast_S_S4x4096x256),
    TRef.binary (.of main_v50 : TRef sig ⟨S4x4096x256, .f32⟩) main_call1.v0 main_call1.v1 (cmpf .ogt),
    TRef.nullary main_call1.cst_0 (constant S_ .f32 0x00000000#32),
    TRef.unary main_call1.cst_0 main_call1.v2 (broadcastInDim S4x4096x256 ![] bcast_S_S4x4096x256),
    TRef.binary (.of main_v50 : TRef sig ⟨S4x4096x256, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S4x4096x256 ![] bcast_S_S4x4096x256),
    TRef.ternary main_call1.v3 main_call1.call0.v1 (.of main_v50 : TRef sig ⟨S4x4096x256, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S4x4096x256 ![] bcast_S_S4x4096x256),
    TRef.binary main_call1.v6 main_call1.v5 main_call1.v7 mulf,
    TRef.ternary main_call1.v1 (.of main_v50 : TRef sig ⟨S4x4096x256, .f32⟩) main_call1.v7 main_call1.call1.v0 select,
    -- the second affine layer
    binary main_v51 main_arg13 main_v52 (fun l r => Host.dotGeneral dot_S4x4096x256_S64x256_S4x4096x64_2_1_01_0_n_n none l r),
    unary main_arg14 main_v53 (broadcastInDim S1x1x64 ![2] bcast_S64_S1x1x64_2),
    unary main_v53 main_v54 (broadcastInDim S4x4096x64 ![0, 1, 2] bcast_S1x1x64_S4x4096x64_0_1_2),
    binary main_v52 main_v54 main_v55 addf ]

-- ninety-two binds re-associated: the rewriting under the chain recurses once per statement
set_option maxRecDepth 8192 in
set_option maxHeartbeats 8000000 in
/-- The program is that straight line: the two windows of its statements run in order, the called functions'
    definitions unfolded at their calls, and sequencing re-associated, are one chain of steps. -/
theorem main_eq (c : Dev nD) : main (F := F) c = seq ops := by
  simp only [main, main_part0, main_part1, fn_elu.body, fn_where.body, fn_where_0.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨binary_bufs_sub .., binary_bufs_sub .., binary_bufs_sub .., binary_bufs_sub .., nullary_bufs_sub .., unary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., binary_bufs_sub .., binary_bufs_sub .., binary_bufs_sub ..,
    unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..,
    binary_bufs_sub .., unary_bufs_sub .., unary_bufs_sub .., binary_bufs_sub ..,
    binary_bufs_sub .., binary_bufs_sub .., binary_bufs_sub .., binary_bufs_sub .., nullary_bufs_sub .., unary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., binary_bufs_sub .., binary_bufs_sub .., binary_bufs_sub ..,
    unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..,
    binary_bufs_sub .., unary_bufs_sub .., unary_bufs_sub .., binary_bufs_sub ..⟩

/-- On the one device, for any float values, from any memory with zero counters: every weakly fair execution of the
    program terminates, and every final state has each buffer at the fold of the line over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = StableHlo.after ops (StableHlo.launchContents m d) (Proc.devRef .tc b) :=
  StableHlo.run_seq scopedRefs_eq scopedSems_eq defs main (fun _ => ops) main_eq (fun _ => ops_sub) m ρ

/-! ## Single assignment -/

/-- The buffer each operation writes, in order: position \`k\` writes the \`k\`-th buffer after the fifteen arguments. -/
def W : List (Ref sig .tc) :=
  [ main_v0, main_v1, main_v2, main_v3, main_cst, main_v4, main_v5, main_v6, main_cst_0, main_v7, main_cst_1, main_v8,
    main_v9, main_v10, main_v11, main_v12, main_v13, main_cst_2, main_v14, main_v15, main_v16, main_v17, main_v18,
    main_v19, main_v20, main_v21, main_v22,
    main_call0_cst, main_call0_v0, main_call0_v1, main_call0_cst_0, main_call0_v2, main_call0_v3, main_call0_cst_1,
    main_call0_call0_v0, main_call0_call0_v1, main_call0_v4, main_call0_v5, main_call0_cst_2, main_call0_v6,
    main_call0_v7, main_v23,
    main_v24, main_v25, main_v26, main_v27,
    main_v28, main_v29, main_v30, main_v31, main_cst_3, main_v32, main_v33, main_v34, main_cst_4, main_v35, main_cst_5,
    main_v36, main_v37, main_v38, main_v39, main_v40, main_v41, main_cst_6, main_v42, main_v43, main_v44, main_v45,
    main_v46, main_v47, main_v48, main_v49, main_v50,
    main_call1_cst, main_call1_v0, main_call1_v1, main_call1_cst_0, main_call1_v2, main_call1_v3, main_call1_cst_1,
    main_call1_call0_v0, main_call1_call0_v1, main_call1_v4, main_call1_v5, main_call1_cst_2, main_call1_v6,
    main_call1_v7, main_v51,
    main_v52, main_v53, main_v54, main_v55 ]

/-- Each operation writes exactly the buffer \`W\` names at its position (what each kind of operation writes is its
    result buffer, by definition). -/
theorem writesOnly : Ssa.WritesOnly (ops (F := F)) W :=
  ⟨rfl, rfl, rfl, rfl, rfl, rfl, rfl, rfl, rfl, rfl, rfl, rfl, rfl, rfl, rfl, rfl, rfl, rfl, rfl, rfl, rfl, rfl, rfl,
    rfl, rfl, rfl, rfl,
    rfl, rfl, rfl, rfl, rfl, rfl, rfl, rfl, rfl, rfl, rfl, rfl, rfl, rfl, rfl,
    rfl, rfl, rfl, rfl,
    rfl, rfl, rfl, rfl, rfl, rfl, rfl, rfl, rfl, rfl, rfl, rfl, rfl, rfl, rfl, rfl, rfl, rfl, rfl, rfl, rfl, rfl, rfl,
    rfl, rfl, rfl, rfl,
    rfl, rfl, rfl, rfl, rfl, rfl, rfl, rfl, rfl, rfl, rfl, rfl, rfl, rfl, rfl,
    rfl, rfl, rfl, rfl, trivial⟩

/-- No operation writes an argument: it keeps its launch contents. -/
theorem arg_eq (V : Valuation τ sig (Elt F)) (x : Ref sig .tc) (hx : x ∉ W) :
    after (ops (F := F)) V (Proc.devRef .tc x) = V (Proc.devRef .tc x) :=
  Ssa.after_arg ops W writesOnly V x hx

theorem arg0_eq (V : Valuation τ sig (Elt F)) : after (ops (F := F)) V (Proc.devRef .tc main_arg0) = V (Proc.devRef .tc main_arg0) :=
  arg_eq V main_arg0 (by decide)
theorem arg1_eq (V : Valuation τ sig (Elt F)) : after (ops (F := F)) V (Proc.devRef .tc main_arg1) = V (Proc.devRef .tc main_arg1) :=
  arg_eq V main_arg1 (by decide)
theorem arg2_eq (V : Valuation τ sig (Elt F)) : after (ops (F := F)) V (Proc.devRef .tc main_arg2) = V (Proc.devRef .tc main_arg2) :=
  arg_eq V main_arg2 (by decide)
theorem arg3_eq (V : Valuation τ sig (Elt F)) : after (ops (F := F)) V (Proc.devRef .tc main_arg3) = V (Proc.devRef .tc main_arg3) :=
  arg_eq V main_arg3 (by decide)
theorem arg4_eq (V : Valuation τ sig (Elt F)) : after (ops (F := F)) V (Proc.devRef .tc main_arg4) = V (Proc.devRef .tc main_arg4) :=
  arg_eq V main_arg4 (by decide)
theorem arg5_eq (V : Valuation τ sig (Elt F)) : after (ops (F := F)) V (Proc.devRef .tc main_arg5) = V (Proc.devRef .tc main_arg5) :=
  arg_eq V main_arg5 (by decide)
theorem arg6_eq (V : Valuation τ sig (Elt F)) : after (ops (F := F)) V (Proc.devRef .tc main_arg6) = V (Proc.devRef .tc main_arg6) :=
  arg_eq V main_arg6 (by decide)
theorem arg7_eq (V : Valuation τ sig (Elt F)) : after (ops (F := F)) V (Proc.devRef .tc main_arg7) = V (Proc.devRef .tc main_arg7) :=
  arg_eq V main_arg7 (by decide)
theorem arg8_eq (V : Valuation τ sig (Elt F)) : after (ops (F := F)) V (Proc.devRef .tc main_arg8) = V (Proc.devRef .tc main_arg8) :=
  arg_eq V main_arg8 (by decide)
theorem arg9_eq (V : Valuation τ sig (Elt F)) : after (ops (F := F)) V (Proc.devRef .tc main_arg9) = V (Proc.devRef .tc main_arg9) :=
  arg_eq V main_arg9 (by decide)
theorem arg10_eq (V : Valuation τ sig (Elt F)) : after (ops (F := F)) V (Proc.devRef .tc main_arg10) = V (Proc.devRef .tc main_arg10) :=
  arg_eq V main_arg10 (by decide)
theorem arg11_eq (V : Valuation τ sig (Elt F)) : after (ops (F := F)) V (Proc.devRef .tc main_arg11) = V (Proc.devRef .tc main_arg11) :=
  arg_eq V main_arg11 (by decide)
theorem arg12_eq (V : Valuation τ sig (Elt F)) : after (ops (F := F)) V (Proc.devRef .tc main_arg12) = V (Proc.devRef .tc main_arg12) :=
  arg_eq V main_arg12 (by decide)
theorem arg13_eq (V : Valuation τ sig (Elt F)) : after (ops (F := F)) V (Proc.devRef .tc main_arg13) = V (Proc.devRef .tc main_arg13) :=
  arg_eq V main_arg13 (by decide)
theorem arg14_eq (V : Valuation τ sig (Elt F)) : after (ops (F := F)) V (Proc.devRef .tc main_arg14) = V (Proc.devRef .tc main_arg14) :=
  arg_eq V main_arg14 (by decide)

/-! ## The result

One equation per operation (the buffer it writes ends at its function of the final contents of the buffers it
reads: its position in the line, the operation found there, and the buffers' names told apart), then the result
buffer rewritten backwards through them, stage by stage. -/

/-- The first stage's result is the stage function of the input and the first stage's parameters, as the line
    leaves them. -/
theorem stage1_eq (V : Valuation τ sig (Elt F)) :
    after (ops (F := F)) V (Proc.devRef .tc main_v27)
      = RefValue.refStage (after ops V (Proc.devRef .tc main_arg0)) (after ops V (Proc.devRef .tc main_arg1))
          (after ops V (Proc.devRef .tc main_arg2)) (after ops V (Proc.devRef .tc main_arg3))
          (after ops V (Proc.devRef .tc main_arg7)) (after ops V (Proc.devRef .tc main_arg8))
          (after ops V (Proc.devRef .tc main_arg9)) (after ops V (Proc.devRef .tc main_arg10)) := by
  have e0 := Ssa.ssa_binary ops W writesOnly V 0 main_arg0 main_arg1 main_v0 _ _ _ _ (by rfl) (by decide) (by decide) (by decide)
  have e1 := Ssa.ssa_binary ops W writesOnly V 1 main_arg0 main_arg2 main_v1 _ _ _ _ (by rfl) (by decide) (by decide) (by decide)
  have e2 := Ssa.ssa_binary ops W writesOnly V 2 main_arg0 main_arg3 main_v2 _ _ _ _ (by rfl) (by decide) (by decide) (by decide)
  have e3 := Ssa.ssa_binary ops W writesOnly V 3 main_v0 main_v1 main_v3 _ _ _ _ (by rfl) (by decide) (by decide) (by decide)
  have e4 := Ssa.ssa_nullary ops W writesOnly V 4 main_cst _ _ (by rfl) (by decide)
  have e5 := Ssa.ssa_unary ops W writesOnly V 5 main_cst main_v4 _ _ _ (by rfl) (by decide) (by decide)
  have e6 := Ssa.ssa_unary ops W writesOnly V 6 main_v4 main_v5 _ _ _ (by rfl) (by decide) (by decide)
  have e7 := Ssa.ssa_binary ops W writesOnly V 7 main_v3 main_v5 main_v6 _ _ _ _ (by rfl) (by decide) (by decide) (by decide)
  have e8 := Ssa.ssa_nullary ops W writesOnly V 8 main_cst_0 _ _ (by rfl) (by decide)
  have e9 := Ssa.ssa_binary ops W writesOnly V 9 main_v6 main_cst_0 main_v7 _ _ _ _ (by rfl) (by decide) (by decide) (by decide)
  have e10 := Ssa.ssa_nullary ops W writesOnly V 10 main_cst_1 _ _ (by rfl) (by decide)
  have e11 := Ssa.ssa_unary ops W writesOnly V 11 main_cst_1 main_v8 _ _ _ (by rfl) (by decide) (by decide)
  have e12 := Ssa.ssa_binary ops W writesOnly V 12 main_v8 main_v7 main_v9 _ _ _ _ (by rfl) (by decide) (by decide) (by decide)
  have e13 := Ssa.ssa_unary ops W writesOnly V 13 main_v9 main_v10 _ _ _ (by rfl) (by decide) (by decide)
  have e14 := Ssa.ssa_unary ops W writesOnly V 14 main_v10 main_v11 _ _ _ (by rfl) (by decide) (by decide)
  have e15 := Ssa.ssa_binary ops W writesOnly V 15 main_v6 main_v11 main_v12 _ _ _ _ (by rfl) (by decide) (by decide) (by decide)
  have e16 := Ssa.ssa_unary ops W writesOnly V 16 main_v12 main_v13 _ _ _ (by rfl) (by decide) (by decide)
  have e17 := Ssa.ssa_nullary ops W writesOnly V 17 main_cst_2 _ _ (by rfl) (by decide)
  have e18 := Ssa.ssa_binary ops W writesOnly V 18 main_v13 main_cst_2 main_v14 _ _ _ _ (by rfl) (by decide) (by decide) (by decide)
  have e19 := Ssa.ssa_unary ops W writesOnly V 19 main_v14 main_v15 _ _ _ (by rfl) (by decide) (by decide)
  have e20 := Ssa.ssa_unary ops W writesOnly V 20 main_v15 main_v16 _ _ _ (by rfl) (by decide) (by decide)
  have e21 := Ssa.ssa_binary ops W writesOnly V 21 main_v13 main_v16 main_v17 _ _ _ _ (by rfl) (by decide) (by decide) (by decide)
  have e22 := Ssa.ssa_binary ops W writesOnly V 22 main_v17 main_v2 main_v18 _ _ _ _ (by rfl) (by decide) (by decide) (by decide)
  have e23 := Ssa.ssa_binary ops W writesOnly V 23 main_v18 main_arg7 main_v19 _ _ _ _ (by rfl) (by decide) (by decide) (by decide)
  have e24 := Ssa.ssa_unary ops W writesOnly V 24 main_arg8 main_v20 _ _ _ (by rfl) (by decide) (by decide)
  have e25 := Ssa.ssa_unary ops W writesOnly V 25 main_v20 main_v21 _ _ _ (by rfl) (by decide) (by decide)
  have e26 := Ssa.ssa_binary ops W writesOnly V 26 main_v19 main_v21 main_v22 _ _ _ _ (by rfl) (by decide) (by decide) (by decide)
  have e27 := Ssa.ssa_nullary ops W writesOnly V 27 main_call0_cst _ _ (by rfl) (by decide)
  have e28 := Ssa.ssa_unary ops W writesOnly V 28 main_call0_cst main_call0_v0 _ _ _ (by rfl) (by decide) (by decide)
  have e29 := Ssa.ssa_binary ops W writesOnly V 29 main_v22 main_call0_v0 main_call0_v1 _ _ _ _ (by rfl) (by decide) (by decide) (by decide)
  have e30 := Ssa.ssa_nullary ops W writesOnly V 30 main_call0_cst_0 _ _ (by rfl) (by decide)
  have e31 := Ssa.ssa_unary ops W writesOnly V 31 main_call0_cst_0 main_call0_v2 _ _ _ (by rfl) (by decide) (by decide)
  have e32 := Ssa.ssa_binary ops W writesOnly V 32 main_v22 main_call0_v2 main_call0_v3 _ _ _ _ (by rfl) (by decide) (by decide) (by decide)
  have e33 := Ssa.ssa_nullary ops W writesOnly V 33 main_call0_cst_1 _ _ (by rfl) (by decide)
  have e34 := Ssa.ssa_unary ops W writesOnly V 34 main_call0_cst_1 main_call0_call0_v0 _ _ _ (by rfl) (by decide) (by decide)
  have e35 := Ssa.ssa_unary ops W writesOnly V 35 main_call0_call0_v0 main_call0_call0_v1 _ _ _ (by rfl) (by decide) (by decide)
  have e36 := Ssa.ssa_ternary ops W writesOnly V 36 main_call0_v3 main_call0_call0_v1 main_v22 main_call0_v4 _ _ _ _ _ (by rfl) (by decide) (by decide) (by decide) (by decide)
  have e37 := Ssa.ssa_unary ops W writesOnly V 37 main_call0_v4 main_call0_v5 _ _ _ (by rfl) (by decide) (by decide)
  have e38 := Ssa.ssa_nullary ops W writesOnly V 38 main_call0_cst_2 _ _ (by rfl) (by decide)
  have e39 := Ssa.ssa_unary ops W writesOnly V 39 main_call0_cst_2 main_call0_v6 _ _ _ (by rfl) (by decide) (by decide)
  have e40 := Ssa.ssa_binary ops W writesOnly V 40 main_call0_v6 main_call0_v5 main_call0_v7 _ _ _ _ (by rfl) (by decide) (by decide) (by decide)
  have e41 := Ssa.ssa_ternary ops W writesOnly V 41 main_call0_v1 main_v22 main_call0_v7 main_v23 _ _ _ _ _ (by rfl) (by decide) (by decide) (by decide) (by decide)
  have e42 := Ssa.ssa_binary ops W writesOnly V 42 main_v23 main_arg9 main_v24 _ _ _ _ (by rfl) (by decide) (by decide) (by decide)
  have e43 := Ssa.ssa_unary ops W writesOnly V 43 main_arg10 main_v25 _ _ _ (by rfl) (by decide) (by decide)
  have e44 := Ssa.ssa_unary ops W writesOnly V 44 main_v25 main_v26 _ _ _ (by rfl) (by decide) (by decide)
  have e45 := Ssa.ssa_binary ops W writesOnly V 45 main_v24 main_v26 main_v27 _ _ _ _ (by rfl) (by decide) (by decide) (by decide)
  rw [e45, e44, e43, e42, e41, e40, e39, e38, e37, e36, e35, e34, e33, e32, e31, e30, e29, e28, e27, e26, e25, e24, e23,
    e22, e21, e20, e19, e18, e17, e16, e15, e14, e13, e12, e11, e10, e9, e8, e7, e6, e5, e4, e3, e2, e1, e0]
  rfl

/-- The second stage's result is the stage function of the first stage's result and the second stage's parameters, as
    the line leaves them. -/
theorem stage2_eq (V : Valuation τ sig (Elt F)) :
    after (ops (F := F)) V (Proc.devRef .tc main_v55)
      = RefValue.refStage (after ops V (Proc.devRef .tc main_v27)) (after ops V (Proc.devRef .tc main_arg4))
          (after ops V (Proc.devRef .tc main_arg5)) (after ops V (Proc.devRef .tc main_arg6))
          (after ops V (Proc.devRef .tc main_arg11)) (after ops V (Proc.devRef .tc main_arg12))
          (after ops V (Proc.devRef .tc main_arg13)) (after ops V (Proc.devRef .tc main_arg14)) := by
  have e46 := Ssa.ssa_binary ops W writesOnly V 46 main_v27 main_arg4 main_v28 _ _ _ _ (by rfl) (by decide) (by decide) (by decide)
  have e47 := Ssa.ssa_binary ops W writesOnly V 47 main_v27 main_arg5 main_v29 _ _ _ _ (by rfl) (by decide) (by decide) (by decide)
  have e48 := Ssa.ssa_binary ops W writesOnly V 48 main_v27 main_arg6 main_v30 _ _ _ _ (by rfl) (by decide) (by decide) (by decide)
  have e49 := Ssa.ssa_binary ops W writesOnly V 49 main_v28 main_v29 main_v31 _ _ _ _ (by rfl) (by decide) (by decide) (by decide)
  have e50 := Ssa.ssa_nullary ops W writesOnly V 50 main_cst_3 _ _ (by rfl) (by decide)
  have e51 := Ssa.ssa_unary ops W writesOnly V 51 main_cst_3 main_v32 _ _ _ (by rfl) (by decide) (by decide)
  have e52 := Ssa.ssa_unary ops W writesOnly V 52 main_v32 main_v33 _ _ _ (by rfl) (by decide) (by decide)
  have e53 := Ssa.ssa_binary ops W writesOnly V 53 main_v31 main_v33 main_v34 _ _ _ _ (by rfl) (by decide) (by decide) (by decide)
  have e54 := Ssa.ssa_nullary ops W writesOnly V 54 main_cst_4 _ _ (by rfl) (by decide)
  have e55 := Ssa.ssa_binary ops W writesOnly V 55 main_v34 main_cst_4 main_v35 _ _ _ _ (by rfl) (by decide) (by decide) (by decide)
  have e56 := Ssa.ssa_nullary ops W writesOnly V 56 main_cst_5 _ _ (by rfl) (by decide)
  have e57 := Ssa.ssa_unary ops W writesOnly V 57 main_cst_5 main_v36 _ _ _ (by rfl) (by decide) (by decide)
  have e58 := Ssa.ssa_binary ops W writesOnly V 58 main_v36 main_v35 main_v37 _ _ _ _ (by rfl) (by decide) (by decide) (by decide)
  have e59 := Ssa.ssa_unary ops W writesOnly V 59 main_v37 main_v38 _ _ _ (by rfl) (by decide) (by decide)
  have e60 := Ssa.ssa_unary ops W writesOnly V 60 main_v38 main_v39 _ _ _ (by rfl) (by decide) (by decide)
  have e61 := Ssa.ssa_binary ops W writesOnly V 61 main_v34 main_v39 main_v40 _ _ _ _ (by rfl) (by decide) (by decide) (by decide)
  have e62 := Ssa.ssa_unary ops W writesOnly V 62 main_v40 main_v41 _ _ _ (by rfl) (by decide) (by decide)
  have e63 := Ssa.ssa_nullary ops W writesOnly V 63 main_cst_6 _ _ (by rfl) (by decide)
  have e64 := Ssa.ssa_binary ops W writesOnly V 64 main_v41 main_cst_6 main_v42 _ _ _ _ (by rfl) (by decide) (by decide) (by decide)
  have e65 := Ssa.ssa_unary ops W writesOnly V 65 main_v42 main_v43 _ _ _ (by rfl) (by decide) (by decide)
  have e66 := Ssa.ssa_unary ops W writesOnly V 66 main_v43 main_v44 _ _ _ (by rfl) (by decide) (by decide)
  have e67 := Ssa.ssa_binary ops W writesOnly V 67 main_v41 main_v44 main_v45 _ _ _ _ (by rfl) (by decide) (by decide) (by decide)
  have e68 := Ssa.ssa_binary ops W writesOnly V 68 main_v45 main_v30 main_v46 _ _ _ _ (by rfl) (by decide) (by decide) (by decide)
  have e69 := Ssa.ssa_binary ops W writesOnly V 69 main_v46 main_arg11 main_v47 _ _ _ _ (by rfl) (by decide) (by decide) (by decide)
  have e70 := Ssa.ssa_unary ops W writesOnly V 70 main_arg12 main_v48 _ _ _ (by rfl) (by decide) (by decide)
  have e71 := Ssa.ssa_unary ops W writesOnly V 71 main_v48 main_v49 _ _ _ (by rfl) (by decide) (by decide)
  have e72 := Ssa.ssa_binary ops W writesOnly V 72 main_v47 main_v49 main_v50 _ _ _ _ (by rfl) (by decide) (by decide) (by decide)
  have e73 := Ssa.ssa_nullary ops W writesOnly V 73 main_call1_cst _ _ (by rfl) (by decide)
  have e74 := Ssa.ssa_unary ops W writesOnly V 74 main_call1_cst main_call1_v0 _ _ _ (by rfl) (by decide) (by decide)
  have e75 := Ssa.ssa_binary ops W writesOnly V 75 main_v50 main_call1_v0 main_call1_v1 _ _ _ _ (by rfl) (by decide) (by decide) (by decide)
  have e76 := Ssa.ssa_nullary ops W writesOnly V 76 main_call1_cst_0 _ _ (by rfl) (by decide)
  have e77 := Ssa.ssa_unary ops W writesOnly V 77 main_call1_cst_0 main_call1_v2 _ _ _ (by rfl) (by decide) (by decide)
  have e78 := Ssa.ssa_binary ops W writesOnly V 78 main_v50 main_call1_v2 main_call1_v3 _ _ _ _ (by rfl) (by decide) (by decide) (by decide)
  have e79 := Ssa.ssa_nullary ops W writesOnly V 79 main_call1_cst_1 _ _ (by rfl) (by decide)
  have e80 := Ssa.ssa_unary ops W writesOnly V 80 main_call1_cst_1 main_call1_call0_v0 _ _ _ (by rfl) (by decide) (by decide)
  have e81 := Ssa.ssa_unary ops W writesOnly V 81 main_call1_call0_v0 main_call1_call0_v1 _ _ _ (by rfl) (by decide) (by decide)
  have e82 := Ssa.ssa_ternary ops W writesOnly V 82 main_call1_v3 main_call1_call0_v1 main_v50 main_call1_v4 _ _ _ _ _ (by rfl) (by decide) (by decide) (by decide) (by decide)
  have e83 := Ssa.ssa_unary ops W writesOnly V 83 main_call1_v4 main_call1_v5 _ _ _ (by rfl) (by decide) (by decide)
  have e84 := Ssa.ssa_nullary ops W writesOnly V 84 main_call1_cst_2 _ _ (by rfl) (by decide)
  have e85 := Ssa.ssa_unary ops W writesOnly V 85 main_call1_cst_2 main_call1_v6 _ _ _ (by rfl) (by decide) (by decide)
  have e86 := Ssa.ssa_binary ops W writesOnly V 86 main_call1_v6 main_call1_v5 main_call1_v7 _ _ _ _ (by rfl) (by decide) (by decide) (by decide)
  have e87 := Ssa.ssa_ternary ops W writesOnly V 87 main_call1_v1 main_v50 main_call1_v7 main_v51 _ _ _ _ _ (by rfl) (by decide) (by decide) (by decide) (by decide)
  have e88 := Ssa.ssa_binary ops W writesOnly V 88 main_v51 main_arg13 main_v52 _ _ _ _ (by rfl) (by decide) (by decide) (by decide)
  have e89 := Ssa.ssa_unary ops W writesOnly V 89 main_arg14 main_v53 _ _ _ (by rfl) (by decide) (by decide)
  have e90 := Ssa.ssa_unary ops W writesOnly V 90 main_v53 main_v54 _ _ _ (by rfl) (by decide) (by decide)
  have e91 := Ssa.ssa_binary ops W writesOnly V 91 main_v52 main_v54 main_v55 _ _ _ _ (by rfl) (by decide) (by decide) (by decide)
  rw [e91, e90, e89, e88, e87, e86, e85, e84, e83, e82, e81, e80, e79, e78, e77, e76, e75, e74, e73, e72, e71, e70, e69,
    e68, e67, e66, e65, e64, e63, e62, e61, e60, e59, e58, e57, e56, e55, e54, e53, e52, e51, e50, e49, e48, e47, e46]
  rfl

/-- The program's result is the stage function applied twice: to the input with the first stage's parameters, and
    to that with the second stage's. -/
theorem result_eq (V : Valuation τ sig (Elt F)) :
    after (ops (F := F)) V (Proc.devRef .tc main_v55)
      = RefValue.refStage
          (RefValue.refStage (V (Proc.devRef .tc main_arg0)) (V (Proc.devRef .tc main_arg1)) (V (Proc.devRef .tc main_arg2))
            (V (Proc.devRef .tc main_arg3)) (V (Proc.devRef .tc main_arg7)) (V (Proc.devRef .tc main_arg8))
            (V (Proc.devRef .tc main_arg9)) (V (Proc.devRef .tc main_arg10)))
          (V (Proc.devRef .tc main_arg4)) (V (Proc.devRef .tc main_arg5)) (V (Proc.devRef .tc main_arg6))
          (V (Proc.devRef .tc main_arg11)) (V (Proc.devRef .tc main_arg12)) (V (Proc.devRef .tc main_arg13))
          (V (Proc.devRef .tc main_arg14)) := by
  rw [stage2_eq V, stage1_eq V, arg0_eq, arg1_eq, arg2_eq, arg3_eq, arg4_eq, arg5_eq, arg6_eq, arg7_eq, arg8_eq, arg9_eq,
    arg10_eq, arg11_eq, arg12_eq, arg13_eq, arg14_eq]

end Cert.ReferenceIdeal.RefRun

end
-- ==== Proof.RefSide.lean ====
/-
  The reference's result, on real-valued arguments, is the coercion of the real model.

  The reference is a straight line of host operations whose result buffer is the stage function applied twice
  (Proof/Ref/Run.lean), and one stage read at an index is the stage of Proof/Spec.lean in the spelling that divides
  each weight by the normaliser before the sum against the values (Proof/Ref/Stage.lean). On real-valued arguments that spelling is
  the coercion of the real stage (Proof/Algebra.lean); so one stage of the reference sends coerced real arrays to
  the coercion of the real stage applied batch by batch, and the program, two stages, sends them to the coercion of
  the real program. No operation writes an argument, so every argument ends as it began.
-/
import proofs.«405560_j29480655519796_3_alg».proof.Proof.Ref.Run
import proofs.«405560_j29480655519796_3_alg».proof.Proof.Ref.Stage
import proofs.«405560_j29480655519796_3_alg».proof.Proof.Algebra
import proofs.«405560_j29480655519796_3_alg».proof.Proof.Model
import Idealize.ShloMosaic.Lib.StableHlo.Run
import Idealize.ShloMosaic.Lib.ValueIdx

noncomputable section

namespace Cert.RefSide

open Cert.ReferenceIdeal Cert.ReferenceIdeal.Gen Idealize.ShloMosaic Idealize.ShloMosaic.ValueIdx Idealize.ShloMosaic.TcCoe
  Idealize.SL.Sem Idealize.ShloMosaic.StableHlo

/-- One stage of the reference on real-valued arguments is the coercion of the real stage, batch by batch. -/
theorem refStage_coe (x : Model.I3 → ℝ) (wq wk wv : Model.Iqq → ℝ) (w1 : Model.Ihv → ℝ) (b1 : Model.Ih → ℝ)
    (w2 : Model.Ioh → ℝ) (b2 : Model.Io → ℝ) :
    RefValue.refStage (F := Ideal) (fun i => (x i : EReal)) (fun i => (wq i : EReal)) (fun i => (wk i : EReal))
        (fun i => (wv i : EReal)) (fun i => (w1 i : EReal)) (fun i => (b1 i : EReal)) (fun i => (w2 i : EReal))
        (fun i => (b2 i : EReal))
      = fun i => ((Model.stage3 x wq wk wv w1 b1 w2 b2 i : ℝ) : EReal) := by
  funext i
  obtain ⟨b, s, o, rfl⟩ : ∃ (b : Fin 4) (s : Fin 4096) (o : Fin 64), i = ix3 b s o := ⟨i 0, i 1, i 2, eq_ix3 i⟩
  rw [RefValue.refStage_apply]
  exact Cert.Spec.stageH_coe (fun s d => x (ix3 b s d)) (fun d q => wq (ix2 d q)) (fun d q => wk (ix2 d q))
    (fun d q => wv (ix2 d q)) (fun j v => w1 (ix2 j v)) (fun j => b1 (ix1 j)) (fun o j => w2 (ix2 o j))
    (fun o => b2 (ix1 o)) s o

/-- From a memory whose fifteen arguments are coerced real arrays the reference runs, its result ends at the
    coercion of the real program of those arrays, and its arguments end unchanged. -/
theorem ref_value (m' : (ℓ : Loc nD τ sig) → Buf (Elt Ideal) ℓ) (ρ' : Dev nD → PrngReg)
    (x : Dev nD → Model.I3 → ℝ) (q k v q1 k1 v1 : Dev nD → Model.Iqq → ℝ)
    (W1 : Dev nD → Model.Ihv → ℝ) (b1 : Dev nD → Model.Ih → ℝ) (W2 : Dev nD → Model.Ioh → ℝ) (b2 : Dev nD → Model.Io → ℝ)
    (W11 : Dev nD → Model.Ihv → ℝ) (b11 : Dev nD → Model.Ih → ℝ) (W22 : Dev nD → Model.Ioh → ℝ) (b22 : Dev nD → Model.Io → ℝ)
    (h0 : ∀ c : Dev nD, m' ((c.tc : Thread nD τ).loc main_arg0) = fun i => (x c i : EReal))
    (h1 : ∀ c : Dev nD, m' ((c.tc : Thread nD τ).loc main_arg1) = fun i => (q c i : EReal))
    (h2 : ∀ c : Dev nD, m' ((c.tc : Thread nD τ).loc main_arg2) = fun i => (k c i : EReal))
    (h3 : ∀ c : Dev nD, m' ((c.tc : Thread nD τ).loc main_arg3) = fun i => (v c i : EReal))
    (h4 : ∀ c : Dev nD, m' ((c.tc : Thread nD τ).loc main_arg4) = fun i => (q1 c i : EReal))
    (h5 : ∀ c : Dev nD, m' ((c.tc : Thread nD τ).loc main_arg5) = fun i => (k1 c i : EReal))
    (h6 : ∀ c : Dev nD, m' ((c.tc : Thread nD τ).loc main_arg6) = fun i => (v1 c i : EReal))
    (h7 : ∀ c : Dev nD, m' ((c.tc : Thread nD τ).loc main_arg7) = fun i => (W1 c i : EReal))
    (h8 : ∀ c : Dev nD, m' ((c.tc : Thread nD τ).loc main_arg8) = fun i => (b1 c i : EReal))
    (h9 : ∀ c : Dev nD, m' ((c.tc : Thread nD τ).loc main_arg9) = fun i => (W2 c i : EReal))
    (h10 : ∀ c : Dev nD, m' ((c.tc : Thread nD τ).loc main_arg10) = fun i => (b2 c i : EReal))
    (h11 : ∀ c : Dev nD, m' ((c.tc : Thread nD τ).loc main_arg11) = fun i => (W11 c i : EReal))
    (h12 : ∀ c : Dev nD, m' ((c.tc : Thread nD τ).loc main_arg12) = fun i => (b11 c i : EReal))
    (h13 : ∀ c : Dev nD, m' ((c.tc : Thread nD τ).loc main_arg13) = fun i => (W22 c i : EReal))
    (h14 : ∀ c : Dev nD, m' ((c.tc : Thread nD τ).loc main_arg14) = fun i => (b22 c i : EReal)) :
    θ_run (defs (F := Ideal)) (onTc (τ := τ) (main (F := Ideal))) ⟨m', fun _ => 0, ρ'⟩ (fun r => ∀ c : Dev nD,
      r.2.mem ((c.tc : Thread nD τ).loc main_v55) = (fun i => ((Model.outR (x c) (q c) (k c) (v c) (q1 c) (k1 c) (v1 c) (W1 c) (b1 c) (W2 c) (b2 c) (W11 c) (b11 c) (W22 c) (b22 c) i : ℝ) : EReal))
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)
        ∧ r.2.mem ((c.tc : Thread nD τ).loc main_arg3) = m' ((c.tc : Thread nD τ).loc main_arg3)
        ∧ r.2.mem ((c.tc : Thread nD τ).loc main_arg4) = m' ((c.tc : Thread nD τ).loc main_arg4)
        ∧ r.2.mem ((c.tc : Thread nD τ).loc main_arg5) = m' ((c.tc : Thread nD τ).loc main_arg5)
        ∧ r.2.mem ((c.tc : Thread nD τ).loc main_arg6) = m' ((c.tc : Thread nD τ).loc main_arg6)
        ∧ r.2.mem ((c.tc : Thread nD τ).loc main_arg7) = m' ((c.tc : Thread nD τ).loc main_arg7)
        ∧ r.2.mem ((c.tc : Thread nD τ).loc main_arg8) = m' ((c.tc : Thread nD τ).loc main_arg8)
        ∧ r.2.mem ((c.tc : Thread nD τ).loc main_arg9) = m' ((c.tc : Thread nD τ).loc main_arg9)
        ∧ r.2.mem ((c.tc : Thread nD τ).loc main_arg10) = m' ((c.tc : Thread nD τ).loc main_arg10)
        ∧ r.2.mem ((c.tc : Thread nD τ).loc main_arg11) = m' ((c.tc : Thread nD τ).loc main_arg11)
        ∧ r.2.mem ((c.tc : Thread nD τ).loc main_arg12) = m' ((c.tc : Thread nD τ).loc main_arg12)
        ∧ r.2.mem ((c.tc : Thread nD τ).loc main_arg13) = m' ((c.tc : Thread nD τ).loc main_arg13)
        ∧ r.2.mem ((c.tc : Thread nD τ).loc main_arg14) = m' ((c.tc : Thread nD τ).loc main_arg14)) := by
  refine (θ_run _ _ _).mono (fun r h c => ?_) (RefRun.run (F := Ideal) m' ρ')
  refine ⟨?_, (h c main_arg0).trans (RefRun.arg_eq _ main_arg0 (by decide)),
    (h c main_arg1).trans (RefRun.arg_eq _ main_arg1 (by decide)),
    (h c main_arg2).trans (RefRun.arg_eq _ main_arg2 (by decide)),
    (h c main_arg3).trans (RefRun.arg_eq _ main_arg3 (by decide)),
    (h c main_arg4).trans (RefRun.arg_eq _ main_arg4 (by decide)),
    (h c main_arg5).trans (RefRun.arg_eq _ main_arg5 (by decide)),
    (h c main_arg6).trans (RefRun.arg_eq _ main_arg6 (by decide)),
    (h c main_arg7).trans (RefRun.arg_eq _ main_arg7 (by decide)),
    (h c main_arg8).trans (RefRun.arg_eq _ main_arg8 (by decide)),
    (h c main_arg9).trans (RefRun.arg_eq _ main_arg9 (by decide)),
    (h c main_arg10).trans (RefRun.arg_eq _ main_arg10 (by decide)),
    (h c main_arg11).trans (RefRun.arg_eq _ main_arg11 (by decide)),
    (h c main_arg12).trans (RefRun.arg_eq _ main_arg12 (by decide)),
    (h c main_arg13).trans (RefRun.arg_eq _ main_arg13 (by decide)),
    (h c main_arg14).trans (RefRun.arg_eq _ main_arg14 (by decide))⟩
  rw [h c main_v55, RefRun.result_eq]
  show RefValue.refStage (F := Ideal) (RefValue.refStage (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg7)) (m' ((c.tc : Thread nD τ).loc main_arg8)) (m' ((c.tc : Thread nD τ).loc main_arg9)) (m' ((c.tc : Thread nD τ).loc main_arg10)))
    (m' ((c.tc : Thread nD τ).loc main_arg4)) (m' ((c.tc : Thread nD τ).loc main_arg5)) (m' ((c.tc : Thread nD τ).loc main_arg6)) (m' ((c.tc : Thread nD τ).loc main_arg11)) (m' ((c.tc : Thread nD τ).loc main_arg12)) (m' ((c.tc : Thread nD τ).loc main_arg13)) (m' ((c.tc : Thread nD τ).loc main_arg14)) = _
  rw [h0 c, h1 c, h2 c, h3 c, h4 c, h5 c, h6 c, h7 c, h8 c, h9 c, h10 c, h11 c, h12 c, h13 c, h14 c, refStage_coe, refStage_coe]
  rfl

/-- From any memory the reference runs and its arguments end unchanged. -/
theorem ref_frame (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)
        ∧ r.2.mem ((c.tc : Thread nD τ).loc main_arg3) = m' ((c.tc : Thread nD τ).loc main_arg3)
        ∧ r.2.mem ((c.tc : Thread nD τ).loc main_arg4) = m' ((c.tc : Thread nD τ).loc main_arg4)
        ∧ r.2.mem ((c.tc : Thread nD τ).loc main_arg5) = m' ((c.tc : Thread nD τ).loc main_arg5)
        ∧ r.2.mem ((c.tc : Thread nD τ).loc main_arg6) = m' ((c.tc : Thread nD τ).loc main_arg6)
        ∧ r.2.mem ((c.tc : Thread nD τ).loc main_arg7) = m' ((c.tc : Thread nD τ).loc main_arg7)
        ∧ r.2.mem ((c.tc : Thread nD τ).loc main_arg8) = m' ((c.tc : Thread nD τ).loc main_arg8)
        ∧ r.2.mem ((c.tc : Thread nD τ).loc main_arg9) = m' ((c.tc : Thread nD τ).loc main_arg9)
        ∧ r.2.mem ((c.tc : Thread nD τ).loc main_arg10) = m' ((c.tc : Thread nD τ).loc main_arg10)
        ∧ r.2.mem ((c.tc : Thread nD τ).loc main_arg11) = m' ((c.tc : Thread nD τ).loc main_arg11)
        ∧ r.2.mem ((c.tc : Thread nD τ).loc main_arg12) = m' ((c.tc : Thread nD τ).loc main_arg12)
        ∧ r.2.mem ((c.tc : Thread nD τ).loc main_arg13) = m' ((c.tc : Thread nD τ).loc main_arg13)
        ∧ r.2.mem ((c.tc : Thread nD τ).loc main_arg14) = m' ((c.tc : Thread nD τ).loc main_arg14)) :=
  (θ_run _ _ _).mono (fun r h c => ⟨(h c main_arg0).trans (RefRun.arg_eq _ main_arg0 (by decide)),
    (h c main_arg1).trans (RefRun.arg_eq _ main_arg1 (by decide)),
    (h c main_arg2).trans (RefRun.arg_eq _ main_arg2 (by decide)),
    (h c main_arg3).trans (RefRun.arg_eq _ main_arg3 (by decide)),
    (h c main_arg4).trans (RefRun.arg_eq _ main_arg4 (by decide)),
    (h c main_arg5).trans (RefRun.arg_eq _ main_arg5 (by decide)),
    (h c main_arg6).trans (RefRun.arg_eq _ main_arg6 (by decide)),
    (h c main_arg7).trans (RefRun.arg_eq _ main_arg7 (by decide)),
    (h c main_arg8).trans (RefRun.arg_eq _ main_arg8 (by decide)),
    (h c main_arg9).trans (RefRun.arg_eq _ main_arg9 (by decide)),
    (h c main_arg10).trans (RefRun.arg_eq _ main_arg10 (by decide)),
    (h c main_arg11).trans (RefRun.arg_eq _ main_arg11 (by decide)),
    (h c main_arg12).trans (RefRun.arg_eq _ main_arg12 (by decide)),
    (h c main_arg13).trans (RefRun.arg_eq _ main_arg13 (by decide)),
    (h c main_arg14).trans (RefRun.arg_eq _ main_arg14 (by decide))⟩)
    (RefRun.run (F := Ideal) m' ρ')

end Cert.RefSide

end
-- ==== Proof.PreFinite.lean ====
/-
  The printed precondition read back: if `finite_inputs` of the fifteen float arguments is all ones
  at the extended reals, then every entry of every argument is a real number.

  The precondition is the conjunction (a chain of `and` on `i1` scalars) of fifteen `jnp.all(|x| < +inf)`.
  A conjunction that is 1 has both conjuncts 1; an all-reduce by `and` that is 1 met only 1s; and at one
  entry `x` the comparison `max x (-x) < ⊤` fails for `x = ⊥` and `x = ⊤` (both give `⊤ < ⊤`), so `x` is a real.
-/
import proofs.«405560_j29480655519796_3_alg».proof.Pre_finite_inputs
import proofs.«405560_j29480655519796_3_alg».proof.Proof.Gen.Pre_finite_inputs
import Idealize.ShloMosaic.Lib.ReduceAll
import Idealize.ShloMosaic.Lib.ValueIdx
import Idealize.ShloMosaic.PureOps.Ideal
import Mathlib.Data.EReal.Basic

noncomputable section

namespace Cert.PreFinite

open Idealize.ShloMosaic
open Cert.Pre_finite_inputs

/-- The scalar shape has exactly one index. -/
instance : Subsingleton S_.Idx := ⟨fun a b => funext fun d => d.elim0⟩

/-- The pattern `0x7F800000` of `f32` denotes `+∞`. -/
theorem ofBits_inf : Ideal.ofBits .f32 0x7F800000#32 = (⊤ : EReal) := by
  simp [Ideal.ofBits, Ideal.ieee]

/-- One entry: `|x| < +∞` as an `i1` that is 1 says `x` is neither infinity. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

/-- One argument, at any shape: if the all-reduce by `and` of `|a| < +∞` is 1, every entry of `a` is a real. -/
theorem real_of_all {s : Shape} {axes : List (Fin s.rank)}
    (hb : S_.BroadcastsInDim s (![] : Fin 0 → Fin s.rank)) (hr : s.ReducesTo axes S_) (hu : 0 < S_.numel)
    (a : FVec Ideal s .f32) (init : IVec S_ 1) (j : S_.Idx)
    (e : Host.reduce IntOp.andi
          (cmpf .olt (Host.absf a) (broadcastInDim s ![] hb (constant (F := Ideal) S_ .f32 0x7F800000#32))) init hr hu j = 1#1) :
    ∀ i, ∃ r : ℝ, a i = (r : EReal) := by
  intro i
  have hi := Host.reduce_andi_all _ init hr hu j e i
  exact real_of_abs_lt (a i) hi

theorem real_of_pre [Cert.Pre_finite_inputs.Facts] (a0 : FVec Ideal S4x4096x64 .f32)
    (a1 a2 a3 a4 a5 a6 : FVec Ideal S64x64 .f32) (a7 : FVec Ideal S256x64 .f32) (a8 : FVec Ideal S256 .f32)
    (a9 : FVec Ideal S64x256 .f32) (a10 : FVec Ideal S64 .f32) (a11 : FVec Ideal S256x64 .f32)
    (a12 : FVec Ideal S256 .f32) (a13 : FVec Ideal S64x256 .f32) (a14 : FVec Ideal S64 .f32)
    (h : Cert.Pre_finite_inputs.fn (F := Ideal) a0 a1 a2 a3 a4 a5 a6 a7 a8 a9 a10 a11 a12 a13 a14 = (fun _ => 1#1)) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal)) ∧ (∀ i, ∃ r : ℝ, a8 i = (r : EReal))
    ∧ (∀ i, ∃ r : ℝ, a9 i = (r : EReal)) ∧ (∀ i, ∃ r : ℝ, a10 i = (r : EReal)) ∧ (∀ i, ∃ r : ℝ, a11 i = (r : EReal))
    ∧ (∀ i, ∃ r : ℝ, a12 i = (r : EReal)) ∧ (∀ i, ∃ r : ℝ, a13 i = (r : EReal)) ∧ (∀ i, ∃ r : ℝ, a14 i = (r : EReal)) := by
  have h0 := congrFun h ValueIdx.ix0
  dsimp only [fn, fn_part1, fn_part2, fn_part3, fn_part4, Idealize.ShloMosaic.andi] at h0
  simp only [IntOp.andi_eq_one] at h0
  obtain ⟨⟨⟨⟨⟨⟨⟨⟨⟨⟨⟨⟨⟨⟨e0, e1⟩, e2⟩, e3⟩, e4⟩, e5⟩, e6⟩, e7⟩, e8⟩, e9⟩, e10⟩, e11⟩, e12⟩, e13⟩, e14⟩ := h0
  exact ⟨real_of_all _ _ _ a0 _ _ e0, real_of_all _ _ _ a1 _ _ e1, real_of_all _ _ _ a2 _ _ e2,
    real_of_all _ _ _ a3 _ _ e3, real_of_all _ _ _ a4 _ _ e4, real_of_all _ _ _ a5 _ _ e5,
    real_of_all _ _ _ a6 _ _ e6, real_of_all _ _ _ a7 _ _ e7, real_of_all _ _ _ a8 _ _ e8,
    real_of_all _ _ _ a9 _ _ e9, real_of_all _ _ _ a10 _ _ e10, real_of_all _ _ _ a11 _ _ e11,
    real_of_all _ _ _ a12 _ _ e12, real_of_all _ _ _ a13 _ _ e13, real_of_all _ _ _ a14 _ _ e14⟩

end Cert.PreFinite

end
-- ==== Proof.lean ====
/-
  The certificate of a fused two-stage attention-and-MLP kernel against its jnp reference.

  Both programs compute, for each of the four batches, the composition of two stages of Proof/Spec.lean: a single-head
  attention without mask (queries, keys and values projected from the rows; scores scaled by 1/√64; a softmax along the
  keys) followed by a two-layer perceptron with an ELU. The kernel keeps the keys and values of a whole batch in scratch
  memory, scales the queries by the literal 1/8 instead of dividing the scores by √64, normalises after the sum against
  the values, and spells ELU's negative branch `exp h − 1`; the reference divides the scores by `sqrt 64`, normalises the
  weights first and calls `expm1`. Over the extended reals these agree when every argument is finite: every intermediate
  is then a real number, the softmax's normaliser is positive, and the two spellings are one real function
  (Proof/Algebra.lean). The claims:
  * the three frames: the body of the kernel, run through its two counted loops by their invariants, at both
    instances (Proof/K/Body.lean, Proof/KI/Body.lean), and the reference's straight-line run (Proof/Ref/Run.lean);
  * `preserves`: the idealization rewrote nothing;
  * `algebraic`: the kernel's result array is the stage composition of its windows' blocks (Proof/KernelSide.lean), the
    reference's result is the same composition of its arguments (Proof/RefSide.lean), and the arguments agree.
-/
import proofs.«405560_j29480655519796_3_alg».proof.Defs
import proofs.«405560_j29480655519796_3_alg».proof.Proof.Gen.Kernel
import proofs.«405560_j29480655519796_3_alg».proof.Proof.Gen.KernelIdeal
import proofs.«405560_j29480655519796_3_alg».proof.Proof.Gen.ReferenceIdeal
import proofs.«405560_j29480655519796_3_alg».proof.Proof.Gen.Pre_finite_inputs
import proofs.«405560_j29480655519796_3_alg».proof.Proof.K.Body
import proofs.«405560_j29480655519796_3_alg».proof.Proof.KI.Body
import proofs.«405560_j29480655519796_3_alg».proof.Proof.KernelSide
import proofs.«405560_j29480655519796_3_alg».proof.Proof.RefSide
import proofs.«405560_j29480655519796_3_alg».proof.Proof.PreFinite
import proofs.«405560_j29480655519796_3_alg».proof.Proof.Model

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel terminates without a fault and leaves its arguments as they were. -/
theorem frame_kernel : Cert.frame_Kernel := fun m ρ _ => Cert.Kernel.Body.frame m ρ

/-- So does the kernel read at the extended reals. -/
theorem frame_kernelIdeal : Cert.frame_KernelIdeal := fun m ρ _ => Cert.KernelIdeal.Body.frame m ρ

/-- The reference is a straight line of host operations none of which writes an argument. -/
theorem frame_reference : Cert.frame_ReferenceIdeal := fun m ρ _ => Cert.RefSide.ref_frame m ρ

/-- The ideal pass rewrote no operation. -/
theorem preserves : Cert.preserves_Kernel_KernelIdeal := trivial

/-- With every argument finite, both programs end with the coercion of the real two-stage function of the arguments. -/
theorem algebraic : Cert.algebraic_KernelIdeal_ReferenceIdeal := by
  intro m ρ m' ρ' hpre hagree
  have hr := fun c : Dev Cert.KernelIdeal.nD => Cert.PreFinite.real_of_pre _ _ _ _ _ _ _ _ _ _ _ _ _ _ _ (hpre c)
  choose x hx using fun c => Cert.Model.exists_real _ (hr c).1
  choose q hq using fun c => Cert.Model.exists_real _ (hr c).2.1
  choose k hk using fun c => Cert.Model.exists_real _ (hr c).2.2.1
  choose v hv using fun c => Cert.Model.exists_real _ (hr c).2.2.2.1
  choose q1 hq1 using fun c => Cert.Model.exists_real _ (hr c).2.2.2.2.1
  choose k1 hk1 using fun c => Cert.Model.exists_real _ (hr c).2.2.2.2.2.1
  choose v1 hv1 using fun c => Cert.Model.exists_real _ (hr c).2.2.2.2.2.2.1
  choose W1 hW1 using fun c => Cert.Model.exists_real _ (hr c).2.2.2.2.2.2.2.1
  choose b1 hb1 using fun c => Cert.Model.exists_real _ (hr c).2.2.2.2.2.2.2.2.1
  choose W2 hW2 using fun c => Cert.Model.exists_real _ (hr c).2.2.2.2.2.2.2.2.2.1
  choose b2 hb2 using fun c => Cert.Model.exists_real _ (hr c).2.2.2.2.2.2.2.2.2.2.1
  choose W11 hW11 using fun c => Cert.Model.exists_real _ (hr c).2.2.2.2.2.2.2.2.2.2.2.1
  choose b11 hb11 using fun c => Cert.Model.exists_real _ (hr c).2.2.2.2.2.2.2.2.2.2.2.2.1
  choose W22 hW22 using fun c => Cert.Model.exists_real _ (hr c).2.2.2.2.2.2.2.2.2.2.2.2.2.1
  choose b22 hb22 using fun c => Cert.Model.exists_real _ (hr c).2.2.2.2.2.2.2.2.2.2.2.2.2.2
  refine ⟨fun c i => ((Cert.Model.outR (x c) (q c) (k c) (v c) (q1 c) (k1 c) (v1 c) (W1 c) (b1 c) (W2 c) (b2 c) (W11 c) (b11 c) (W22 c) (b22 c) i : ℝ) : EReal),
    Cert.KernelSide.kernel_value m ρ x q k v q1 k1 v1 W1 b1 W2 b2 W11 b11 W22 b22 hx hq hk hv hq1 hk1 hv1 hW1 hb1 hW2 hb2 hW11 hb11 hW22 hb22, ?_⟩
  exact Cert.RefSide.ref_value m' ρ' x q k v q1 k1 v1 W1 b1 W2 b2 W11 b11 W22 b22
      (fun c => ((hagree c).1).trans (hx c))
      (fun c => ((hagree c).2.1).trans (hq c))
      (fun c => ((hagree c).2.2.1).trans (hk c))
      (fun c => ((hagree c).2.2.2.1).trans (hv c))
      (fun c => ((hagree c).2.2.2.2.1).trans (hq1 c))
      (fun c => ((hagree c).2.2.2.2.2.1).trans (hk1 c))
      (fun c => ((hagree c).2.2.2.2.2.2.1).trans (hv1 c))
      (fun c => ((hagree c).2.2.2.2.2.2.2.1).trans (hW1 c))
      (fun c => ((hagree c).2.2.2.2.2.2.2.2.1).trans (hb1 c))
      (fun c => ((hagree c).2.2.2.2.2.2.2.2.2.1).trans (hW2 c))
      (fun c => ((hagree c).2.2.2.2.2.2.2.2.2.2.1).trans (hb2 c))
      (fun c => ((hagree c).2.2.2.2.2.2.2.2.2.2.2.1).trans (hW11 c))
      (fun c => ((hagree c).2.2.2.2.2.2.2.2.2.2.2.2.1).trans (hb11 c))
      (fun c => ((hagree c).2.2.2.2.2.2.2.2.2.2.2.2.2.1).trans (hW22 c))
      (fun c => ((hagree c).2.2.2.2.2.2.2.2.2.2.2.2.2.2).trans (hb22 c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
